-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) (main_arg1 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  main_v8
-- ==== Kernel.lean ====
abbrev S16x3x512x512 : Shape := ⟨4, ![16, 3, 512, 512]⟩
abbrev S2x32x16 : Shape := ⟨3, ![2, 32, 16]⟩
abbrev S1x1x512x512 : Shape := ⟨4, ![1, 1, 512, 512]⟩
abbrev S1x32x16 : Shape := ⟨3, ![1, 32, 16]⟩
abbrev S32x16 : Shape := ⟨2, ![32, 16]⟩
abbrev S512x512 : Shape := ⟨2, ![512, 512]⟩
abbrev S32x512 : Shape := ⟨2, ![32, 512]⟩
abbrev S16384 : Shape := ⟨1, ![16384]⟩
abbrev S16384x32 : Shape := ⟨2, ![16384, 32]⟩
abbrev S16384x16 : Shape := ⟨2, ![16384, 16]⟩
abbrev S16384x1 : Shape := ⟨2, ![16384, 1]⟩
abbrev S_ : Shape := ⟨0, ![]⟩
abbrev S512 : Shape := ⟨1, ![512]⟩
abbrev S511 : Shape := ⟨1, ![511]⟩

abbrev nBuf : Space → Nat
  | .hbm => 26
  | .vmem => 12
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S2x32x16, .f32⟩
  | .hbm, ⟨3, _⟩ => ⟨S2x32x16, .f32⟩
  | .hbm, ⟨4, _⟩ => ⟨S2x32x16, .f32⟩
  | .hbm, ⟨5, _⟩ => ⟨S2x32x16, .f32⟩
  | .hbm, ⟨6, _⟩ => ⟨S_, .f32⟩
  | .hbm, ⟨7, _⟩ => ⟨S32x16, .f32⟩
  | .hbm, ⟨8, _⟩ => ⟨S512, .f32⟩
  | .hbm, ⟨9, _⟩ => ⟨S511, .f32⟩
  | .hbm, ⟨10, _⟩ => ⟨S511, .i32⟩
  | .hbm, ⟨11, _⟩ => ⟨S_, .f32⟩
  | .hbm, ⟨12, _⟩ => ⟨S32x16, .f32⟩
  | .hbm, ⟨13, _⟩ => ⟨S512, .f32⟩
  | .hbm, ⟨14, _⟩ => ⟨S511, .f32⟩
  | .hbm, ⟨15, _⟩ => ⟨S511, .i32⟩
  | .hbm, ⟨16, _⟩ => ⟨S_, .f32⟩
  | .hbm, ⟨17, _⟩ => ⟨S32x16, .f32⟩
  | .hbm, ⟨18, _⟩ => ⟨S512, .f32⟩
  | .hbm, ⟨19, _⟩ => ⟨S511, .f32⟩
  | .hbm, ⟨20, _⟩ => ⟨S511, .i32⟩
  | .hbm, ⟨21, _⟩ => ⟨S_, .f32⟩
  | .hbm, ⟨22, _⟩ => ⟨S32x16, .f32⟩
  | .hbm, ⟨23, _⟩ => ⟨S512, .f32⟩
  | .hbm, ⟨24, _⟩ => ⟨S511, .f32⟩
  | .hbm, ⟨25, _⟩ => ⟨S511, .i32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x32x16, .f32⟩
  | .local _ .vmem, ⟨5, _⟩ => ⟨S1x32x16, .f32⟩
  | .local _ .vmem, ⟨6, _⟩ => ⟨S1x32x16, .f32⟩
  | .local _ .vmem, ⟨7, _⟩ => ⟨S1x32x16, .f32⟩
  | .local _ .vmem, ⟨8, _⟩ => ⟨S1x32x16, .f32⟩
  | .local _ .vmem, ⟨9, _⟩ => ⟨S1x32x16, .f32⟩
  | .local _ .vmem, ⟨10, _⟩ => ⟨S1x32x16, .f32⟩
  | .local _ .vmem, ⟨11, _⟩ => ⟨S1x32x16, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 24], ![false, false]⟩

def cc0_transform_0 (i : grid0.Coords) : Fin 4 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c3_i32 : BitVec 32 := 3#32
  let v2 : BitVec 32 := Scalar.divsi v1 c3_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c3_i32_4 : BitVec 32 := 3#32
  let c0_i32_5 : BitVec 32 := 0#32
  let v19 : BitVec 1 := Scalar.cmpi .eq c3_i32_4 c0_i32_5
  let c1_i32_6 : BitVec 32 := 1#32
  let v20 : BitVec 32 := Scalar.select v19 c1_i32_6 c3_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  let c0_i32_12 : BitVec 32 := 0#32
  ![v18.toNat, v28.toNat, c0_i32_10.toNat, c0_i32_11.toNat]

def cc0_transform_1 (i : grid0.Coords) : Fin 4 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c3_i32 : BitVec 32 := 3#32
  let v2 : BitVec 32 := Scalar.divsi v1 c3_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c3_i32_4 : BitVec 32 := 3#32
  let c0_i32_5 : BitVec 32 := 0#32
  let v19 : BitVec 1 := Scalar.cmpi .eq c3_i32_4 c0_i32_5
  let c1_i32_6 : BitVec 32 := 1#32
  let v20 : BitVec 32 := Scalar.select v19 c1_i32_6 c3_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  let c0_i32_12 : BitVec 32 := 0#32
  ![v18.toNat, v28.toNat, c0_i32_10.toNat, c0_i32_11.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x32x16_S1x32x16_0_0_0 : ∀ a, (![0, 0, 0] : Fin 3 → Nat) a + S1x32x16.size a ≤ S1x32x16.size a
  h_S1x32x16 : 0 < S1x32x16.numel
  shapeCasts_S1x32x16_S32x16 : S1x32x16.ShapeCasts S32x16
  shapeCasts_S32x16_S1x32x16 : S32x16.ShapeCasts S1x32x16
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  rotates_S512x512_d1 : S512x512.Rotates 1 none
  iota_S512x512_d1_w32 : S512x512.Iotas .tc 32 [1]
  slices_S512x512_o0_0_S32x512 : S512x512.Slices ![0, 0] S32x512
  shapeCasts_S32x512_S16384 : S32x512.ShapeCasts S16384
  natLt_1_32 : 1 < 32
  iota_S16384x32_d1_w32 : S16384x32.Iotas .tc 32 [1]
  iota_S16384x16_d1_w32 : S16384x16.Iotas .tc 32 [1]
  shapeCasts_S16384_S16384x1 : S16384.ShapeCasts S16384x1
  broadcasts_S16384x1_S16384x32 : S16384x1.Broadcasts S16384x32
  bitsLt_bf16_f32 : FTy.bits .bf16 < FTy.bits .f32
  broadcasts_S16384x1_S16384x16 : S16384x1.Broadcasts S16384x16
  slices_S512x512_o32_0_S32x512 : S512x512.Slices ![32, 0] S32x512
  slices_S512x512_o64_0_S32x512 : S512x512.Slices ![64, 0] S32x512
  slices_S512x512_o96_0_S32x512 : S512x512.Slices ![96, 0] S32x512
  slices_S512x512_o128_0_S32x512 : S512x512.Slices ![128, 0] S32x512
  slices_S512x512_o160_0_S32x512 : S512x512.Slices ![160, 0] S32x512
  slices_S512x512_o192_0_S32x512 : S512x512.Slices ![192, 0] S32x512
  slices_S512x512_o224_0_S32x512 : S512x512.Slices ![224, 0] S32x512
  slices_S512x512_o256_0_S32x512 : S512x512.Slices ![256, 0] S32x512
  slices_S512x512_o288_0_S32x512 : S512x512.Slices ![288, 0] S32x512
  slices_S512x512_o320_0_S32x512 : S512x512.Slices ![320, 0] S32x512
  slices_S512x512_o352_0_S32x512 : S512x512.Slices ![352, 0] S32x512
  slices_S512x512_o384_0_S32x512 : S512x512.Slices ![384, 0] S32x512
  slices_S512x512_o416_0_S32x512 : S512x512.Slices ![416, 0] S32x512
  slices_S512x512_o448_0_S32x512 : S512x512.Slices ![448, 0] S32x512
  slices_S512x512_o480_0_S32x512 : S512x512.Slices ![480, 0] S32x512
  rotates_S512x512_d0 : S512x512.Rotates 0 none
  iota_S512x512_d0_w32 : S512x512.Iotas .tc 32 [0]
  reducesTo_S2x32x16_S32x16_d0 : S2x32x16.ReducesTo [0] S32x16
  h_S_ : 0 < S_.numel
  shapeCasts_S32x16_S512 : S32x16.ShapeCasts S512
  slices_S512_S511_0 : S512.Slices ![0] S511
  dot_S16384x32_S16384x16_S32x16_0_0_1_1_n_n_wf : DotDims.WF S16384x32 S16384x16 S32x16 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S16x3x512x512.size a
  hwx0_0 : ∀ i : grid0.Coords, EltTy.bits .f32 = 32 ∨ (Rect.block (s := S16x3x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S16x3x512x512.size a
  hwx0_1 : ∀ i : grid0.Coords, EltTy.bits .f32 = 32 ∨ (Rect.block (s := S16x3x512x512) S1x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x16.size a ≤ S2x32x16.size a
  hwx0_2 : ∀ i : grid0.Coords, EltTy.bits .f32 = 32 ∨ (Rect.block (s := S2x32x16) S1x32x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x16.size a ≤ S2x32x16.size a
  hwx0_3 : ∀ i : grid0.Coords, EltTy.bits .f32 = 32 ∨ (Rect.block (s := S2x32x16) S1x32x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x16.size a ≤ S2x32x16.size a
  hwx0_4 : ∀ i : grid0.Coords, EltTy.bits .f32 = 32 ∨ (Rect.block (s := S2x32x16) S1x32x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x16.size a ≤ S2x32x16.size a
  hwx0_5 : ∀ i : grid0.Coords, EltTy.bits .f32 = 32 ∨ (Rect.block (s := S2x32x16) S1x32x16.size (cc0_transform_5 i) (hinb0_5 i)).WholeWords (EltTy.packing .f32)

variable [Facts₀]

def dot_S16384x32_S16384x16_S32x16_0_0_1_1_n_n : DotDims S16384x32 S16384x16 S32x16 where
  lhsContracting := [0]
  rhsContracting := [0]
  lhsNonContracting := [1]
  rhsNonContracting := [1]
  lhsBatch := []
  rhsBatch := []
  wf := dot_S16384x32_S16384x16_S32x16_0_0_1_1_n_n_wf

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x32x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x32x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x32x16.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x32x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x3x512x512 : Shape := ⟨4, ![16, 3, 512, 512]⟩
abbrev S16x3x512x511 : Shape := ⟨4, ![16, 3, 512, 511]⟩
abbrev S16x3x511x512 : Shape := ⟨4, ![16, 3, 511, 512]⟩
abbrev S12558336 : Shape := ⟨1, ![12558336]⟩
abbrev S_ : Shape := ⟨0, ![]⟩
abbrev S511 : Shape := ⟨1, ![511]⟩
abbrev S12558336x1 : Shape := ⟨2, ![12558336, 1]⟩

abbrev nBuf : Space → Nat
  | .hbm => 146
  | .vmem => 0
  | .smem => 0
  | _ => 0

abbrev hbmTy0_0 (i : Nat) : BufTy := match i % 128 with
  | 0 => ⟨S16x3x512x512, .f32⟩
  | 1 => ⟨S16x3x512x512, .f32⟩
  | 2 => ⟨S16x3x512x511, .f32⟩
  | 3 => ⟨S16x3x512x511, .f32⟩
  | 4 => ⟨S16x3x512x511, .f32⟩
  | 5 => ⟨S16x3x511x512, .f32⟩
  | 6 => ⟨S16x3x511x512, .f32⟩
  | 7 => ⟨S16x3x511x512, .f32⟩
  | 8 => ⟨S16x3x512x511, .f32⟩
  | 9 => ⟨S16x3x512x511, .f32⟩
  | 10 => ⟨S16x3x512x511, .f32⟩
  | 11 => ⟨S16x3x511x512, .f32⟩
  | 12 => ⟨S16x3x511x512, .f32⟩
  | 13 => ⟨S16x3x511x512, .f32⟩
  | 14 => ⟨S12558336, .f32⟩
  | 15 => ⟨S_, .f32⟩
  | 16 => ⟨S12558336, .f32⟩
  | 17 => ⟨S12558336, .i1⟩
  | 18 => ⟨S_, .f32⟩
  | 19 => ⟨S12558336, .f32⟩
  | 20 => ⟨S12558336, .i1⟩
  | 21 => ⟨S12558336, .i1⟩
  | 22 => ⟨S12558336, .f32⟩
  | 23 => ⟨S12558336, .i32⟩
  | 24 => ⟨S_, .i32⟩
  | 25 => ⟨S12558336, .i32⟩
  | 26 => ⟨S12558336, .i32⟩
  | 27 => ⟨S_, .i32⟩
  | 28 => ⟨S_, .i32⟩
  | 29 => ⟨S_, .i32⟩
  | 30 => ⟨S12558336, .i32⟩
  | 31 => ⟨S12558336, .i32⟩
  | 32 => ⟨S_, .i32⟩
  | 33 => ⟨S12558336, .i32⟩
  | 34 => ⟨S12558336, .i32⟩
  | 35 => ⟨S_, .i32⟩
  | 36 => ⟨S511, .i32⟩
  | 37 => ⟨S12558336, .i32⟩
  | 38 => ⟨S_, .i32⟩
  | 39 => ⟨S12558336, .i32⟩
  | 40 => ⟨S12558336, .i1⟩
  | 41 => ⟨S_, .i32⟩
  | 42 => ⟨S12558336, .i32⟩
  | 43 => ⟨S12558336, .i32⟩
  | 44 => ⟨S12558336, .i32⟩
  | 45 => ⟨S12558336x1, .i32⟩
  | 46 => ⟨S511, .i32⟩
  | 47 => ⟨S12558336, .f32⟩
  | 48 => ⟨S_, .f32⟩
  | 49 => ⟨S12558336, .f32⟩
  | 50 => ⟨S12558336, .i1⟩
  | 51 => ⟨S_, .f32⟩
  | 52 => ⟨S12558336, .f32⟩
  | 53 => ⟨S12558336, .i1⟩
  | 54 => ⟨S12558336, .i1⟩
  | 55 => ⟨S12558336, .f32⟩
  | 56 => ⟨S12558336, .i32⟩
  | 57 => ⟨S_, .i32⟩
  | 58 => ⟨S12558336, .i32⟩
  | 59 => ⟨S12558336, .i32⟩
  | 60 => ⟨S_, .i32⟩
  | 61 => ⟨S_, .i32⟩
  | 62 => ⟨S_, .i32⟩
  | 63 => ⟨S12558336, .i32⟩
  | 64 => ⟨S12558336, .i32⟩
  | 65 => ⟨S_, .i32⟩
  | 66 => ⟨S12558336, .i32⟩
  | 67 => ⟨S12558336, .i32⟩
  | 68 => ⟨S_, .i32⟩
  | 69 => ⟨S511, .i32⟩
  | 70 => ⟨S12558336, .i32⟩
  | 71 => ⟨S_, .i32⟩
  | 72 => ⟨S12558336, .i32⟩
  | 73 => ⟨S12558336, .i1⟩
  | 74 => ⟨S_, .i32⟩
  | 75 => ⟨S12558336, .i32⟩
  | 76 => ⟨S12558336, .i32⟩
  | 77 => ⟨S12558336, .i32⟩
  | 78 => ⟨S12558336x1, .i32⟩
  | 79 => ⟨S511, .i32⟩
  | 80 => ⟨S12558336, .f32⟩
  | 81 => ⟨S_, .f32⟩
  | 82 => ⟨S12558336, .f32⟩
  | 83 => ⟨S12558336, .i1⟩
  | 84 => ⟨S_, .f32⟩
  | 85 => ⟨S12558336, .f32⟩
  | 86 => ⟨S12558336, .i1⟩
  | 87 => ⟨S12558336, .i1⟩
  | 88 => ⟨S12558336, .f32⟩
  | 89 => ⟨S12558336, .i32⟩
  | 90 => ⟨S_, .i32⟩
  | 91 => ⟨S12558336, .i32⟩
  | 92 => ⟨S12558336, .i32⟩
  | 93 => ⟨S_, .i32⟩
  | 94 => ⟨S_, .i32⟩
  | 95 => ⟨S_, .i32⟩
  | 96 => ⟨S12558336, .i32⟩
  | 97 => ⟨S12558336, .i32⟩
  | 98 => ⟨S_, .i32⟩
  | 99 => ⟨S12558336, .i32⟩
  | 100 => ⟨S12558336, .i32⟩
  | 101 => ⟨S_, .i32⟩
  | 102 => ⟨S511, .i32⟩
  | 103 => ⟨S12558336, .i32⟩
  | 104 => ⟨S_, .i32⟩
  | 105 => ⟨S12558336, .i32⟩
  | 106 => ⟨S12558336, .i1⟩
  | 107 => ⟨S_, .i32⟩
  | 108 => ⟨S12558336, .i32⟩
  | 109 => ⟨S12558336, .i32⟩
  | 110 => ⟨S12558336, .i32⟩
  | 111 => ⟨S12558336x1, .i32⟩
  | 112 => ⟨S511, .i32⟩
  | 113 => ⟨S12558336, .f32⟩
  | 114 => ⟨S_, .f32⟩
  | 115 => ⟨S12558336, .f32⟩
  | 116 => ⟨S12558336, .i1⟩
  | 117 => ⟨S_, .f32⟩
  | 118 => ⟨S12558336, .f32⟩
  | 119 => ⟨S12558336, .i1⟩
  | 120 => ⟨S12558336, .i1⟩
  | 121 => ⟨S12558336, .f32⟩
  | 122 => ⟨S12558336, .i32⟩
  | 123 => ⟨S_, .i32⟩
  | 124 => ⟨S12558336, .i32⟩
  | 125 => ⟨S12558336, .i32⟩
  | 126 => ⟨S_, .i32⟩
  | 127 => ⟨S_, .i32⟩
  | _ => ⟨S16x3x512x512, .f32⟩

abbrev hbmTy0_1 (i : Nat) : BufTy := match i % 128 with
  | 0 => ⟨S_, .i32⟩
  | 1 => ⟨S12558336, .i32⟩
  | 2 => ⟨S12558336, .i32⟩
  | 3 => ⟨S_, .i32⟩
  | 4 => ⟨S12558336, .i32⟩
  | 5 => ⟨S12558336, .i32⟩
  | 6 => ⟨S_, .i32⟩
  | 7 => ⟨S511, .i32⟩
  | 8 => ⟨S12558336, .i32⟩
  | 9 => ⟨S_, .i32⟩
  | 10 => ⟨S12558336, .i32⟩
  | 11 => ⟨S12558336, .i1⟩
  | 12 => ⟨S_, .i32⟩
  | 13 => ⟨S12558336, .i32⟩
  | 14 => ⟨S12558336, .i32⟩
  | 15 => ⟨S12558336, .i32⟩
  | 16 => ⟨S12558336x1, .i32⟩
  | 17 => ⟨S511, .i32⟩
  | _ => ⟨S16x3x512x512, .f32⟩

abbrev hbmTy (i : Nat) : BufTy := match i / 128 with
  | 0 => hbmTy0_0 i
  | 1 => hbmTy0_1 i
  | _ => ⟨S16x3x512x512, .f32⟩

abbrev bufTy : (tb : Table) → Fin (tcTables nBuf tb) → BufTy
  | .hbm, ⟨i, _⟩ => hbmTy i
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c : Ref sig .tc := ⟨.hbm, 24, rfl⟩
abbrev main_v20 : Ref sig .tc := ⟨.hbm, 25, rfl⟩
abbrev main_v21 : Ref sig .tc := ⟨.hbm, 26, rfl⟩
abbrev main_c_1 : Ref sig .tc := ⟨.hbm, 27, rfl⟩
abbrev main_c_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_8 : Ref sig .tc := ⟨.hbm, 57, rfl⟩
abbrev main_v40 : Ref sig .tc := ⟨.hbm, 58, rfl⟩
abbrev main_v41 : Ref sig .tc := ⟨.hbm, 59, rfl⟩
abbrev main_c_9 : Ref sig .tc := ⟨.hbm, 60, rfl⟩
abbrev main_c_10 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_c_12 : Ref sig .tc := ⟨.hbm, 71, rfl⟩
abbrev main_v45 : Ref sig .tc := ⟨.hbm, 72, rfl⟩
abbrev main_v46 : Ref sig .tc := ⟨.hbm, 73, rfl⟩
abbrev main_c_13 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_14 : Ref sig .tc := ⟨.hbm, 81, rfl⟩
abbrev main_v53 : Ref sig .tc := ⟨.hbm, 82, rfl⟩
abbrev main_v54 : Ref sig .tc := ⟨.hbm, 83, rfl⟩
abbrev main_cst_15 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_16 : Ref sig .tc := ⟨.hbm, 90, rfl⟩
abbrev main_v60 : Ref sig .tc := ⟨.hbm, 91, rfl⟩
abbrev main_v61 : Ref sig .tc := ⟨.hbm, 92, rfl⟩
abbrev main_c_17 : Ref sig .tc := ⟨.hbm, 93, rfl⟩
abbrev main_c_18 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_v62 : Ref sig .tc := ⟨.hbm, 100, rfl⟩
abbrev main_c_19 : Ref sig .tc := ⟨.hbm, 101, rfl⟩
abbrev main_v63 : Ref sig .tc := ⟨.hbm, 102, rfl⟩
abbrev main_v64 : Ref sig .tc := ⟨.hbm, 103, rfl⟩
abbrev main_c_20 : Ref sig .tc := ⟨.hbm, 104, rfl⟩
abbrev main_v65 : Ref sig .tc := ⟨.hbm, 105, rfl⟩
abbrev main_v66 : Ref sig .tc := ⟨.hbm, 106, rfl⟩
abbrev main_c_21 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_22 : Ref sig .tc := ⟨.hbm, 114, rfl⟩
abbrev main_v73 : Ref sig .tc := ⟨.hbm, 115, rfl⟩
abbrev main_v74 : Ref sig .tc := ⟨.hbm, 116, rfl⟩
abbrev main_cst_23 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_c_24 : Ref sig .tc := ⟨.hbm, 123, rfl⟩
abbrev main_v80 : Ref sig .tc := ⟨.hbm, 124, rfl⟩
abbrev main_v81 : Ref sig .tc := ⟨.hbm, 125, rfl⟩
abbrev main_c_25 : Ref sig .tc := ⟨.hbm, 126, rfl⟩
abbrev main_c_26 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_v82 : Ref sig .tc := ⟨.hbm, 133, rfl⟩
abbrev main_c_27 : Ref sig .tc := ⟨.hbm, 134, rfl⟩
abbrev main_v83 : Ref sig .tc := ⟨.hbm, 135, rfl⟩
abbrev main_v84 : Ref sig .tc := ⟨.hbm, 136, rfl⟩
abbrev main_c_28 : Ref sig .tc := ⟨.hbm, 137, rfl⟩
abbrev main_v85 : Ref sig .tc := ⟨.hbm, 138, rfl⟩
abbrev main_v86 : Ref sig .tc := ⟨.hbm, 139, rfl⟩
abbrev main_c_29 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩

abbrev nD : Nat := 1
abbrev τ : Topo := Topo.v7x

variable {F : FTy → Type} [FloatOps F]

class Facts₀ : Prop where
  slices_S16x3x512x512_S16x3x512x511_0_0_0_1 : S16x3x512x512.Slices ![0, 0, 0, 1] S16x3x512x511
  slices_S16x3x512x512_S16x3x512x511_0_0_0_0 : S16x3x512x512.Slices ![0, 0, 0, 0] S16x3x512x511
  slices_S16x3x512x512_S16x3x511x512_0_0_1_0 : S16x3x512x512.Slices ![0, 0, 1, 0] S16x3x511x512
  slices_S16x3x512x512_S16x3x511x512_0_0_0_0 : S16x3x512x512.Slices ![0, 0, 0, 0] S16x3x511x512
  shapeCasts_S16x3x512x511_S12558336 : S16x3x512x511.ShapeCasts S12558336
  bcast_S_S12558336 : S_.BroadcastsInDim S12558336 (![] : Fin 0 → Fin S12558336.rank)
  bcast_S_S511 : S_.BroadcastsInDim S511 (![] : Fin 0 → Fin S511.rank)
  natLt_1_32 : 1 < 32
  bcast_S12558336_S12558336x1_0 : S12558336.BroadcastsInDim S12558336x1 (![0] : Fin 1 → Fin S12558336x1.rank)
  shapeCasts_S16x3x511x512_S12558336 : S16x3x511x512.ShapeCasts S12558336
  scatter_S511_S12558336x1_S12558336_n_0_0_1_wf : ScatterDims.WF S511 S12558336x1 S12558336 [] [0] [0] 1

variable [Facts₀]

def scatter_S511_S12558336x1_S12558336_n_0_0_1 : ScatterDims S511 S12558336x1 S12558336 where
  updateWindowDims := []
  insertedWindowDims := [0]
  scatterDimsToOperandDims := [0]
  indexVectorDim := 1
  wf := scatter_S511_S12558336x1_S12558336_n_0_0_1_wf

class Facts : Prop extends Facts₀ where

variable [Facts]
-- ==== Proof.Counting.lean ====
/-
  Slots and counts: the common vocabulary of the two programs.

  A value x is tested against the closed interval [-255, 256] and, inside it, sent to the word
  min 510 (max 0 (floor x + 255)) (signed comparisons); a value outside the interval is sent to the spare word 511.
  That word is the value's slot.  hit b x is one when x falls in slot b and zero otherwise.  For a stack of sixteen
  three-channel 512 x 512 images, countX counts, per slot, the horizontal differences (right neighbour minus entry,
  511 per row) and countY the vertical ones (lower neighbour minus entry, 511 per column).
-/
import Idealize.ShloMosaic.PureOps.Ideal
import Idealize.ShloMosaic.Lib.ValueIdx

noncomputable section

namespace Cert.Hist

open Idealize.ShloMosaic Idealize.ShloMosaic.ValueIdx

/-- The lower end of the interval, -255. -/
abbrev loEnd : Ideal .f32 := FloatOps.ofBits (F := Ideal) .f32 0xC37F0000#32
/-- The upper end of the interval, 256. -/
abbrev hiEnd : Ideal .f32 := FloatOps.ofBits (F := Ideal) .f32 0x43800000#32
/-- The value that stands in for a missing neighbour, -10000. -/
abbrev farAway : Ideal .f32 := FloatOps.ofBits (F := Ideal) .f32 0xC61C4000#32

/-- The interval test, as a one-bit word. -/
def inRange (x : Ideal .f32) : BitVec 1 :=
  IntOp.andi (FloatOps.cmpf (F := Ideal) .oge x loEnd) (FloatOps.cmpf (F := Ideal) .ole x hiEnd)

/-- The clipped shifted floor. -/
def binWord (x : Ideal .f32) : BitVec 32 :=
  IntOp.minsi 510#32 (IntOp.maxsi 0#32 (IntOp.addi (FloatOps.fptosi (F := Ideal) 32 (FloatOps.floor (F := Ideal) x)) 255#32))

/-- The slot of a value: its clipped shifted floor inside the interval, the spare word 511 outside. -/
def slot (x : Ideal .f32) : BitVec 32 :=
  Scalar.select (inRange x) (binWord x) 511#32

/-- One when the value falls in slot b. -/
def hit (b : ℕ) (x : Ideal .f32) : ℕ := if (slot x).toNat = b then 1 else 0

/-- The difference of two entries. -/
abbrev diff (a b : Ideal .f32) : Ideal .f32 := FloatOps.subf (F := Ideal) a b

/-- The shape of an image stack. -/
abbrev Stack : Shape := ⟨4, ![16, 3, 512, 512]⟩

/-- How many horizontal differences of the stack fall in slot b. -/
def countX (A : Stack.Idx → Ideal .f32) (b : ℕ) : ℕ :=
  ∑ n : Fin 16, ∑ ch : Fin 3, ∑ r : Fin 512, ∑ c : Fin 511,
    hit b (diff (A (ix4 n ch r ⟨c.val + 1, by omega⟩)) (A (ix4 n ch r ⟨c.val, by omega⟩)))

/-- How many vertical differences of the stack fall in slot b. -/
def countY (A : Stack.Idx → Ideal .f32) (b : ℕ) : ℕ :=
  ∑ n : Fin 16, ∑ ch : Fin 3, ∑ r : Fin 511, ∑ c : Fin 512,
    hit b (diff (A (ix4 n ch ⟨r.val + 1, by omega⟩ c)) (A (ix4 n ch ⟨r.val, by omega⟩ c)))

end Cert.Hist

end
-- ==== Proof.BodySpec.lean ====
/-
  The kernel body's arithmetic as a handful of named functions, generic in the float instance.

  A tile is a 512 x 512 image.  Its horizontal difference holds, at (r, c) with c < 511, the right neighbour minus
  the entry, and at the last column a far-away negative value; its vertical difference likewise along the rows.  A
  difference is cut into sixteen chunks of 32 rows, each flattened to 16384 values.  Every value gets a slot word in
  [0, 511]: the clipped floor of the value shifted by 255 when the value lies in [-255, 256], and 511 otherwise.  The
  slot word is split into a high digit (its quotient by 16, written with the sign-correcting steps of a floor
  division) and a low digit; the chunk's counts are the 32 x 16 product of the two one-hot matrices, contracted over
  the 16384 values.  The tile's counts are the sum of the chunks' counts, and a point of the grid adds them to the
  running block.
-/
import proofs.«161051_j23536420782150_1_alg».proof.KernelIdeal

noncomputable section

namespace Cert.KernelIdeal.Body

open Idealize.ShloMosaic Idealize.SL.Sem Cert.KernelIdeal

variable {F : FTy → Type} [FloatOps F] [Facts]
open Facts₀ Facts

/-- The slot word of each value of a chunk: the clipped shifted floor inside [-255, 256], the spare slot 511 outside. -/
def slotWord (x : FVec F S16384 .f32) : IVec S16384 32 :=
  select (andi (cmpf .oge x (broadcast S16384 (Scalar.ofBits .f32 0xC37F0000#32)))
               (cmpf .ole x (broadcast S16384 (Scalar.ofBits .f32 0x43800000#32))))
    (minsi (broadcast S16384 510#32) (maxsi (broadcast S16384 0#32) (addi (fptosi 32 (floor x)) (broadcast S16384 255#32))))
    (broadcast S16384 511#32)

/-- The high digit: the floor quotient by 16 (truncating quotient, lowered by one where the signs differ and the
    remainder is not zero). -/
def hiDigit (s : IVec S16384 32) : IVec S16384 32 :=
  select
    (andi
      (cmpi .ne
        (subi (extui 32 (cmpi .sgt s (broadcast S16384 0#32)) natLt_1_32) (extui 32 (cmpi .slt s (broadcast S16384 0#32)) natLt_1_32))
        (broadcast S16384 (Scalar.subi (Scalar.extui (Scalar.cmpi .sgt 16#32 0#32)) (Scalar.extui (Scalar.cmpi .slt 16#32 0#32)))))
      (cmpi .ne (remsi s (broadcast S16384 16#32)) (broadcast S16384 0#32)))
    (subi (divsi s (broadcast S16384 16#32)) (broadcast S16384 1#32))
    (divsi s (broadcast S16384 16#32))

/-- The low digit: the slot word less sixteen times the high digit. -/
def loDigit (s : IVec S16384 32) : IVec S16384 32 :=
  subi s (muli (hiDigit s) (broadcast S16384 16#32))

/-- The one-hot matrix of the high digits: entry (k, h) is one where value k has high digit h. -/
def oneHotHi (s : IVec S16384 32) : FVec F S16384x32 .bf16 :=
  truncf .bf16 (sitofp .f32 (extui 32 (cmpi .eq (iota .tc S16384x32 32 [1] iota_S16384x32_d1_w32)
    (broadcastTo S16384x32 (shapeCast S16384x1 (hiDigit s) shapeCasts_S16384_S16384x1) broadcasts_S16384x1_S16384x32)) natLt_1_32)) bitsLt_bf16_f32

/-- The one-hot matrix of the low digits: entry (k, l) is one where value k has low digit l. -/
def oneHotLo (s : IVec S16384 32) : FVec F S16384x16 .bf16 :=
  truncf .bf16 (sitofp .f32 (extui 32 (cmpi .eq (iota .tc S16384x16 32 [1] iota_S16384x16_d1_w32)
    (broadcastTo S16384x16 (shapeCast S16384x1 (loDigit s) shapeCasts_S16384_S16384x1) broadcasts_S16384x1_S16384x16)) natLt_1_32)) bitsLt_bf16_f32

/-- A chunk's counts: the two one-hot matrices contracted over the chunk's values. -/
def chunkCounts (s : IVec S16384 32) : FVec F S32x16 .f32 :=
  matmul dot_S16384x32_S16384x16_S32x16_0_0_1_1_n_n none (oneHotHi (F := F) s) (oneHotLo (F := F) s) (constant S32x16 .f32 0x00000000#32)

/-- Thirty-two rows of a difference, starting at a row offset, flattened. -/
def chunk (g : FVec F S512x512 .f32) (off : Fin 2 → Nat) (h : S512x512.Slices off S32x512) : FVec F S16384 .f32 :=
  shapeCast S16384 (extractStridedSlice S32x512 off g h) shapeCasts_S32x512_S16384

/-- A tile's counts: the sixteen chunks' counts added up from zero, top chunk first. -/
def tileCounts (g : FVec F S512x512 .f32) : FVec F S32x16 .f32 :=
  addf (addf (addf (addf (addf (addf (addf (addf (addf (addf (addf (addf (addf (addf (addf (addf (broadcast S32x16 (Scalar.ofBits .f32 0x00000000#32))
      (chunkCounts (slotWord (chunk g ![0, 0] slices_S512x512_o0_0_S32x512))))
      (chunkCounts (slotWord (chunk g ![32, 0] slices_S512x512_o32_0_S32x512))))
      (chunkCounts (slotWord (chunk g ![64, 0] slices_S512x512_o64_0_S32x512))))
      (chunkCounts (slotWord (chunk g ![96, 0] slices_S512x512_o96_0_S32x512))))
      (chunkCounts (slotWord (chunk g ![128, 0] slices_S512x512_o128_0_S32x512))))
      (chunkCounts (slotWord (chunk g ![160, 0] slices_S512x512_o160_0_S32x512))))
      (chunkCounts (slotWord (chunk g ![192, 0] slices_S512x512_o192_0_S32x512))))
      (chunkCounts (slotWord (chunk g ![224, 0] slices_S512x512_o224_0_S32x512))))
      (chunkCounts (slotWord (chunk g ![256, 0] slices_S512x512_o256_0_S32x512))))
      (chunkCounts (slotWord (chunk g ![288, 0] slices_S512x512_o288_0_S32x512))))
      (chunkCounts (slotWord (chunk g ![320, 0] slices_S512x512_o320_0_S32x512))))
      (chunkCounts (slotWord (chunk g ![352, 0] slices_S512x512_o352_0_S32x512))))
      (chunkCounts (slotWord (chunk g ![384, 0] slices_S512x512_o384_0_S32x512))))
      (chunkCounts (slotWord (chunk g ![416, 0] slices_S512x512_o416_0_S32x512))))
      (chunkCounts (slotWord (chunk g ![448, 0] slices_S512x512_o448_0_S32x512))))
      (chunkCounts (slotWord (chunk g ![480, 0] slices_S512x512_o480_0_S32x512)))

/-- The horizontal difference: right neighbour minus entry, the last column replaced by -10000. -/
def diffX (x : FVec F S512x512 .f32) : FVec F S512x512 .f32 :=
  select (cmpi .slt (iota .tc S512x512 32 [1] iota_S512x512_d1_w32) (broadcast S512x512 511#32))
    (subf (dynamicRotate 1 511#32 none x rotates_S512x512_d1) x)
    (broadcast S512x512 (Scalar.ofBits .f32 0xC61C4000#32))

/-- The vertical difference: lower neighbour minus entry, the last row replaced by -10000. -/
def diffY (x : FVec F S512x512 .f32) : FVec F S512x512 .f32 :=
  select (cmpi .slt (iota .tc S512x512 32 [0] iota_S512x512_d0_w32) (broadcast S512x512 511#32))
    (subf (dynamicRotate 0 511#32 none x rotates_S512x512_d0) x)
    (broadcast S512x512 (Scalar.ofBits .f32 0xC61C4000#32))

/-- A staged input block read as a tile. -/
def tile (v : Vec F S1x1x512x512 .f32) : FVec F S512x512 .f32 :=
  shapeCast S512x512 v shapeCasts_S1x1x512x512_S512x512

/-- One grid point's update of a running block: the block plus the tile's counts. -/
def accumulate (acc : Vec F S1x32x16 .f32) (g : FVec F S512x512 .f32) : FVec F S1x32x16 .f32 :=
  shapeCast S1x32x16 (addf (shapeCast S32x16 acc shapeCasts_S1x32x16_S32x16) (tileCounts g)) shapeCasts_S32x16_S1x32x16

/-- The block of zeros a core's first point stores. -/
def zeroBlock : FVec F S1x32x16 .f32 :=
  shapeCast S1x32x16 (broadcast S32x16 (Scalar.ofBits .f32 0x00000000#32)) shapeCasts_S32x16_S1x32x16

end Cert.KernelIdeal.Body

end
-- ==== Proof.Pieces.lean ====
/-
  What one grid point leaves in each of the four running blocks, as a value.

  At a point that is not a core's first, every output's staging buffer ends holding its previous contents plus the
  counts of one difference of one input tile: output 2 the horizontal difference of the first input's tile, output 3
  its vertical difference, outputs 4 and 5 the same of the second input's tile.  At a core's first point the previous
  contents are replaced by the block of zeros the point stores first and reads back.
-/
import proofs.«161051_j23536420782150_1_alg».proof.Proof.Gen.KernelIdeal.Frame
import proofs.«161051_j23536420782150_1_alg».proof.Proof.BodySpec
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen Cert.KernelIdeal.Body

variable {F : FTy → Type} [FloatOps F]

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- A later point: output 2's block becomes its previous contents plus the counts of diffX the first tile. -/
theorem later_2 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (hc0 : ¬cond0_0 i)
    (x0 x1 : Vec F S1x1x512x512 .f32) (xo2 xo3 xo4 xo5 : Vec F S1x32x16 .f32) :
    out0_B_2 c i arg2 harg2 arg3 harg3 arg4 harg4 arg5 harg5 arg6 harg6 arg7 harg7 hc0 x0 x1 xo2 xo3 xo4 xo5 = accumulate xo2 (diffX (tile x0)) := by
  unfold out0_B_2
  rw [View.read_writes_eq_canon _ _ _ (cover0_B_2 c i arg2 harg2 arg3 harg3 arg4 harg4 arg5 harg5 arg6 harg6 arg7 harg7 hc0 x0 x1 xo2 xo3 xo4 xo5)]
  unfold kernelRun0_B
  dsimp only
  sl_unfold_words
  rw [View.canon_unit_zero hz3]
  have e2 : View.readAt (Elt F) arg2.view (Rect.unit (s := S1x1x512x512) ![0, 0, 0, 0] S1x1x512x512.size inb_S1x1x512x512_S1x1x512x512_0_0_0_0).toLoadRect (harg2.unread x0) = x0 := by
    simp only [View.readAt_eq_ld, harg2.read_unread, View.ld_unit_zero (S := S1x1x512x512) hz4]
  have e3 : View.readAt (Elt F) arg3.view (Rect.unit (s := S1x1x512x512) ![0, 0, 0, 0] S1x1x512x512.size inb_S1x1x512x512_S1x1x512x512_0_0_0_0).toLoadRect (harg3.unread x1) = x1 := by
    simp only [View.readAt_eq_ld, harg3.read_unread, View.ld_unit_zero (S := S1x1x512x512) hz4]
  have eo : View.readAt (Elt F) arg4.view (Rect.unit (s := S1x32x16) ![0, 0, 0] S1x32x16.size inb_S1x32x16_S1x32x16_0_0_0).toLoadRect (harg4.unread xo2) = xo2 := by
    simp only [View.readAt_eq_ld, harg4.read_unread, View.ld_unit_zero (S := S1x32x16) hz3]
  rw [e2, eo]
  rfl

/-- A later point: output 3's block becomes its previous contents plus the counts of diffY the first tile. -/
theorem later_3 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (hc0 : ¬cond0_0 i)
    (x0 x1 : Vec F S1x1x512x512 .f32) (xo2 xo3 xo4 xo5 : Vec F S1x32x16 .f32) :
    out0_B_3 c i arg2 harg2 arg3 harg3 arg4 harg4 arg5 harg5 arg6 harg6 arg7 harg7 hc0 x0 x1 xo2 xo3 xo4 xo5 = accumulate xo3 (diffY (tile x0)) := by
  unfold out0_B_3
  rw [View.read_writes_eq_canon _ _ _ (cover0_B_3 c i arg2 harg2 arg3 harg3 arg4 harg4 arg5 harg5 arg6 harg6 arg7 harg7 hc0 x0 x1 xo2 xo3 xo4 xo5)]
  unfold kernelRun0_B
  dsimp only
  sl_unfold_words
  rw [View.canon_unit_zero hz3]
  have e2 : View.readAt (Elt F) arg2.view (Rect.unit (s := S1x1x512x512) ![0, 0, 0, 0] S1x1x512x512.size inb_S1x1x512x512_S1x1x512x512_0_0_0_0).toLoadRect (harg2.unread x0) = x0 := by
    simp only [View.readAt_eq_ld, harg2.read_unread, View.ld_unit_zero (S := S1x1x512x512) hz4]
  have e3 : View.readAt (Elt F) arg3.view (Rect.unit (s := S1x1x512x512) ![0, 0, 0, 0] S1x1x512x512.size inb_S1x1x512x512_S1x1x512x512_0_0_0_0).toLoadRect (harg3.unread x1) = x1 := by
    simp only [View.readAt_eq_ld, harg3.read_unread, View.ld_unit_zero (S := S1x1x512x512) hz4]
  have eo : View.readAt (Elt F) arg5.view (Rect.unit (s := S1x32x16) ![0, 0, 0] S1x32x16.size inb_S1x32x16_S1x32x16_0_0_0).toLoadRect (harg5.unread xo3) = xo3 := by
    simp only [View.readAt_eq_ld, harg5.read_unread, View.ld_unit_zero (S := S1x32x16) hz3]
  rw [e2, eo]
  rfl

/-- A later point: output 4's block becomes its previous contents plus the counts of diffX the second tile. -/
theorem later_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (hc0 : ¬cond0_0 i)
    (x0 x1 : Vec F S1x1x512x512 .f32) (xo2 xo3 xo4 xo5 : Vec F S1x32x16 .f32) :
    out0_B_4 c i arg2 harg2 arg3 harg3 arg4 harg4 arg5 harg5 arg6 harg6 arg7 harg7 hc0 x0 x1 xo2 xo3 xo4 xo5 = accumulate xo4 (diffX (tile x1)) := by
  unfold out0_B_4
  rw [View.read_writes_eq_canon _ _ _ (cover0_B_4 c i arg2 harg2 arg3 harg3 arg4 harg4 arg5 harg5 arg6 harg6 arg7 harg7 hc0 x0 x1 xo2 xo3 xo4 xo5)]
  unfold kernelRun0_B
  dsimp only
  sl_unfold_words
  rw [View.canon_unit_zero hz3]
  have e2 : View.readAt (Elt F) arg2.view (Rect.unit (s := S1x1x512x512) ![0, 0, 0, 0] S1x1x512x512.size inb_S1x1x512x512_S1x1x512x512_0_0_0_0).toLoadRect (harg2.unread x0) = x0 := by
    simp only [View.readAt_eq_ld, harg2.read_unread, View.ld_unit_zero (S := S1x1x512x512) hz4]
  have e3 : View.readAt (Elt F) arg3.view (Rect.unit (s := S1x1x512x512) ![0, 0, 0, 0] S1x1x512x512.size inb_S1x1x512x512_S1x1x512x512_0_0_0_0).toLoadRect (harg3.unread x1) = x1 := by
    simp only [View.readAt_eq_ld, harg3.read_unread, View.ld_unit_zero (S := S1x1x512x512) hz4]
  have eo : View.readAt (Elt F) arg6.view (Rect.unit (s := S1x32x16) ![0, 0, 0] S1x32x16.size inb_S1x32x16_S1x32x16_0_0_0).toLoadRect (harg6.unread xo4) = xo4 := by
    simp only [View.readAt_eq_ld, harg6.read_unread, View.ld_unit_zero (S := S1x32x16) hz3]
  rw [e3, eo]
  rfl

/-- A later point: output 5's block becomes its previous contents plus the counts of diffY the second tile. -/
theorem later_5 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (hc0 : ¬cond0_0 i)
    (x0 x1 : Vec F S1x1x512x512 .f32) (xo2 xo3 xo4 xo5 : Vec F S1x32x16 .f32) :
    out0_B_5 c i arg2 harg2 arg3 harg3 arg4 harg4 arg5 harg5 arg6 harg6 arg7 harg7 hc0 x0 x1 xo2 xo3 xo4 xo5 = accumulate xo5 (diffY (tile x1)) := by
  unfold out0_B_5
  rw [View.read_writes_eq_canon _ _ _ (cover0_B_5 c i arg2 harg2 arg3 harg3 arg4 harg4 arg5 harg5 arg6 harg6 arg7 harg7 hc0 x0 x1 xo2 xo3 xo4 xo5)]
  unfold kernelRun0_B
  dsimp only
  sl_unfold_words
  rw [View.canon_unit_zero hz3]
  have e2 : View.readAt (Elt F) arg2.view (Rect.unit (s := S1x1x512x512) ![0, 0, 0, 0] S1x1x512x512.size inb_S1x1x512x512_S1x1x512x512_0_0_0_0).toLoadRect (harg2.unread x0) = x0 := by
    simp only [View.readAt_eq_ld, harg2.read_unread, View.ld_unit_zero (S := S1x1x512x512) hz4]
  have e3 : View.readAt (Elt F) arg3.view (Rect.unit (s := S1x1x512x512) ![0, 0, 0, 0] S1x1x512x512.size inb_S1x1x512x512_S1x1x512x512_0_0_0_0).toLoadRect (harg3.unread x1) = x1 := by
    simp only [View.readAt_eq_ld, harg3.read_unread, View.ld_unit_zero (S := S1x1x512x512) hz4]
  have eo : View.readAt (Elt F) arg7.view (Rect.unit (s := S1x32x16) ![0, 0, 0] S1x32x16.size inb_S1x32x16_S1x32x16_0_0_0).toLoadRect (harg7.unread xo5) = xo5 := by
    simp only [View.readAt_eq_ld, harg7.read_unread, View.ld_unit_zero (S := S1x32x16) hz3]
  rw [e3, eo]
  rfl

/-- A core's first point: output 2's block becomes the zero block plus the counts of diffX the first tile. -/
theorem first_2 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (hc0 : cond0_0 i)
    (x0 x1 : Vec F S1x1x512x512 .f32) :
    out0_A_2 c i arg2 harg2 arg3 harg3 arg4 harg4 arg5 harg5 arg6 harg6 arg7 harg7 hc0 x0 x1 = accumulate zeroBlock (diffX (tile x0)) := by
  unfold out0_A_2
  rw [View.read_writes_eq_canon _ _ _ (cover0_A_2 c i arg2 harg2 arg3 harg3 arg4 harg4 arg5 harg5 arg6 harg6 arg7 harg7 hc0 x0 x1)]
  unfold kernelRun0_A
  dsimp only
  sl_unfold_words
  rw [View.canon_cons_unit_zero (S := S1x32x16) hz3, View.readCov_unit_zero (S := S1x32x16) _ hz3]
  have e2 : View.readAt (Elt F) arg2.view (Rect.unit (s := S1x1x512x512) ![0, 0, 0, 0] S1x1x512x512.size inb_S1x1x512x512_S1x1x512x512_0_0_0_0).toLoadRect (harg2.unread x0) = x0 := by
    simp only [View.readAt_eq_ld, harg2.read_unread, View.ld_unit_zero (S := S1x1x512x512) hz4]
  have e3 : View.readAt (Elt F) arg3.view (Rect.unit (s := S1x1x512x512) ![0, 0, 0, 0] S1x1x512x512.size inb_S1x1x512x512_S1x1x512x512_0_0_0_0).toLoadRect (harg3.unread x1) = x1 := by
    simp only [View.readAt_eq_ld, harg3.read_unread, View.ld_unit_zero (S := S1x1x512x512) hz4]
  rw [e2]
  rfl

/-- A core's first point: output 3's block becomes the zero block plus the counts of diffY the first tile. -/
theorem first_3 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (hc0 : cond0_0 i)
    (x0 x1 : Vec F S1x1x512x512 .f32) :
    out0_A_3 c i arg2 harg2 arg3 harg3 arg4 harg4 arg5 harg5 arg6 harg6 arg7 harg7 hc0 x0 x1 = accumulate zeroBlock (diffY (tile x0)) := by
  unfold out0_A_3
  rw [View.read_writes_eq_canon _ _ _ (cover0_A_3 c i arg2 harg2 arg3 harg3 arg4 harg4 arg5 harg5 arg6 harg6 arg7 harg7 hc0 x0 x1)]
  unfold kernelRun0_A
  dsimp only
  sl_unfold_words
  rw [View.canon_cons_unit_zero (S := S1x32x16) hz3, View.readCov_unit_zero (S := S1x32x16) _ hz3]
  have e2 : View.readAt (Elt F) arg2.view (Rect.unit (s := S1x1x512x512) ![0, 0, 0, 0] S1x1x512x512.size inb_S1x1x512x512_S1x1x512x512_0_0_0_0).toLoadRect (harg2.unread x0) = x0 := by
    simp only [View.readAt_eq_ld, harg2.read_unread, View.ld_unit_zero (S := S1x1x512x512) hz4]
  have e3 : View.readAt (Elt F) arg3.view (Rect.unit (s := S1x1x512x512) ![0, 0, 0, 0] S1x1x512x512.size inb_S1x1x512x512_S1x1x512x512_0_0_0_0).toLoadRect (harg3.unread x1) = x1 := by
    simp only [View.readAt_eq_ld, harg3.read_unread, View.ld_unit_zero (S := S1x1x512x512) hz4]
  rw [e2]
  rfl

/-- A core's first point: output 4's block becomes the zero block plus the counts of diffX the second tile. -/
theorem first_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (hc0 : cond0_0 i)
    (x0 x1 : Vec F S1x1x512x512 .f32) :
    out0_A_4 c i arg2 harg2 arg3 harg3 arg4 harg4 arg5 harg5 arg6 harg6 arg7 harg7 hc0 x0 x1 = accumulate zeroBlock (diffX (tile x1)) := by
  unfold out0_A_4
  rw [View.read_writes_eq_canon _ _ _ (cover0_A_4 c i arg2 harg2 arg3 harg3 arg4 harg4 arg5 harg5 arg6 harg6 arg7 harg7 hc0 x0 x1)]
  unfold kernelRun0_A
  dsimp only
  sl_unfold_words
  rw [View.canon_cons_unit_zero (S := S1x32x16) hz3, View.readCov_unit_zero (S := S1x32x16) _ hz3]
  have e2 : View.readAt (Elt F) arg2.view (Rect.unit (s := S1x1x512x512) ![0, 0, 0, 0] S1x1x512x512.size inb_S1x1x512x512_S1x1x512x512_0_0_0_0).toLoadRect (harg2.unread x0) = x0 := by
    simp only [View.readAt_eq_ld, harg2.read_unread, View.ld_unit_zero (S := S1x1x512x512) hz4]
  have e3 : View.readAt (Elt F) arg3.view (Rect.unit (s := S1x1x512x512) ![0, 0, 0, 0] S1x1x512x512.size inb_S1x1x512x512_S1x1x512x512_0_0_0_0).toLoadRect (harg3.unread x1) = x1 := by
    simp only [View.readAt_eq_ld, harg3.read_unread, View.ld_unit_zero (S := S1x1x512x512) hz4]
  rw [e3]
  rfl

/-- A core's first point: output 5's block becomes the zero block plus the counts of diffY the second tile. -/
theorem first_5 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x32x16 .f32) (harg4 : arg4.IsWhole) (arg5 : Memref sig .tc .vmem S1x32x16 .f32) (harg5 : arg5.IsWhole) (arg6 : Memref sig .tc .vmem S1x32x16 .f32) (harg6 : arg6.IsWhole) (arg7 : Memref sig .tc .vmem S1x32x16 .f32) (harg7 : arg7.IsWhole) (hc0 : cond0_0 i)
    (x0 x1 : Vec F S1x1x512x512 .f32) :
    out0_A_5 c i arg2 harg2 arg3 harg3 arg4 harg4 arg5 harg5 arg6 harg6 arg7 harg7 hc0 x0 x1 = accumulate zeroBlock (diffY (tile x1)) := by
  unfold out0_A_5
  rw [View.read_writes_eq_canon _ _ _ (cover0_A_5 c i arg2 harg2 arg3 harg3 arg4 harg4 arg5 harg5 arg6 harg6 arg7 harg7 hc0 x0 x1)]
  unfold kernelRun0_A
  dsimp only
  sl_unfold_words
  rw [View.canon_cons_unit_zero (S := S1x32x16) hz3, View.readCov_unit_zero (S := S1x32x16) _ hz3]
  have e2 : View.readAt (Elt F) arg2.view (Rect.unit (s := S1x1x512x512) ![0, 0, 0, 0] S1x1x512x512.size inb_S1x1x512x512_S1x1x512x512_0_0_0_0).toLoadRect (harg2.unread x0) = x0 := by
    simp only [View.readAt_eq_ld, harg2.read_unread, View.ld_unit_zero (S := S1x1x512x512) hz4]
  have e3 : View.readAt (Elt F) arg3.view (Rect.unit (s := S1x1x512x512) ![0, 0, 0, 0] S1x1x512x512.size inb_S1x1x512x512_S1x1x512x512_0_0_0_0).toLoadRect (harg3.unread x1) = x1 := by
    simp only [View.readAt_eq_ld, harg3.read_unread, View.ld_unit_zero (S := S1x1x512x512) hz4]
  rw [e3]
  rfl

end Cert.KernelIdeal.Pieces

end
-- ==== Proof.KernelForm.lean ====
/-
  The kernel's result as one pure term, generic in the float instance.

  A core runs 24 grid points.  Its running block starts, at the core's first point, from the block of zeros plus the
  counts of that point's tile, and every later point adds its tile's counts (chainFrom: the recursion over the points,
  restarting at every multiple of 24).  After the run the output array holds, for each of the two cores, the running
  block after that core's last point (coreArr).  The host then adds the two cores' blocks, flattens the 32 x 16 block
  to 512 slots, drops the last one, and converts to integers (tailTerm).
-/
import proofs.«161051_j23536420782150_1_alg».proof.Proof.BodySpec
import Idealize.ShloMosaic.Lib.ValueIdx

noncomputable section

namespace Cert.KernelIdeal.Form

open Idealize.ShloMosaic Idealize.ShloMosaic.ValueIdx Cert.KernelIdeal Cert.KernelIdeal.Body

variable {F : FTy → Type} [FloatOps F] [Facts]
open Facts₀ Facts

/-- The running block after point n, for a difference D and the points' input blocks: restarted from zeros at every
    multiple of 24, otherwise the block before plus the point's counts. -/
def chainFrom (D : FVec F S512x512 .f32 → FVec F S512x512 .f32) {N : ℕ} (blk : Fin N → Vec F S1x1x512x512 .f32) :
    (n : ℕ) → n < N → Vec F S1x32x16 .f32
  | 0, h => accumulate zeroBlock (D (tile (blk ⟨0, h⟩)))
  | n + 1, h =>
    if (n + 1) % 24 = 0 then accumulate zeroBlock (D (tile (blk ⟨n + 1, h⟩)))
    else accumulate (chainFrom D blk n (Nat.lt_of_succ_lt h)) (D (tile (blk ⟨n + 1, h⟩)))

/-- The output array after the run: core k's block is the running block after point 24 k + 23. -/
def coreArr (D : FVec F S512x512 .f32 → FVec F S512x512 .f32) {N : ℕ} (blk : Fin N → Vec F S1x1x512x512 .f32)
    (hN : 47 < N) : FVec F S2x32x16 .f32 :=
  fun j => chainFrom D blk (24 * (j 0).val + 23) (by have : (j 0).val < 2 := (j 0).isLt; omega) (ix3 (0 : Fin 1) (j 1) (j 2))

/-- The host's last steps on an output array: the two cores' blocks added, flattened, the spare slot dropped, made
    integers. -/
def tailTerm (arr : FVec F S2x32x16 .f32) : IVec S511 32 :=
  fptosi 32 (extractStridedSlice S511 ![0]
    (shapeCast S512 (Host.reduceAdd arr (constant S_ .f32 0x00000000#32) reducesTo_S2x32x16_S32x16_d0 h_S_) shapeCasts_S32x16_S512)
    slices_S512_S511_0)

end Cert.KernelIdeal.Form

end
-- ==== Proof.Running.lean ====
/-
  The four output arrays after the run.

  Reading the frame run point by point: what each output's staging buffer holds after point n is the running block of
  its difference and input (by induction on the point, from the values one point leaves), and each output array ends
  holding, for each core, the running block after that core's last point, the only point that writes the block back.
  An input block at point t is image t / 3, channel t % 3 of its stack.
-/
import proofs.«161051_j23536420782150_1_alg».proof.Proof.Pieces
import proofs.«161051_j23536420782150_1_alg».proof.Proof.KernelForm
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Running

open Cert.KernelIdeal Cert.KernelIdeal.Gen Cert.KernelIdeal.Body Cert.KernelIdeal.Form

variable {F : FTy → Type} [FloatOps F]
variable (m : (ℓ : Loc nD τ sig) → Buf (Elt F) ℓ)

/-- The first input's block at a point, at its literal type. -/
abbrev blk0 (c : Dev nD) (t : Fin cfg0.N) : Vec F S1x1x512x512 .f32 := iblk m c 0 t
/-- The second input's block at a point, at its literal type. -/
abbrev blk1 (c : Dev nD) (t : Fin cfg0.N) : Vec F S1x1x512x512 .f32 := iblk m c 1 t

theorem hN : 47 < cfg0.N := by rw [show cfg0.N = 48 from N_0]; decide

/-- What the four outputs' staging buffers hold after point n: the four running blocks, by induction on the point
    (a core's first point restarts from zeros; every other point adds its tile's counts to what the point before
    left). -/
theorem outsAt_eq (c : Dev nD) : ∀ (n : ℕ) (h : n < cfg0.N),
    outsAt0 m c n h = (chainFrom diffX (blk0 m c) n h, chainFrom diffY (blk0 m c) n h,
      chainFrom diffX (blk1 m c) n h, chainFrom diffY (blk1 m c) n h)
  | 0, h => by
    rw [outsAt0_A m c ⟨0, h⟩ rfl]
    rw [Pieces.first_2 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk m c 0 ⟨0, h⟩) (iblk m c 1 ⟨0, h⟩),
      Pieces.first_3 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk m c 0 ⟨0, h⟩) (iblk m c 1 ⟨0, h⟩),
      Pieces.first_4 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk m c 0 ⟨0, h⟩) (iblk m c 1 ⟨0, h⟩),
      Pieces.first_5 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk m c 0 ⟨0, h⟩) (iblk m c 1 ⟨0, h⟩)]
    rfl
  | n + 1, h => by
    by_cases h0 : (n + 1) % 24 = 0
    · rw [outsAt0_A m c ⟨n + 1, h⟩ h0]
      rw [Pieces.first_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) ((hcond0_0 ⟨n + 1, h⟩).mpr h0) (iblk m c 0 ⟨n + 1, h⟩) (iblk m c 1 ⟨n + 1, h⟩),
        Pieces.first_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) ((hcond0_0 ⟨n + 1, h⟩).mpr h0) (iblk m c 0 ⟨n + 1, h⟩) (iblk m c 1 ⟨n + 1, h⟩),
        Pieces.first_4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) ((hcond0_0 ⟨n + 1, h⟩).mpr h0) (iblk m c 0 ⟨n + 1, h⟩) (iblk m c 1 ⟨n + 1, h⟩),
        Pieces.first_5 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) ((hcond0_0 ⟨n + 1, h⟩).mpr h0) (iblk m c 0 ⟨n + 1, h⟩) (iblk m c 1 ⟨n + 1, h⟩)]
      simp only [chainFrom, if_pos h0]
    · rw [outsAt0_B m c ⟨n + 1, h⟩ h0]
      have e : outsAt0 m c ((⟨n + 1, h⟩ : Fin cfg0.N).val - 1) (Nat.lt_of_le_of_lt (Nat.sub_le _ _) (⟨n + 1, h⟩ : Fin cfg0.N).isLt)
          = (chainFrom diffX (blk0 m c) n (Nat.lt_of_succ_lt h), chainFrom diffY (blk0 m c) n (Nat.lt_of_succ_lt h),
            chainFrom diffX (blk1 m c) n (Nat.lt_of_succ_lt h), chainFrom diffY (blk1 m c) n (Nat.lt_of_succ_lt h)) :=
        outsAt_eq c n (Nat.lt_of_succ_lt h)
      rw [e]
      dsimp only
      rw [Pieces.later_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => h0 ((hcond0_0 ⟨n + 1, h⟩).mp hh)) (iblk m c 0 ⟨n + 1, h⟩) (iblk m c 1 ⟨n + 1, h⟩) (chainFrom diffX (blk0 m c) n (Nat.lt_of_succ_lt h)) (chainFrom diffY (blk0 m c) n (Nat.lt_of_succ_lt h)) (chainFrom diffX (blk1 m c) n (Nat.lt_of_succ_lt h)) (chainFrom diffY (blk1 m c) n (Nat.lt_of_succ_lt h)),
        Pieces.later_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => h0 ((hcond0_0 ⟨n + 1, h⟩).mp hh)) (iblk m c 0 ⟨n + 1, h⟩) (iblk m c 1 ⟨n + 1, h⟩) (chainFrom diffX (blk0 m c) n (Nat.lt_of_succ_lt h)) (chainFrom diffY (blk0 m c) n (Nat.lt_of_succ_lt h)) (chainFrom diffX (blk1 m c) n (Nat.lt_of_succ_lt h)) (chainFrom diffY (blk1 m c) n (Nat.lt_of_succ_lt h)),
        Pieces.later_4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => h0 ((hcond0_0 ⟨n + 1, h⟩).mp hh)) (iblk m c 0 ⟨n + 1, h⟩) (iblk m c 1 ⟨n + 1, h⟩) (chainFrom diffX (blk0 m c) n (Nat.lt_of_succ_lt h)) (chainFrom diffY (blk0 m c) n (Nat.lt_of_succ_lt h)) (chainFrom diffX (blk1 m c) n (Nat.lt_of_succ_lt h)) (chainFrom diffY (blk1 m c) n (Nat.lt_of_succ_lt h)),
        Pieces.later_5 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => h0 ((hcond0_0 ⟨n + 1, h⟩).mp hh)) (iblk m c 0 ⟨n + 1, h⟩) (iblk m c 1 ⟨n + 1, h⟩) (chainFrom diffX (blk0 m c) n (Nat.lt_of_succ_lt h)) (chainFrom diffY (blk0 m c) n (Nat.lt_of_succ_lt h)) (chainFrom diffX (blk1 m c) n (Nat.lt_of_succ_lt h)) (chainFrom diffY (blk1 m c) n (Nat.lt_of_succ_lt h))]
      simp only [chainFrom, if_neg h0]

/-- The running block does not depend on how its point is written. -/
theorem chainFrom_congr (D : FVec F S512x512 .f32 → FVec F S512x512 .f32) {N : ℕ} (blk : Fin N → Vec F S1x1x512x512 .f32)
    {n n' : ℕ} (e : n = n') (h : n < N) (h' : n' < N) {y y' : S1x32x16.Idx} (ey : y = y') :
    chainFrom D blk n h y = chainFrom D blk n' h' y' := by
  subst e; subst ey; rfl

/-- The block index of the four output windows at a point: the core, then zeros. -/
theorem idx_out : ∀ t : Fin cfg0.N,
    (win0_2.index t 0 = t.val / 24 ∧ win0_2.index t 1 = 0 ∧ win0_2.index t 2 = 0)
    ∧ (win0_3.index t 0 = t.val / 24 ∧ win0_3.index t 1 = 0 ∧ win0_3.index t 2 = 0)
    ∧ (win0_4.index t 0 = t.val / 24 ∧ win0_4.index t 1 = 0 ∧ win0_4.index t 2 = 0)
    ∧ (win0_5.index t 0 = t.val / 24 ∧ win0_5.index t 1 = 0 ∧ win0_5.index t 2 = 0) :=
  (by decide +kernel : ∀ t : Fin grid0.N, _)

/-- What a core's last point writes back for output 2: the running block after that point, which is the core's block of
    the array read through the point's window. -/
theorem flushed2_eq (c : Dev nD) (t : Fin cfg0.N) (hf : (cfg0.win 2).flush t = true) :
    (dats m 0 c).flushed 2 t = ((cfg0.win 2).blk t).view.read (Elt F) (coreArr diffX (blk0 m c) hN) := by
  have h23 : t.val % 24 = 23 := (flush0_2 t).mp hf
  show (cfg0.win 2).cut (grid0.coords t) ((dats m 0 c).after 2 t) = _
  rw [after0_2, outsAt_eq]
  funext j
  rw [View.read_apply]
  show chainFrom diffX (blk0 m c) t.val t.isLt ((cfg0.win 2).xinj (grid0.coords t) j)
    = coreArr diffX (blk0 m c) hN (((cfg0.win 2).blk t).view.emb j)
  unfold coreArr
  obtain ⟨⟨e0, e1, e2⟩, -⟩ := idx_out t
  have hj0 : (j 0).val < 1 := (j 0).isLt
  have k0 : ((((cfg0.win 2).blk t).view.emb j) 0).val = t.val / 24 := by
    show win0_2.index t 0 * 1 + 1 * (j 0).val = t.val / 24
    rw [e0]; omega
  have k1 : ((((cfg0.win 2).blk t).view.emb j) 1).val = (j 1).val := by
    show win0_2.index t 1 * 32 + 1 * (j 1).val = (j 1).val
    rw [e1]; omega
  have k2 : ((((cfg0.win 2).blk t).view.emb j) 2).val = (j 2).val := by
    show win0_2.index t 2 * 16 + 1 * (j 2).val = (j 2).val
    rw [e2]; omega
  have hn : t.val = 24 * ((((cfg0.win 2).blk t).view.emb j) 0).val + 23 := by rw [k0]; omega
  refine chainFrom_congr diffX (blk0 m c) hn _ _ (funext fun a => Fin.ext ?_)
  match a with
  | ⟨0, _⟩ => show (j 0).val = 0; omega
  | ⟨1, _⟩ => exact k1.symm
  | ⟨2, _⟩ => exact k2.symm

/-- Output 2's array: per core, the running block of the first input's horizontal differences. -/
theorem final2 (c : Dev nD) : (dats m 0 c).arrAt 2 cfg0.N = coreArr diffX (blk0 m c) hN :=
  (dats m 0 c).arrAt_eq_of_cover 2 (coreArr diffX (blk0 m c) hN) (flushed2_eq m c) fun i => by
    have hi0 : (i 0).val < 2 := (i 0).isLt
    have hi1 : (i 1).val < 32 := (i 1).isLt
    have hi2 : (i 2).val < 16 := (i 2).isLt
    have hlt : 24 * (i 0).val + 23 < cfg0.N := by rw [show cfg0.N = 48 from N_0]; omega
    refine ⟨⟨24 * (i 0).val + 23, hlt⟩, (flush0_2 _).mpr (by dsimp only; omega), ?_⟩
    show i ∈ ((View.whole main_v0_0).slice (win0_2.rect ⟨24 * (i 0).val + 23, hlt⟩)).set
    rw [View.set_slice_whole, Rect.mem_set_unit]
    obtain ⟨⟨e0, e1, e2⟩, -⟩ := idx_out ⟨24 * (i 0).val + 23, hlt⟩
    intro a
    match a with
    | ⟨0, _⟩ =>
      show win0_2.index ⟨24 * (i 0).val + 23, hlt⟩ 0 * 1 ≤ (i 0).val ∧ (i 0).val < win0_2.index ⟨24 * (i 0).val + 23, hlt⟩ 0 * 1 + 1
      rw [e0]; dsimp only; omega
    | ⟨1, _⟩ =>
      show win0_2.index ⟨24 * (i 0).val + 23, hlt⟩ 1 * 32 ≤ (i 1).val ∧ (i 1).val < win0_2.index ⟨24 * (i 0).val + 23, hlt⟩ 1 * 32 + 32
      rw [e1]; omega
    | ⟨2, _⟩ =>
      show win0_2.index ⟨24 * (i 0).val + 23, hlt⟩ 2 * 16 ≤ (i 2).val ∧ (i 2).val < win0_2.index ⟨24 * (i 0).val + 23, hlt⟩ 2 * 16 + 16
      rw [e2]; omega

/-- What a core's last point writes back for output 3: the running block after that point, which is the core's block of
    the array read through the point's window. -/
theorem flushed3_eq (c : Dev nD) (t : Fin cfg0.N) (hf : (cfg0.win 3).flush t = true) :
    (dats m 0 c).flushed 3 t = ((cfg0.win 3).blk t).view.read (Elt F) (coreArr diffY (blk0 m c) hN) := by
  have h23 : t.val % 24 = 23 := (flush0_3 t).mp hf
  show (cfg0.win 3).cut (grid0.coords t) ((dats m 0 c).after 3 t) = _
  rw [after0_3, outsAt_eq]
  funext j
  rw [View.read_apply]
  show chainFrom diffY (blk0 m c) t.val t.isLt ((cfg0.win 3).xinj (grid0.coords t) j)
    = coreArr diffY (blk0 m c) hN (((cfg0.win 3).blk t).view.emb j)
  unfold coreArr
  obtain ⟨-, ⟨e0, e1, e2⟩, -⟩ := idx_out t
  have hj0 : (j 0).val < 1 := (j 0).isLt
  have k0 : ((((cfg0.win 3).blk t).view.emb j) 0).val = t.val / 24 := by
    show win0_3.index t 0 * 1 + 1 * (j 0).val = t.val / 24
    rw [e0]; omega
  have k1 : ((((cfg0.win 3).blk t).view.emb j) 1).val = (j 1).val := by
    show win0_3.index t 1 * 32 + 1 * (j 1).val = (j 1).val
    rw [e1]; omega
  have k2 : ((((cfg0.win 3).blk t).view.emb j) 2).val = (j 2).val := by
    show win0_3.index t 2 * 16 + 1 * (j 2).val = (j 2).val
    rw [e2]; omega
  have hn : t.val = 24 * ((((cfg0.win 3).blk t).view.emb j) 0).val + 23 := by rw [k0]; omega
  refine chainFrom_congr diffY (blk0 m c) hn _ _ (funext fun a => Fin.ext ?_)
  match a with
  | ⟨0, _⟩ => show (j 0).val = 0; omega
  | ⟨1, _⟩ => exact k1.symm
  | ⟨2, _⟩ => exact k2.symm

/-- Output 3's array: the first input's vertical differences. -/
theorem final3 (c : Dev nD) : (dats m 0 c).arrAt 3 cfg0.N = coreArr diffY (blk0 m c) hN :=
  (dats m 0 c).arrAt_eq_of_cover 3 (coreArr diffY (blk0 m c) hN) (flushed3_eq m c) fun i => by
    have hi0 : (i 0).val < 2 := (i 0).isLt
    have hi1 : (i 1).val < 32 := (i 1).isLt
    have hi2 : (i 2).val < 16 := (i 2).isLt
    have hlt : 24 * (i 0).val + 23 < cfg0.N := by rw [show cfg0.N = 48 from N_0]; omega
    refine ⟨⟨24 * (i 0).val + 23, hlt⟩, (flush0_3 _).mpr (by dsimp only; omega), ?_⟩
    show i ∈ ((View.whole main_v0_1).slice (win0_3.rect ⟨24 * (i 0).val + 23, hlt⟩)).set
    rw [View.set_slice_whole, Rect.mem_set_unit]
    obtain ⟨-, ⟨e0, e1, e2⟩, -⟩ := idx_out ⟨24 * (i 0).val + 23, hlt⟩
    intro a
    match a with
    | ⟨0, _⟩ =>
      show win0_3.index ⟨24 * (i 0).val + 23, hlt⟩ 0 * 1 ≤ (i 0).val ∧ (i 0).val < win0_3.index ⟨24 * (i 0).val + 23, hlt⟩ 0 * 1 + 1
      rw [e0]; dsimp only; omega
    | ⟨1, _⟩ =>
      show win0_3.index ⟨24 * (i 0).val + 23, hlt⟩ 1 * 32 ≤ (i 1).val ∧ (i 1).val < win0_3.index ⟨24 * (i 0).val + 23, hlt⟩ 1 * 32 + 32
      rw [e1]; omega
    | ⟨2, _⟩ =>
      show win0_3.index ⟨24 * (i 0).val + 23, hlt⟩ 2 * 16 ≤ (i 2).val ∧ (i 2).val < win0_3.index ⟨24 * (i 0).val + 23, hlt⟩ 2 * 16 + 16
      rw [e2]; omega

/-- What a core's last point writes back for output 4: the running block after that point, which is the core's block of
    the array read through the point's window. -/
theorem flushed4_eq (c : Dev nD) (t : Fin cfg0.N) (hf : (cfg0.win 4).flush t = true) :
    (dats m 0 c).flushed 4 t = ((cfg0.win 4).blk t).view.read (Elt F) (coreArr diffX (blk1 m c) hN) := by
  have h23 : t.val % 24 = 23 := (flush0_4 t).mp hf
  show (cfg0.win 4).cut (grid0.coords t) ((dats m 0 c).after 4 t) = _
  rw [after0_4, outsAt_eq]
  funext j
  rw [View.read_apply]
  show chainFrom diffX (blk1 m c) t.val t.isLt ((cfg0.win 4).xinj (grid0.coords t) j)
    = coreArr diffX (blk1 m c) hN (((cfg0.win 4).blk t).view.emb j)
  unfold coreArr
  obtain ⟨-, -, ⟨e0, e1, e2⟩, -⟩ := idx_out t
  have hj0 : (j 0).val < 1 := (j 0).isLt
  have k0 : ((((cfg0.win 4).blk t).view.emb j) 0).val = t.val / 24 := by
    show win0_4.index t 0 * 1 + 1 * (j 0).val = t.val / 24
    rw [e0]; omega
  have k1 : ((((cfg0.win 4).blk t).view.emb j) 1).val = (j 1).val := by
    show win0_4.index t 1 * 32 + 1 * (j 1).val = (j 1).val
    rw [e1]; omega
  have k2 : ((((cfg0.win 4).blk t).view.emb j) 2).val = (j 2).val := by
    show win0_4.index t 2 * 16 + 1 * (j 2).val = (j 2).val
    rw [e2]; omega
  have hn : t.val = 24 * ((((cfg0.win 4).blk t).view.emb j) 0).val + 23 := by rw [k0]; omega
  refine chainFrom_congr diffX (blk1 m c) hn _ _ (funext fun a => Fin.ext ?_)
  match a with
  | ⟨0, _⟩ => show (j 0).val = 0; omega
  | ⟨1, _⟩ => exact k1.symm
  | ⟨2, _⟩ => exact k2.symm

/-- Output 4's array: the second input's horizontal differences. -/
theorem final4 (c : Dev nD) : (dats m 0 c).arrAt 4 cfg0.N = coreArr diffX (blk1 m c) hN :=
  (dats m 0 c).arrAt_eq_of_cover 4 (coreArr diffX (blk1 m c) hN) (flushed4_eq m c) fun i => by
    have hi0 : (i 0).val < 2 := (i 0).isLt
    have hi1 : (i 1).val < 32 := (i 1).isLt
    have hi2 : (i 2).val < 16 := (i 2).isLt
    have hlt : 24 * (i 0).val + 23 < cfg0.N := by rw [show cfg0.N = 48 from N_0]; omega
    refine ⟨⟨24 * (i 0).val + 23, hlt⟩, (flush0_4 _).mpr (by dsimp only; omega), ?_⟩
    show i ∈ ((View.whole main_v0_2).slice (win0_4.rect ⟨24 * (i 0).val + 23, hlt⟩)).set
    rw [View.set_slice_whole, Rect.mem_set_unit]
    obtain ⟨-, -, ⟨e0, e1, e2⟩, -⟩ := idx_out ⟨24 * (i 0).val + 23, hlt⟩
    intro a
    match a with
    | ⟨0, _⟩ =>
      show win0_4.index ⟨24 * (i 0).val + 23, hlt⟩ 0 * 1 ≤ (i 0).val ∧ (i 0).val < win0_4.index ⟨24 * (i 0).val + 23, hlt⟩ 0 * 1 + 1
      rw [e0]; dsimp only; omega
    | ⟨1, _⟩ =>
      show win0_4.index ⟨24 * (i 0).val + 23, hlt⟩ 1 * 32 ≤ (i 1).val ∧ (i 1).val < win0_4.index ⟨24 * (i 0).val + 23, hlt⟩ 1 * 32 + 32
      rw [e1]; omega
    | ⟨2, _⟩ =>
      show win0_4.index ⟨24 * (i 0).val + 23, hlt⟩ 2 * 16 ≤ (i 2).val ∧ (i 2).val < win0_4.index ⟨24 * (i 0).val + 23, hlt⟩ 2 * 16 + 16
      rw [e2]; omega

/-- What a core's last point writes back for output 5: the running block after that point, which is the core's block of
    the array read through the point's window. -/
theorem flushed5_eq (c : Dev nD) (t : Fin cfg0.N) (hf : (cfg0.win 5).flush t = true) :
    (dats m 0 c).flushed 5 t = ((cfg0.win 5).blk t).view.read (Elt F) (coreArr diffY (blk1 m c) hN) := by
  have h23 : t.val % 24 = 23 := (flush0_5 t).mp hf
  show (cfg0.win 5).cut (grid0.coords t) ((dats m 0 c).after 5 t) = _
  rw [after0_5, outsAt_eq]
  funext j
  rw [View.read_apply]
  show chainFrom diffY (blk1 m c) t.val t.isLt ((cfg0.win 5).xinj (grid0.coords t) j)
    = coreArr diffY (blk1 m c) hN (((cfg0.win 5).blk t).view.emb j)
  unfold coreArr
  obtain ⟨-, -, -, e0, e1, e2⟩ := idx_out t
  have hj0 : (j 0).val < 1 := (j 0).isLt
  have k0 : ((((cfg0.win 5).blk t).view.emb j) 0).val = t.val / 24 := by
    show win0_5.index t 0 * 1 + 1 * (j 0).val = t.val / 24
    rw [e0]; omega
  have k1 : ((((cfg0.win 5).blk t).view.emb j) 1).val = (j 1).val := by
    show win0_5.index t 1 * 32 + 1 * (j 1).val = (j 1).val
    rw [e1]; omega
  have k2 : ((((cfg0.win 5).blk t).view.emb j) 2).val = (j 2).val := by
    show win0_5.index t 2 * 16 + 1 * (j 2).val = (j 2).val
    rw [e2]; omega
  have hn : t.val = 24 * ((((cfg0.win 5).blk t).view.emb j) 0).val + 23 := by rw [k0]; omega
  refine chainFrom_congr diffY (blk1 m c) hn _ _ (funext fun a => Fin.ext ?_)
  match a with
  | ⟨0, _⟩ => show (j 0).val = 0; omega
  | ⟨1, _⟩ => exact k1.symm
  | ⟨2, _⟩ => exact k2.symm

/-- Output 5's array: the second input's vertical differences. -/
theorem final5 (c : Dev nD) : (dats m 0 c).arrAt 5 cfg0.N = coreArr diffY (blk1 m c) hN :=
  (dats m 0 c).arrAt_eq_of_cover 5 (coreArr diffY (blk1 m c) hN) (flushed5_eq m c) fun i => by
    have hi0 : (i 0).val < 2 := (i 0).isLt
    have hi1 : (i 1).val < 32 := (i 1).isLt
    have hi2 : (i 2).val < 16 := (i 2).isLt
    have hlt : 24 * (i 0).val + 23 < cfg0.N := by rw [show cfg0.N = 48 from N_0]; omega
    refine ⟨⟨24 * (i 0).val + 23, hlt⟩, (flush0_5 _).mpr (by dsimp only; omega), ?_⟩
    show i ∈ ((View.whole main_v0_3).slice (win0_5.rect ⟨24 * (i 0).val + 23, hlt⟩)).set
    rw [View.set_slice_whole, Rect.mem_set_unit]
    obtain ⟨-, -, -, e0, e1, e2⟩ := idx_out ⟨24 * (i 0).val + 23, hlt⟩
    intro a
    match a with
    | ⟨0, _⟩ =>
      show win0_5.index ⟨24 * (i 0).val + 23, hlt⟩ 0 * 1 ≤ (i 0).val ∧ (i 0).val < win0_5.index ⟨24 * (i 0).val + 23, hlt⟩ 0 * 1 + 1
      rw [e0]; dsimp only; omega
    | ⟨1, _⟩ =>
      show win0_5.index ⟨24 * (i 0).val + 23, hlt⟩ 1 * 32 ≤ (i 1).val ∧ (i 1).val < win0_5.index ⟨24 * (i 0).val + 23, hlt⟩ 1 * 32 + 32
      rw [e1]; omega
    | ⟨2, _⟩ =>
      show win0_5.index ⟨24 * (i 0).val + 23, hlt⟩ 2 * 16 ≤ (i 2).val ∧ (i 2).val < win0_5.index ⟨24 * (i 0).val + 23, hlt⟩ 2 * 16 + 16
      rw [e2]; omega

/-- The block index of the two input windows at a point: image, channel, then zeros. -/
theorem idx_in : ∀ t : Fin cfg0.N,
    (win0_0.index t 0 = t.val / 3 ∧ win0_0.index t 1 = t.val % 3 ∧ win0_0.index t 2 = 0 ∧ win0_0.index t 3 = 0)
    ∧ (win0_1.index t 0 = t.val / 3 ∧ win0_1.index t 1 = t.val % 3 ∧ win0_1.index t 2 = 0 ∧ win0_1.index t 3 = 0) :=
  (by decide +kernel : ∀ t : Fin grid0.N, _)

/-- The first input's block at point t, read as a tile, is image t / 3, channel t % 3 of the first argument. -/
theorem tile_blk0 (c : Dev nD) (t : Fin cfg0.N) (r q : Fin 512) :
    tile (blk0 m c t) (ix2 r q)
      = m ((c : Thread nD τ).loc main_arg0) (ix4 (⟨t.val / 3, by have := lt_of_lt_of_eq t.isLt (show cfg0.N = 48 from N_0); omega⟩ : Fin 16)
          (⟨t.val % 3, by omega⟩ : Fin 3) r q) := by
  unfold tile
  refine (shapeCast_apply _ _ (ix2 r q) (ix4 (0 : Fin 1) (0 : Fin 1) r q) ?_).trans ?_
  · rw [Shape.rowMajor_val_four, Shape.rowMajor_val_two]
    show ((0 * 1 + 0) * 512 + r.val) * 512 + q.val = r.val * 512 + q.val
    omega
  · show iblk m c 0 t (ix4 (0 : Fin 1) (0 : Fin 1) r q) = _
    unfold iblk
    rw [View.read_apply]
    show m ((c : Thread nD τ).loc main_arg0) (((cfg0.win 0).blk t).view.emb (ix4 (0 : Fin 1) (0 : Fin 1) r q)) = _
    refine congrArg _ (funext fun a => Fin.ext ?_)
    obtain ⟨⟨e0, e1, e2, e3⟩, -⟩ := idx_in t
    match a with
    | ⟨0, _⟩ => show win0_0.index t 0 * 1 + 1 * 0 = t.val / 3; rw [e0]; omega
    | ⟨1, _⟩ => show win0_0.index t 1 * 1 + 1 * 0 = t.val % 3; rw [e1]; omega
    | ⟨2, _⟩ => show win0_0.index t 2 * 512 + 1 * r.val = r.val; rw [e2]; omega
    | ⟨3, _⟩ => show win0_0.index t 3 * 512 + 1 * q.val = q.val; rw [e3]; omega

/-- The second input's block at point t, read as a tile, is image t / 3, channel t % 3 of the second argument. -/
theorem tile_blk1 (c : Dev nD) (t : Fin cfg0.N) (r q : Fin 512) :
    tile (blk1 m c t) (ix2 r q)
      = m ((c : Thread nD τ).loc main_arg1) (ix4 (⟨t.val / 3, by have := lt_of_lt_of_eq t.isLt (show cfg0.N = 48 from N_0); omega⟩ : Fin 16)
          (⟨t.val % 3, by omega⟩ : Fin 3) r q) := by
  unfold tile
  refine (shapeCast_apply _ _ (ix2 r q) (ix4 (0 : Fin 1) (0 : Fin 1) r q) ?_).trans ?_
  · rw [Shape.rowMajor_val_four, Shape.rowMajor_val_two]
    show ((0 * 1 + 0) * 512 + r.val) * 512 + q.val = r.val * 512 + q.val
    omega
  · show iblk m c 1 t (ix4 (0 : Fin 1) (0 : Fin 1) r q) = _
    unfold iblk
    rw [View.read_apply]
    show m ((c : Thread nD τ).loc main_arg1) (((cfg0.win 1).blk t).view.emb (ix4 (0 : Fin 1) (0 : Fin 1) r q)) = _
    refine congrArg _ (funext fun a => Fin.ext ?_)
    obtain ⟨-, e0, e1, e2, e3⟩ := idx_in t
    match a with
    | ⟨0, _⟩ => show win0_1.index t 0 * 1 + 1 * 0 = t.val / 3; rw [e0]; omega
    | ⟨1, _⟩ => show win0_1.index t 1 * 1 + 1 * 0 = t.val % 3; rw [e1]; omega
    | ⟨2, _⟩ => show win0_1.index t 2 * 512 + 1 * r.val = r.val; rw [e2]; omega
    | ⟨3, _⟩ => show win0_1.index t 3 * 512 + 1 * q.val = q.val; rw [e3]; omega

end Cert.KernelIdeal.Running

end
-- ==== Proof.TailRun.lean ====
/-
  The kernel program's run with its four results named.

  After the region the host adds each output array over its core axis, flattens the 32 x 16 block to 512 slots, drops
  the last slot and converts to integers.  So every run ends with each result at that term of the output array the
  region left, and the two arguments as they were.
-/
import proofs.«161051_j23536420782150_1_alg».proof.Proof.Gen.KernelIdeal.Frame
import proofs.«161051_j23536420782150_1_alg».proof.Proof.KernelForm
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.TailRun

open Cert.KernelIdeal Cert.KernelIdeal.Gen Cert.KernelIdeal.Form

variable {F : FTy → Type} [FloatOps F]
variable (m : (ℓ : Loc nD τ sig) → Buf (Elt F) ℓ) (ρ : Dev nD → PrngReg)

open Idealize.ShloMosaic.StableHlo

/-- The first result is no array of the pipeline and is not scoped: the region leaves it to the host's last steps. -/
theorem mem_main_v4 : main_v4 ∈ Pipeline.restRefs sig (cfgs 0).spec :=
  Pipeline.mem_restRefs_of main_v4 rfl (by decide)

/-- The first result after the host's last steps: each step's result read at its own buffer, every other step
    leaving it alone, down to output array 2 as the region left it. -/
theorem tail_main_v4 (c : Dev nD) :
    Pipeline.afterTail₀ cfgs (dats m) 0 (V0 m) [hostOps1] c main_v4 = tailTerm ((dats m 0 c).arrAt 2 cfg0.N) := by
  unfold Pipeline.afterTail₀
  show StableHlo.after hostOps1 _ (Proc.devRef .tc main_v4) = _
  after_results
  have hw : Pipeline.withArrays (cfgs 0).spec c (V0 m c) (fun w => (dats m 0 c).arrAt w (cfgs 0).N)
      (Proc.devRef .tc main_v0_0) = (dats m 0 c).arrAt 2 cfg0.N :=
    Pipeline.withArrays_arr spec0 launch0.win.arr_inj c _ _ 2
  rw [hw]
  generalize (dats m 0 c).arrAt 2 cfg0.N = A
  rfl

/-- The second result is no array of the pipeline and is not scoped: the region leaves it to the host's last steps. -/
theorem mem_main_v8 : main_v8 ∈ Pipeline.restRefs sig (cfgs 0).spec :=
  Pipeline.mem_restRefs_of main_v8 rfl (by decide)

/-- The second result after the host's last steps: each step's result read at its own buffer, every other step
    leaving it alone, down to output array 3 as the region left it. -/
theorem tail_main_v8 (c : Dev nD) :
    Pipeline.afterTail₀ cfgs (dats m) 0 (V0 m) [hostOps1] c main_v8 = tailTerm ((dats m 0 c).arrAt 3 cfg0.N) := by
  unfold Pipeline.afterTail₀
  show StableHlo.after hostOps1 _ (Proc.devRef .tc main_v8) = _
  after_results
  have hw : Pipeline.withArrays (cfgs 0).spec c (V0 m c) (fun w => (dats m 0 c).arrAt w (cfgs 0).N)
      (Proc.devRef .tc main_v0_1) = (dats m 0 c).arrAt 3 cfg0.N :=
    Pipeline.withArrays_arr spec0 launch0.win.arr_inj c _ _ 3
  rw [hw]
  generalize (dats m 0 c).arrAt 3 cfg0.N = A
  rfl

/-- The third result is no array of the pipeline and is not scoped: the region leaves it to the host's last steps. -/
theorem mem_main_v12 : main_v12 ∈ Pipeline.restRefs sig (cfgs 0).spec :=
  Pipeline.mem_restRefs_of main_v12 rfl (by decide)

/-- The third result after the host's last steps: each step's result read at its own buffer, every other step
    leaving it alone, down to output array 4 as the region left it. -/
theorem tail_main_v12 (c : Dev nD) :
    Pipeline.afterTail₀ cfgs (dats m) 0 (V0 m) [hostOps1] c main_v12 = tailTerm ((dats m 0 c).arrAt 4 cfg0.N) := by
  unfold Pipeline.afterTail₀
  show StableHlo.after hostOps1 _ (Proc.devRef .tc main_v12) = _
  after_results
  have hw : Pipeline.withArrays (cfgs 0).spec c (V0 m c) (fun w => (dats m 0 c).arrAt w (cfgs 0).N)
      (Proc.devRef .tc main_v0_2) = (dats m 0 c).arrAt 4 cfg0.N :=
    Pipeline.withArrays_arr spec0 launch0.win.arr_inj c _ _ 4
  rw [hw]
  generalize (dats m 0 c).arrAt 4 cfg0.N = A
  rfl

/-- The fourth result is no array of the pipeline and is not scoped: the region leaves it to the host's last steps. -/
theorem mem_main_v16 : main_v16 ∈ Pipeline.restRefs sig (cfgs 0).spec :=
  Pipeline.mem_restRefs_of main_v16 rfl (by decide)

/-- The fourth result after the host's last steps: each step's result read at its own buffer, every other step
    leaving it alone, down to output array 5 as the region left it. -/
theorem tail_main_v16 (c : Dev nD) :
    Pipeline.afterTail₀ cfgs (dats m) 0 (V0 m) [hostOps1] c main_v16 = tailTerm ((dats m 0 c).arrAt 5 cfg0.N) := by
  unfold Pipeline.afterTail₀
  show StableHlo.after hostOps1 _ (Proc.devRef .tc main_v16) = _
  after_results
  have hw : Pipeline.withArrays (cfgs 0).spec c (V0 m c) (fun w => (dats m 0 c).arrAt w (cfgs 0).N)
      (Proc.devRef .tc main_v0_3) = (dats m 0 c).arrAt 5 cfg0.N :=
    Pipeline.withArrays_arr spec0 launch0.win.arr_inj c _ _ 5
  rw [hw]
  generalize (dats m 0 c).arrAt 5 cfg0.N = A
  rfl

/-- Every run ends with the four results at the host's last steps applied to the four output arrays, and the
    arguments unchanged. -/
theorem run_tail : θ_run defs (onTc (τ := τ) (main (F := F))) ⟨m, fun _ => 0, ρ⟩ (fun r => ∀ c : Dev nD,
      r.2.mem ((c.tc : Thread nD τ).loc main_v4) = tailTerm ((dats m 0 c).arrAt 2 cfg0.N)
      ∧ r.2.mem ((c.tc : Thread nD τ).loc main_v8) = tailTerm ((dats m 0 c).arrAt 3 cfg0.N)
      ∧ r.2.mem ((c.tc : Thread nD τ).loc main_v12) = tailTerm ((dats m 0 c).arrAt 4 cfg0.N)
      ∧ r.2.mem ((c.tc : Thread nD τ).loc main_v16) = tailTerm ((dats m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v4 mem_main_v4).trans (tail_main_v4 m c),
     ((h c).2 main_v8 mem_main_v8).trans (tail_main_v8 m c),
     ((h c).2 main_v12 mem_main_v12).trans (tail_main_v12 m c),
     ((h c).2 main_v16 mem_main_v16).trans (tail_main_v16 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.TailRun

end
-- ==== Proof.ChunkMath.lean ====
/-
  A tile's counts over the extended reals.

  With exact arithmetic a one-hot entry is 0 or 1, the product of value k's two entries at (h, l) is 1 exactly when the
  value's slot is 16 h + l (the slot is at most 511, so its high digit is its quotient by 16 and its low digit the
  remainder), a chunk's contraction counts the chunk's values in that slot, and the sixteen chunks together run
  through every entry of the tile once.
-/
import proofs.«161051_j23536420782150_1_alg».proof.Proof.BodySpec
import proofs.«161051_j23536420782150_1_alg».proof.Proof.Counting
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.ChunkMath

open Cert.KernelIdeal Cert.KernelIdeal.Body Cert.Hist

variable [Facts]

/-- Whatever the word, its clip to [0, 510] (signed) reads at most 510 unsigned. -/
theorem clip_toNat_le (w : BitVec 32) : (IntOp.minsi 510#32 (IntOp.maxsi 0#32 w)).toNat ≤ 510 := by
  unfold IntOp.minsi IntOp.maxsi
  by_cases h1 : (w.slt 0#32) = true
  · rw [if_pos h1]
    rw [if_neg (by decide)]
    decide
  · rw [if_neg h1]
    by_cases h2 : ((510#32).slt w) = true
    · rw [if_pos h2]; decide
    · rw [if_neg h2]
      rw [BitVec.slt_iff_toInt_lt] at h1 h2
      have e := BitVec.toInt_eq_toNat_cond w
      have hlt := w.isLt
      have z0 : (0#32 : BitVec 32).toInt = 0 := by decide
      have z1 : (510#32 : BitVec 32).toInt = 510 := by decide
      rw [z0] at h1
      rw [z1] at h2
      split at e <;> omega

/-- The slot of any value is at most 511. -/
theorem slot_toNat_le (x : Ideal .f32) : (slot x).toNat ≤ 511 := by
  unfold slot Scalar.select
  split
  · exact Nat.le_succ_of_le (clip_toNat_le _)
  · decide

/-- The high digit of one word, as the kernel writes it. -/
def hiWord (b : BitVec 32) : BitVec 32 :=
  Scalar.select
    (IntOp.andi
      (IntOp.cmpi .ne
        (IntOp.subi ((IntOp.cmpi .sgt b 0#32).setWidth 32) ((IntOp.cmpi .slt b 0#32).setWidth 32))
        (Scalar.subi (Scalar.extui (Scalar.cmpi .sgt 16#32 0#32)) (Scalar.extui (Scalar.cmpi .slt 16#32 0#32))))
      (IntOp.cmpi .ne (IntOp.remsi .vector b 16#32) 0#32))
    (IntOp.subi (IntOp.divsi .vector b 16#32) 1#32)
    (IntOp.divsi .vector b 16#32)

/-- The low digit of one word. -/
def loWord (b : BitVec 32) : BitVec 32 := IntOp.subi b (IntOp.muli (hiWord b) 16#32)

theorem hiDigit_apply (s : IVec S16384 32) (i : S16384.Idx) : hiDigit s i = hiWord (s i) := rfl
theorem loDigit_apply (s : IVec S16384 32) (i : S16384.Idx) : loDigit s i = loWord (s i) := rfl

theorem digits_grid : ∀ n : Fin 512, hiWord (BitVec.ofNat 32 n.val) = BitVec.ofNat 32 (n.val / 16)
    ∧ loWord (BitVec.ofNat 32 n.val) = BitVec.ofNat 32 (n.val % 16) := by
  decide +kernel

/-- An equality test's bit, widened and read as a signed number, is 1 or 0. -/
theorem eqBit_toReal (a b : BitVec 32) :
    ((((IntOp.cmpi .eq a b).setWidth 32).toInt : ℝ) : EReal) = if b = a then 1 else 0 := by
  by_cases h : b = a
  · subst h
    rw [if_pos rfl]
    have e : (IntOp.cmpi .eq b b).setWidth 32 = 1#32 := by
      show (BitVec.ofBool (b == b)).setWidth 32 = 1#32
      rw [beq_self_eq_true]; decide
    rw [e]
    have e1 : (1#32 : BitVec 32).toInt = 1 := by decide
    rw [e1]; norm_num
  · rw [if_neg h]
    have e : (IntOp.cmpi .eq a b).setWidth 32 = 0#32 := by
      show (BitVec.ofBool (a == b)).setWidth 32 = 0#32
      have : (a == b) = false := by
        rw [beq_eq_false_iff_ne]; exact fun hab => h hab.symm
      rw [this]; decide
    rw [e]
    have e0 : (0#32 : BitVec 32).toInt = 0 := by decide
    rw [e0]; norm_num

/-- A column vector spread along the rows' second axis reads its own entry. -/
theorem column_apply {n : ℕ} (v : IVec S16384 32) (hc : S16384.ShapeCasts S16384x1)
    (hb : S16384x1.Broadcasts ⟨2, ![16384, n]⟩) (k : Fin 16384) (c : Fin n) :
    broadcastTo ⟨2, ![16384, n]⟩ (shapeCast S16384x1 v hc) hb (ix2 k c) = v (ix1 k) := by
  refine (broadcastTo_apply _ hb (ix2 k c) (ix2 k (⟨0, by decide⟩ : Fin 1)) ?_).trans ?_
  · intro a
    match a with
    | ⟨0, _⟩ => rfl
    | ⟨1, _⟩ => rfl
  · refine shapeCast_apply v hc (ix2 k (⟨0, by decide⟩ : Fin 1)) (ix1 k) ?_
    rw [Shape.rowMajor_val_one, Shape.rowMajor_val_two]
    show k.val = k.val * 1 + 0
    omega

/-- Entry (k, h) of the high digits' one-hot matrix. -/
theorem oneHotHi_apply (s : IVec S16384 32) (k : Fin 16384) (h : Fin 32) :
    oneHotHi (F := Ideal) s (ix2 k h) = if hiWord (s (ix1 k)) = BitVec.ofNat 32 h.val then (1 : EReal) else 0 := by
  have e1 : iota .tc S16384x32 32 [1] Facts₀.iota_S16384x32_d1_w32 (ix2 k h) = BitVec.ofNat 32 h.val :=
    iota_single_apply .tc S16384x32 32 1 _ (ix2 k h)
  have e2 := column_apply (hiDigit s) Facts₀.shapeCasts_S16384_S16384x1 Facts₀.broadcasts_S16384x1_S16384x32 k h
  have e3 := eqBit_toReal (BitVec.ofNat 32 h.val) (hiWord (s (ix1 k)))
  rw [← e3, ← hiDigit_apply, ← e2, ← e1]
  rfl

/-- Entry (k, l) of the low digits' one-hot matrix. -/
theorem oneHotLo_apply (s : IVec S16384 32) (k : Fin 16384) (l : Fin 16) :
    oneHotLo (F := Ideal) s (ix2 k l) = if loWord (s (ix1 k)) = BitVec.ofNat 32 l.val then (1 : EReal) else 0 := by
  have e1 : iota .tc S16384x16 32 [1] Facts₀.iota_S16384x16_d1_w32 (ix2 k l) = BitVec.ofNat 32 l.val :=
    iota_single_apply .tc S16384x16 32 1 _ (ix2 k l)
  have e2 := column_apply (loDigit s) Facts₀.shapeCasts_S16384_S16384x1 Facts₀.broadcasts_S16384x1_S16384x16 k l
  have e3 := eqBit_toReal (BitVec.ofNat 32 l.val) (loWord (s (ix1 k)))
  rw [← e3, ← loDigit_apply, ← e2, ← e1]
  rfl

/-- Two words below 512 are equal exactly when the numbers are. -/
theorem ofNat_eq_iff_small {x y : ℕ} (hx : x < 512) (hy : y < 512) :
    BitVec.ofNat 32 x = BitVec.ofNat 32 y ↔ x = y := by
  constructor
  · intro h
    have e := congrArg BitVec.toNat h
    rw [BitVec.toNat_ofNat, BitVec.toNat_ofNat, Nat.mod_eq_of_lt (by omega), Nat.mod_eq_of_lt (by omega)] at e
    exact e
  · rintro rfl; rfl

/-- For a word at most 511 the two one-hot entries at (h, l) multiply to one exactly when the word is 16 h + l. -/
theorem digits_product (b : BitVec 32) (hb : b.toNat ≤ 511) (h : Fin 32) (l : Fin 16) :
    (if hiWord b = BitVec.ofNat 32 h.val then (1 : EReal) else 0) * (if loWord b = BitVec.ofNat 32 l.val then (1 : EReal) else 0)
      = (((if b.toNat = 16 * h.val + l.val then 1 else 0 : ℕ) : ℝ) : EReal) := by
  have hg := digits_grid ⟨b.toNat, by omega⟩
  have eb : BitVec.ofNat 32 b.toNat = b := BitVec.eq_of_toNat_eq (by
    rw [BitVec.toNat_ofNat]; exact Nat.mod_eq_of_lt b.isLt)
  simp only [eb] at hg
  have hh := h.isLt
  have hl := l.isLt
  have ih := ofNat_eq_iff_small (x := b.toNat / 16) (y := h.val) (by omega) (by omega)
  have il := ofNat_eq_iff_small (x := b.toNat % 16) (y := l.val) (by omega) (by omega)
  rw [hg.1, hg.2]
  by_cases c : b.toNat = 16 * h.val + l.val
  · rw [if_pos c, if_pos (ih.mpr (by omega)), if_pos (il.mpr (by omega))]; norm_num
  · rw [if_neg c]
    by_cases c1 : b.toNat / 16 = h.val
    · rw [if_pos (ih.mpr c1), if_neg (fun e => c (by have := il.mp e; omega))]; norm_num
    · rw [if_neg (fun e => c1 (ih.mp e))]; norm_num

/-! The contraction: axis 0 of both one-hot matrices is the contracted one. -/

theorem lhs_axis0 (i : S32x16.Idx) (q : dot_S16384x32_S16384x16_S32x16_0_0_1_1_n_n.contr.Idx) :
    (dot_S16384x32_S16384x16_S32x16_0_0_1_1_n_n.lhsIdx i q 0).val = (q ⟨0, Nat.one_pos⟩).val :=
  dot_S16384x32_S16384x16_S32x16_0_0_1_1_n_n.lhsIdx_val_of_single rfl i q

theorem lhs_axis1 (i : S32x16.Idx) (q : dot_S16384x32_S16384x16_S32x16_0_0_1_1_n_n.contr.Idx) :
    (dot_S16384x32_S16384x16_S32x16_0_0_1_1_n_n.lhsIdx i q 1).val = (i 0).val := by
  unfold DotDims.lhsIdx
  rw [dif_neg (show ¬(1 : Fin S16384x32.rank) ∈ dot_S16384x32_S16384x16_S32x16_0_0_1_1_n_n.lhsBatch from List.not_mem_nil), dif_pos (show (1 : Fin S16384x32.rank) ∈ dot_S16384x32_S16384x16_S32x16_0_0_1_1_n_n.lhsNonContracting from List.mem_singleton.mpr rfl)]
  rfl

theorem rhs_axis0 (i : S32x16.Idx) (q : dot_S16384x32_S16384x16_S32x16_0_0_1_1_n_n.contr.Idx) :
    (dot_S16384x32_S16384x16_S32x16_0_0_1_1_n_n.rhsIdx i q 0).val = (q ⟨0, Nat.one_pos⟩).val :=
  dot_S16384x32_S16384x16_S32x16_0_0_1_1_n_n.rhsIdx_val_of_single rfl i q

theorem rhs_axis1 (i : S32x16.Idx) (q : dot_S16384x32_S16384x16_S32x16_0_0_1_1_n_n.contr.Idx) :
    (dot_S16384x32_S16384x16_S32x16_0_0_1_1_n_n.rhsIdx i q 1).val = (i 1).val := by
  unfold DotDims.rhsIdx
  rw [dif_neg (show ¬(1 : Fin S16384x16.rank) ∈ dot_S16384x32_S16384x16_S32x16_0_0_1_1_n_n.rhsBatch from List.not_mem_nil), dif_pos (show (1 : Fin S16384x16.rank) ∈ dot_S16384x32_S16384x16_S32x16_0_0_1_1_n_n.rhsNonContracting from List.mem_singleton.mpr rfl)]
  rfl

/-- Entry (h, l) of a chunk's counts is the sum over the chunk's values of the two one-hot entries' product. -/
theorem chunkCounts_apply (s : IVec S16384 32) (h : Fin 32) (l : Fin 16) :
    chunkCounts (F := Ideal) s (ix2 h l)
      = ∑ k : Fin 16384, oneHotHi (F := Ideal) s (ix2 k h) * oneHotLo (F := Ideal) s (ix2 k l) := by
  unfold chunkCounts
  simp only [matmul]
  rw [Ideal.matmul_constant_zero_apply, ← Equiv.sum_comp (contrEquiv1 dot_S16384x32_S16384x16_S32x16_0_0_1_1_n_n 16384 rfl rfl).symm]
  refine Finset.sum_congr rfl fun k _ => ?_
  have hk := contrEquiv1_symm_val dot_S16384x32_S16384x16_S32x16_0_0_1_1_n_n 16384 rfl rfl k
  have el : dot_S16384x32_S16384x16_S32x16_0_0_1_1_n_n.lhsIdx (ix2 h l) ((contrEquiv1 dot_S16384x32_S16384x16_S32x16_0_0_1_1_n_n 16384 rfl rfl).symm k) = ix2 k h :=
    funext fun a => Fin.ext (by
      match a with
      | ⟨0, _⟩ => exact (lhs_axis0 _ _).trans hk
      | ⟨1, _⟩ => exact lhs_axis1 _ _)
  have er : dot_S16384x32_S16384x16_S32x16_0_0_1_1_n_n.rhsIdx (ix2 h l) ((contrEquiv1 dot_S16384x32_S16384x16_S32x16_0_0_1_1_n_n 16384 rfl rfl).symm k) = ix2 k l :=
    funext fun a => Fin.ext (by
      match a with
      | ⟨0, _⟩ => exact (rhs_axis0 _ _).trans hk
      | ⟨1, _⟩ => exact rhs_axis1 _ _)
  rw [el, er]

/-- The cast from the reals to the extended reals goes through a finite sum. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- For slot words at most 511, entry (h, l) of a chunk's counts is the number of the chunk's values whose word is 16 h + l. -/
theorem chunkCounts_count (s : IVec S16384 32) (hs : ∀ k : Fin 16384, (s (ix1 k)).toNat ≤ 511) (h : Fin 32) (l : Fin 16) :
    chunkCounts (F := Ideal) s (ix2 h l)
      = (((∑ k : Fin 16384, (if (s (ix1 k)).toNat = 16 * h.val + l.val then 1 else 0 : ℕ) : ℕ) : ℝ) : EReal) := by
  rw [chunkCounts_apply, Nat.cast_sum, coe_sum]
  refine Finset.sum_congr rfl fun k _ => ?_
  rw [oneHotHi_apply, oneHotLo_apply, digits_product _ (hs k)]

/-- A chunk at an index: value k of the chunk that starts at row o is entry (o + k / 512, k mod 512) of the tile. -/
theorem chunk_apply (g : FVec Ideal S512x512 .f32) (off : Fin 2 → ℕ) (hs : S512x512.Slices off S32x512)
    (k : Fin 16384) (p q : Fin 512) (hp : p.val = off 0 + k.val / 512) (hq : q.val = off 1 + k.val % 512) :
    chunk g off hs (ix1 k) = g (ix2 p q) := by
  have hk := k.isLt
  unfold chunk
  refine (shapeCast_apply _ Facts₀.shapeCasts_S32x512_S16384 (ix1 k)
    (ix2 (⟨k.val / 512, by omega⟩ : Fin 32) (⟨k.val % 512, by omega⟩ : Fin 512)) ?_).trans ?_
  · rw [Shape.rowMajor_val_one, Shape.rowMajor_val_two]
    show k.val / 512 * 512 + k.val % 512 = k.val
    omega
  · refine extractStridedSlice_apply off g hs _ (ix2 p q) fun a => ?_
    match a with
    | ⟨0, _⟩ => exact hp
    | ⟨1, _⟩ => exact hq

/-- The slot word of a chunk's value k is that value's slot. -/
theorem slotWord_apply (xs : FVec Ideal S16384 .f32) (k : Fin 16384) : slotWord xs (ix1 k) = slot (xs (ix1 k)) := rfl

/-- Whether entry (r, q) of the tile falls in slot b, for any two numbers (read modulo 512). -/
def cell (g : FVec Ideal S512x512 .f32) (b r q : ℕ) : ℕ :=
  hit b (g (ix2 (⟨r % 512, Nat.mod_lt _ (by decide)⟩ : Fin 512) (⟨q % 512, Nat.mod_lt _ (by decide)⟩ : Fin 512)))

theorem cell_fin (g : FVec Ideal S512x512 .f32) (b : ℕ) (r q : Fin 512) : cell g b r.val q.val = hit b (g (ix2 r q)) := by
  unfold cell
  have er : (⟨r.val % 512, Nat.mod_lt _ (by decide)⟩ : Fin 512) = r := Fin.ext (Nat.mod_eq_of_lt r.isLt)
  have eq : (⟨q.val % 512, Nat.mod_lt _ (by decide)⟩ : Fin 512) = q := Fin.ext (Nat.mod_eq_of_lt q.isLt)
  rw [er, eq]

/-- The counts of the chunk that starts at row o = 32 j. -/
theorem chunk_hits (g : FVec Ideal S512x512 .f32) (h : Fin 32) (l : Fin 16) (o j : ℕ) (ho : o = 32 * j) (hj : j < 16)
    (hs : S512x512.Slices ![o, 0] S32x512) :
    chunkCounts (F := Ideal) (slotWord (chunk g ![o, 0] hs)) (ix2 h l)
      = (((∑ k ∈ Finset.range 16384, cell g (16 * h.val + l.val) (32 * j + k / 512) (k % 512) : ℕ) : ℝ) : EReal) := by
  rw [chunkCounts_count _ (fun k => slot_toNat_le _), ← Fin.sum_univ_eq_sum_range]
  refine congrArg (fun n : ℕ => ((n : ℝ) : EReal)) (Finset.sum_congr rfl fun k _ => ?_)
  have hk := k.isLt
  have hlt : 32 * j + k.val / 512 < 512 := by omega
  rw [slotWord_apply, chunk_apply g ![o, 0] hs k
    (⟨(32 * j + k.val / 512) % 512, Nat.mod_lt _ (by decide)⟩ : Fin 512) (⟨(k.val % 512) % 512, Nat.mod_lt _ (by decide)⟩ : Fin 512)
    (by show (32 * j + k.val / 512) % 512 = o + k.val / 512; rw [Nat.mod_eq_of_lt hlt, ho])
    (by show (k.val % 512) % 512 = 0 + k.val % 512; omega)]
  rfl

/-- A sum over m · n numbers read as quotient and remainder by n is the double sum. -/
theorem sum_rows (f : ℕ → ℕ → ℕ) (n m : ℕ) (hn : 0 < n) :
    ∑ k ∈ Finset.range (m * n), f (k / n) (k % n) = ∑ a ∈ Finset.range m, ∑ q ∈ Finset.range n, f a q := by
  induction m with
  | zero => simp
  | succ m ih =>
    rw [Nat.succ_mul, Finset.sum_range_add, ih, Finset.sum_range_succ]
    refine congrArg (_ + ·) (Finset.sum_congr rfl fun x hx => ?_)
    rw [Finset.mem_range] at hx
    rw [Nat.mul_comm m n, Nat.mul_add_div hn, Nat.mul_add_mod, Nat.div_eq_of_lt hx, Nat.mod_eq_of_lt hx, Nat.add_zero]

/-- The tile's 512 rows are the sixteen chunks' 32 rows each. -/
theorem regroup (f : ℕ → ℕ → ℕ) :
    ∑ r ∈ Finset.range 512, ∑ q ∈ Finset.range 512, f r q
      = ∑ j ∈ Finset.range 16, ∑ k ∈ Finset.range 16384, f (32 * j + k / 512) (k % 512) := by
  have h1 : ∀ j, ∑ k ∈ Finset.range 16384, f (32 * j + k / 512) (k % 512)
      = ∑ a ∈ Finset.range 32, ∑ q ∈ Finset.range 512, f (32 * j + a) q :=
    fun j => sum_rows (fun a q => f (32 * j + a) q) 512 32 (by norm_num)
  have h2 := sum_rows (fun j a => ∑ q ∈ Finset.range 512, f (32 * j + a) q) 32 16 (by norm_num)
  rw [Finset.sum_congr rfl (fun j _ => h1 j), ← h2]
  refine Finset.sum_congr rfl fun r _ => ?_
  show _ = ∑ q ∈ Finset.range 512, f (32 * (r / 32) + r % 32) q
  rw [Nat.div_add_mod]

/-- A sum of sixteen terms, written out. -/
theorem sum_sixteen (F : ℕ → ℕ) : ∑ j ∈ Finset.range 16, F j = F 0 + F 1 + F 2 + F 3 + F 4 + F 5 + F 6 + F 7 + F 8 + F 9 + F 10 + F 11 + F 12 + F 13 + F 14 + F 15 := by
  simp only [Finset.sum_range_succ, Finset.sum_range_zero, zero_add]

/-- The cast of a sum of sixteen numbers, term by term, after a zero. -/
theorem cast_sixteen (a0 a1 a2 a3 a4 a5 a6 a7 a8 a9 a10 a11 a12 a13 a14 a15 : ℕ) :
    (((a0 + a1 + a2 + a3 + a4 + a5 + a6 + a7 + a8 + a9 + a10 + a11 + a12 + a13 + a14 + a15 : ℕ) : ℝ) : EReal)
      = 0 + ((a0 : ℝ) : EReal) + ((a1 : ℝ) : EReal) + ((a2 : ℝ) : EReal) + ((a3 : ℝ) : EReal) + ((a4 : ℝ) : EReal) + ((a5 : ℝ) : EReal) + ((a6 : ℝ) : EReal) + ((a7 : ℝ) : EReal) + ((a8 : ℝ) : EReal) + ((a9 : ℝ) : EReal) + ((a10 : ℝ) : EReal) + ((a11 : ℝ) : EReal) + ((a12 : ℝ) : EReal) + ((a13 : ℝ) : EReal) + ((a14 : ℝ) : EReal) + ((a15 : ℝ) : EReal) := by
  simp only [Nat.cast_add, EReal.coe_add, zero_add]

/-- The number of a tile's entries in slot b, chunk by chunk. -/
theorem tile_hits (g : FVec Ideal S512x512 .f32) (b : ℕ) :
    (∑ r : Fin 512, ∑ q : Fin 512, hit b (g (ix2 r q)))
      = (∑ k ∈ Finset.range 16384, cell g b (32 * 0 + k / 512) (k % 512))
        + (∑ k ∈ Finset.range 16384, cell g b (32 * 1 + k / 512) (k % 512))
        + (∑ k ∈ Finset.range 16384, cell g b (32 * 2 + k / 512) (k % 512))
        + (∑ k ∈ Finset.range 16384, cell g b (32 * 3 + k / 512) (k % 512))
        + (∑ k ∈ Finset.range 16384, cell g b (32 * 4 + k / 512) (k % 512))
        + (∑ k ∈ Finset.range 16384, cell g b (32 * 5 + k / 512) (k % 512))
        + (∑ k ∈ Finset.range 16384, cell g b (32 * 6 + k / 512) (k % 512))
        + (∑ k ∈ Finset.range 16384, cell g b (32 * 7 + k / 512) (k % 512))
        + (∑ k ∈ Finset.range 16384, cell g b (32 * 8 + k / 512) (k % 512))
        + (∑ k ∈ Finset.range 16384, cell g b (32 * 9 + k / 512) (k % 512))
        + (∑ k ∈ Finset.range 16384, cell g b (32 * 10 + k / 512) (k % 512))
        + (∑ k ∈ Finset.range 16384, cell g b (32 * 11 + k / 512) (k % 512))
        + (∑ k ∈ Finset.range 16384, cell g b (32 * 12 + k / 512) (k % 512))
        + (∑ k ∈ Finset.range 16384, cell g b (32 * 13 + k / 512) (k % 512))
        + (∑ k ∈ Finset.range 16384, cell g b (32 * 14 + k / 512) (k % 512))
        + (∑ k ∈ Finset.range 16384, cell g b (32 * 15 + k / 512) (k % 512)) := by
  have etot : (∑ r : Fin 512, ∑ q : Fin 512, hit b (g (ix2 r q)))
      = ∑ r ∈ Finset.range 512, ∑ q ∈ Finset.range 512, cell g b r q := by
    rw [← Fin.sum_univ_eq_sum_range (fun r => ∑ q ∈ Finset.range 512, cell g b r q)]
    refine Finset.sum_congr rfl fun r _ => ?_
    rw [← Fin.sum_univ_eq_sum_range (fun q => cell g b r.val q)]
    exact Finset.sum_congr rfl fun q _ => (cell_fin g _ r q).symm
  exact etot.trans ((regroup (cell g b)).trans
    (sum_sixteen (fun j => ∑ k ∈ Finset.range 16384, cell g b (32 * j + k / 512) (k % 512))))

/-- Sixteen vector additions onto a start, read at an index. -/
theorem add_sixteen (z c0 c1 c2 c3 c4 c5 c6 c7 c8 c9 c10 c11 c12 c13 c14 c15 : FVec Ideal S32x16 .f32) (i : S32x16.Idx) :
    (addf (addf (addf (addf (addf (addf (addf (addf (addf (addf (addf (addf (addf (addf (addf (addf (z) c0) c1) c2) c3) c4) c5) c6) c7) c8) c9) c10) c11) c12) c13) c14) c15) i
      = z i + c0 i + c1 i + c2 i + c3 i + c4 i + c5 i + c6 i + c7 i + c8 i + c9 i + c10 i + c11 i + c12 i + c13 i + c14 i + c15 i := by
  simp only [addf_apply]

/-- Entry (h, l) of a tile's counts is the number of the tile's entries whose slot is 16 h + l. -/
theorem tileCounts_apply (g : FVec Ideal S512x512 .f32) (h : Fin 32) (l : Fin 16) :
    tileCounts (F := Ideal) g (ix2 h l)
      = (((∑ r : Fin 512, ∑ q : Fin 512, hit (16 * h.val + l.val) (g (ix2 r q)) : ℕ) : ℝ) : EReal) := by
  have e0 := chunk_hits g h l 0 0 (by norm_num) (by norm_num) Facts₀.slices_S512x512_o0_0_S32x512
  have e1 := chunk_hits g h l 32 1 (by norm_num) (by norm_num) Facts₀.slices_S512x512_o32_0_S32x512
  have e2 := chunk_hits g h l 64 2 (by norm_num) (by norm_num) Facts₀.slices_S512x512_o64_0_S32x512
  have e3 := chunk_hits g h l 96 3 (by norm_num) (by norm_num) Facts₀.slices_S512x512_o96_0_S32x512
  have e4 := chunk_hits g h l 128 4 (by norm_num) (by norm_num) Facts₀.slices_S512x512_o128_0_S32x512
  have e5 := chunk_hits g h l 160 5 (by norm_num) (by norm_num) Facts₀.slices_S512x512_o160_0_S32x512
  have e6 := chunk_hits g h l 192 6 (by norm_num) (by norm_num) Facts₀.slices_S512x512_o192_0_S32x512
  have e7 := chunk_hits g h l 224 7 (by norm_num) (by norm_num) Facts₀.slices_S512x512_o224_0_S32x512
  have e8 := chunk_hits g h l 256 8 (by norm_num) (by norm_num) Facts₀.slices_S512x512_o256_0_S32x512
  have e9 := chunk_hits g h l 288 9 (by norm_num) (by norm_num) Facts₀.slices_S512x512_o288_0_S32x512
  have e10 := chunk_hits g h l 320 10 (by norm_num) (by norm_num) Facts₀.slices_S512x512_o320_0_S32x512
  have e11 := chunk_hits g h l 352 11 (by norm_num) (by norm_num) Facts₀.slices_S512x512_o352_0_S32x512
  have e12 := chunk_hits g h l 384 12 (by norm_num) (by norm_num) Facts₀.slices_S512x512_o384_0_S32x512
  have e13 := chunk_hits g h l 416 13 (by norm_num) (by norm_num) Facts₀.slices_S512x512_o416_0_S32x512
  have e14 := chunk_hits g h l 448 14 (by norm_num) (by norm_num) Facts₀.slices_S512x512_o448_0_S32x512
  have e15 := chunk_hits g h l 480 15 (by norm_num) (by norm_num) Facts₀.slices_S512x512_o480_0_S32x512
  have ez : (Scalar.ofBits .f32 0x00000000#32 : Ideal .f32) = 0 := Ideal.ofBits_zero_f32
  unfold tileCounts
  rewrite [add_sixteen, broadcast_apply, ez, e0, e1, e2, e3, e4, e5, e6, e7, e8, e9, e10, e11, e12, e13, e14, e15]
  refine Eq.trans ?_ (congrArg (fun n : ℕ => ((n : ℝ) : EReal)) (tile_hits g (16 * h.val + l.val)).symm)
  exact (cast_sixteen _ _ _ _ _ _ _ _ _ _ _ _ _ _ _ _).symm

end Cert.KernelIdeal.ChunkMath

end
-- ==== Proof.Diffs.lean ====
/-
  The two differences of a tile over the extended reals, and what they contribute to a slot.

  Rotating a row by 511 places brings each entry's right neighbour to it, so away from the last column the horizontal
  difference is the neighbour minus the entry; the last column holds -10000, which lies outside [-255, 256] and so
  falls in the spare slot 511.  Hence for a slot below 511 the last column contributes nothing.  The same along the
  rows for the vertical difference.
-/
import proofs.«161051_j23536420782150_1_alg».proof.Proof.BodySpec
import proofs.«161051_j23536420782150_1_alg».proof.Proof.Counting
import Idealize.ShloMosaic.Lib.ValueIdx
import Idealize.ShloMosaic.Lib.Pipeline.Value

noncomputable section

open Idealize.ShloMosaic Idealize.ShloMosaic.ValueIdx

namespace Cert.KernelIdeal.Diffs

open Cert.KernelIdeal Cert.KernelIdeal.Body Cert.Hist

variable [Facts]

open Facts₀ Facts

/-! ### Words: the column (row) number against 511 -/

/-- For a number below 512, its 32-bit word is signed-below the word 511 exactly when the number is below 511. -/
theorem slt511 : ∀ n : Fin 512,
    IntOp.cmpi .slt (BitVec.ofNat 32 n.val) 511#32 = BitVec.ofBool (decide (n.val < 511)) := by
  decide +kernel

/-- The column-number vector holds at (r, q) the word of q. -/
theorem iotaCol_apply (r q : Fin 512) :
    iota .tc S512x512 32 [1] iota_S512x512_d1_w32 (ix2 r q) = BitVec.ofNat 32 q.val := by
  show BitVec.ofNat 32 (0 * 512 + q.val) = _
  simp

/-- The row-number vector holds at (r, q) the word of r. -/
theorem iotaRow_apply (r q : Fin 512) :
    iota .tc S512x512 32 [0] iota_S512x512_d0_w32 (ix2 r q) = BitVec.ofNat 32 r.val := by
  show BitVec.ofNat 32 (0 * 512 + r.val) = _
  simp

/-! ### Rotating by 511 brings the next entry -/

/-- Rotating the columns by 511 reads, before the last column, the right neighbour:
    (q + 512 - 511) mod 512 = q + 1 for q < 511. -/
theorem rotCol_apply (x : FVec Ideal S512x512 .f32) (hr : S512x512.Rotates 1 none) (r q : Fin 512)
    (h : q.val < 511) :
    dynamicRotate 1 511#32 none x hr (ix2 r q) = x (ix2 r ⟨q.val + 1, by omega⟩) := by
  unfold dynamicRotate
  refine congrArg x ?_
  funext a
  match a with
  | ⟨0, _⟩ => rfl
  | ⟨1, _⟩ =>
    refine Fin.ext ?_
    show (q.val + 512 - (511 + 0) % 512) % 512 = q.val + 1
    omega

/-- Rotating the rows by 511 reads, before the last row, the lower neighbour. -/
theorem rotRow_apply (x : FVec Ideal S512x512 .f32) (hr : S512x512.Rotates 0 none) (r q : Fin 512)
    (h : r.val < 511) :
    dynamicRotate 0 511#32 none x hr (ix2 r q) = x (ix2 ⟨r.val + 1, by omega⟩ q) := by
  unfold dynamicRotate
  refine congrArg x ?_
  funext a
  match a with
  | ⟨0, _⟩ =>
    refine Fin.ext ?_
    show (r.val + 512 - (511 + 0) % 512) % 512 = r.val + 1
    omega
  | ⟨1, _⟩ => rfl

/-! ### The two differences at an index -/

/-- The horizontal difference at (r, q): right neighbour minus entry before the last column, -10000 on it. -/
theorem diffX_apply (x : FVec Ideal S512x512 .f32) (r q : Fin 512) :
    diffX (F := Ideal) x (ix2 r q)
      = if h : q.val < 511 then diff (x (ix2 r ⟨q.val + 1, by omega⟩)) (x (ix2 r q)) else farAway := by
  show Scalar.select (IntOp.cmpi .slt (iota .tc S512x512 32 [1] iota_S512x512_d1_w32 (ix2 r q)) 511#32)
      (FloatOps.subf (dynamicRotate 1 511#32 none x rotates_S512x512_d1 (ix2 r q)) (x (ix2 r q)))
      (FloatOps.ofBits (F := Ideal) .f32 0xC61C4000#32) = _
  rw [iotaCol_apply, slt511]
  by_cases h : q.val < 511
  · rw [dif_pos h, rotCol_apply x _ r q h, decide_eq_true h]
    exact select_one _ _
  · rw [dif_neg h, decide_eq_false h]
    exact select_zero _ _

/-- The vertical difference at (r, q): lower neighbour minus entry before the last row, -10000 on it. -/
theorem diffY_apply (x : FVec Ideal S512x512 .f32) (r q : Fin 512) :
    diffY (F := Ideal) x (ix2 r q)
      = if h : r.val < 511 then diff (x (ix2 ⟨r.val + 1, by omega⟩ q)) (x (ix2 r q)) else farAway := by
  show Scalar.select (IntOp.cmpi .slt (iota .tc S512x512 32 [0] iota_S512x512_d0_w32 (ix2 r q)) 511#32)
      (FloatOps.subf (dynamicRotate 0 511#32 none x rotates_S512x512_d0 (ix2 r q)) (x (ix2 r q)))
      (FloatOps.ofBits (F := Ideal) .f32 0xC61C4000#32) = _
  rw [iotaRow_apply, slt511]
  by_cases h : r.val < 511
  · rw [dif_pos h, rotRow_apply x _ r q h, decide_eq_true h]
    exact select_one _ _
  · rw [dif_neg h, decide_eq_false h]
    exact select_zero _ _

/-! ### -10000 lies below the interval -/

/-- The pattern 0xC61C4000 denotes the real -10000: sign minus, exponent 140, fraction 1851392, that is
    -(2^23 + 1851392) * 2^(140 - 127 - 23) = -10240000 / 1024. -/
theorem farAway_eq : farAway = ((-10000 : ℝ) : EReal) := by
  show Ideal.ofBits .f32 0xC61C4000#32 = _
  simp [Ideal.ofBits, Ideal.ieee, -EReal.coe_mul]; norm_num

/-- The pattern 0xC37F0000 denotes the real -255. -/
theorem loEnd_eq : loEnd = ((-255 : ℝ) : EReal) := by
  show Ideal.ofBits .f32 0xC37F0000#32 = _
  simp [Ideal.ofBits, Ideal.ieee, -EReal.coe_mul]; norm_num

/-- -10000 fails the interval test, since it is below the lower end -255. -/
theorem inRange_farAway : inRange farAway = 0#1 := by
  have h : ¬ (loEnd ≤ farAway) := by
    rw [loEnd_eq, farAway_eq, EReal.coe_le_coe_iff]; norm_num
  have h0 : Ideal.cmp .oge farAway loEnd = 0#1 := by
    show BitVec.ofBool (decide (loEnd ≤ farAway)) = 0#1
    rw [decide_eq_false h]; rfl
  show IntOp.andi (Ideal.cmp .oge farAway loEnd) (Ideal.cmp .ole farAway hiEnd) = 0#1
  rw [h0]
  show (0#1 : BitVec 1) &&& _ = 0#1
  exact BitVec.zero_and

/-- -10000 falls in no slot below 511. -/
theorem hit_farAway (b : ℕ) (hb : b < 511) : hit b farAway = 0 := by
  have hs : slot farAway = 511#32 := by
    show Scalar.select (inRange farAway) (binWord farAway) 511#32 = 511#32
    rw [inRange_farAway, select_zero]
  unfold hit
  rw [hs]
  have h511 : ((511#32 : BitVec 32).toNat) = 511 := by decide
  rw [h511, if_neg (by omega)]

/-! ### The last column and the last row contribute nothing to a slot below 511 -/

/-- For a slot below 511, counting the horizontal difference over the whole tile counts the 511 true differences
    of every row. -/
theorem countsX (x : FVec Ideal S512x512 .f32) (b : ℕ) (hb : b < 511) :
    (∑ r : Fin 512, ∑ q : Fin 512, hit b (diffX (F := Ideal) x (ix2 r q)))
      = ∑ r : Fin 512, ∑ q : Fin 511, hit b (diff (x (ix2 r ⟨q.val + 1, by omega⟩)) (x (ix2 r ⟨q.val, by omega⟩))) := by
  refine Finset.sum_congr rfl fun r _ => ?_
  rw [Fin.sum_univ_castSucc]
  have hlast : hit b (diffX (F := Ideal) x (ix2 r (Fin.last 511))) = 0 := by
    rw [diffX_apply, dif_neg (by simp)]
    exact hit_farAway b hb
  rw [hlast, add_zero]
  refine Finset.sum_congr rfl fun q _ => ?_
  rw [diffX_apply, dif_pos (by simp)]
  rfl

/-- For a slot below 511, counting the vertical difference over the whole tile counts the 511 true differences of
    every column. -/
theorem countsY (x : FVec Ideal S512x512 .f32) (b : ℕ) (hb : b < 511) :
    (∑ r : Fin 512, ∑ q : Fin 512, hit b (diffY (F := Ideal) x (ix2 r q)))
      = ∑ r : Fin 511, ∑ q : Fin 512, hit b (diff (x (ix2 ⟨r.val + 1, by omega⟩ q)) (x (ix2 ⟨r.val, by omega⟩ q))) := by
  rw [Fin.sum_univ_castSucc]
  have hlast : (∑ q : Fin 512, hit b (diffY (F := Ideal) x (ix2 (Fin.last 511) q))) = 0 := by
    refine Finset.sum_eq_zero fun q _ => ?_
    rw [diffY_apply, dif_neg (by simp)]
    exact hit_farAway b hb
  rw [hlast, add_zero]
  refine Finset.sum_congr rfl fun r _ => ?_
  refine Finset.sum_congr rfl fun q _ => ?_
  rw [diffY_apply, dif_pos (by simp)]
  rfl

end Cert.KernelIdeal.Diffs

end
-- ==== Proof.KernelMath.lean ====
/-
  The kernel's pure result over the extended reals, as counts.

  With exact arithmetic a running block's entry (h, l) after a core's j-th point is the number of entries of the core's
  first j + 1 difference tiles whose slot is 16 h + l; the host adds the two cores' entries, and slot b of the result
  is entry (b / 16, b % 16).  Counting a difference over a whole tile counts its 511 true differences per row (or per
  column), the 48 tiles are the 16 images' 3 channels, and a natural number below 2 ^ 31 converts to the word of that
  number.
-/
import proofs.«161051_j23536420782150_1_alg».proof.Proof.BodySpec
import proofs.«161051_j23536420782150_1_alg».proof.Proof.Counting
import proofs.«161051_j23536420782150_1_alg».proof.Proof.KernelForm
import proofs.«161051_j23536420782150_1_alg».proof.Proof.ChunkMath
import proofs.«161051_j23536420782150_1_alg».proof.Proof.Diffs
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.KernelMath

open Cert.KernelIdeal Cert.KernelIdeal.Body Cert.KernelIdeal.Form Cert.Hist

variable [Facts]
open Facts₀ Facts

/-- The block of zeros reads as zero. -/
theorem zeroBlock_apply (j : S1x32x16.Idx) : zeroBlock (F := Ideal) j = 0 := by
  unfold zeroBlock
  rw [shapeCast_addUnit_apply]
  show FloatOps.ofBits (F := Ideal) .f32 0x00000000#32 = 0
  rw [Ideal.ofBits_def, Ideal.ofBits_zero_f32]

/-- One point's update read at (0, h, l): the previous entry plus the tile's count there. -/
theorem accumulate_apply (acc : Vec Ideal S1x32x16 .f32) (g : FVec Ideal S512x512 .f32) (h : Fin 32) (l : Fin 16) :
    accumulate (F := Ideal) acc g (ix3 (0 : Fin 1) h l)
      = acc (ix3 (0 : Fin 1) h l) + tileCounts (F := Ideal) g (ix2 h l) := by
  unfold accumulate
  rw [shapeCast_addUnit_apply]
  show FloatOps.addf (F := Ideal) (shapeCast S32x16 acc shapeCasts_S1x32x16_S32x16 _) (tileCounts (F := Ideal) g _) = _
  rw [Ideal.addf_def]
  have e1 : (fun a : Fin 2 => (ix3 (0 : Fin 1) h l) a.succ) = ix2 h l := by
    funext a; match a with
    | ⟨0, _⟩ => rfl
    | ⟨1, _⟩ => rfl
  rw [e1]
  congr 1
  exact shapeCast_apply acc shapeCasts_S1x32x16_S32x16 (ix2 h l) (ix3 (0 : Fin 1) h l)
    (by rw [Shape.rowMajor_val_three, Shape.rowMajor_val_two]; show ((0 : ℕ) * 32 + h.val) * 16 + l.val = h.val * 16 + l.val; omega)

/-- At a multiple of 24 the running block restarts from zeros. -/
theorem chainFrom_restart {F : FTy → Type} [FloatOps F] (D : FVec F S512x512 .f32 → FVec F S512x512 .f32) {N : ℕ}
    (blk : Fin N → Vec F S1x1x512x512 .f32) (n : ℕ) (hn : n < N) (h0 : n % 24 = 0) :
    chainFrom D blk n hn = accumulate zeroBlock (D (tile (blk ⟨n, hn⟩))) := by
  cases n with
  | zero => rfl
  | succ k => unfold chainFrom; rw [if_pos h0]

/-- Otherwise it is the block before plus the point's counts. -/
theorem chainFrom_step {F : FTy → Type} [FloatOps F] (D : FVec F S512x512 .f32 → FVec F S512x512 .f32) {N : ℕ}
    (blk : Fin N → Vec F S1x1x512x512 .f32) (n : ℕ) (hn : n + 1 < N) (h0 : ¬(n + 1) % 24 = 0) :
    chainFrom D blk (n + 1) hn = accumulate (chainFrom D blk n (Nat.lt_of_succ_lt hn)) (D (tile (blk ⟨n + 1, hn⟩))) := by
  conv_lhs => unfold chainFrom
  rw [if_neg h0]

/-- How many entries of the t-th difference tile fall in slot s (zero past the last tile). -/
def tileHits (D : FVec Ideal S512x512 .f32 → FVec Ideal S512x512 .f32) {N : ℕ}
    (blk : Fin N → Vec Ideal S1x1x512x512 .f32) (s t : ℕ) : ℕ :=
  if h : t < N then ∑ r : Fin 512, ∑ q : Fin 512, hit s (D (tile (blk ⟨t, h⟩)) (ix2 r q)) else 0

/-- The cast of a sum of two naturals into the extended reals is the sum of the casts. -/
theorem natCast_add_ereal (a b : ℕ) : (((a + b : ℕ) : ℝ) : EReal) = ((a : ℝ) : EReal) + ((b : ℝ) : EReal) := by
  rw [Nat.cast_add, EReal.coe_add]

/-- Entry (h, l) of core k's running block after its point j counts the entries of the core's first j + 1 difference
    tiles whose slot is 16 h + l. -/
theorem chain_core (D : FVec Ideal S512x512 .f32 → FVec Ideal S512x512 .f32) {N : ℕ}
    (blk : Fin N → Vec Ideal S1x1x512x512 .f32) (k : ℕ) (h : Fin 32) (l : Fin 16) (j : ℕ) :
    ∀ (hj : j < 24) (n : ℕ) (hn : n < N) (e : n = 24 * k + j),
      chainFrom D blk n hn (ix3 (0 : Fin 1) h l)
        = (((∑ i ∈ Finset.range (j + 1), tileHits D blk (16 * h.val + l.val) (24 * k + i) : ℕ) : ℝ) : EReal) := by
  induction j with
  | zero =>
    intro hj n hn e
    have h0 : n % 24 = 0 := by omega
    rw [chainFrom_restart D blk n hn h0, accumulate_apply, zeroBlock_apply, zero_add,
      ChunkMath.tileCounts_apply, Finset.sum_range_one]
    subst e
    unfold tileHits
    rw [dif_pos hn]
  | succ j ih =>
    intro hj n hn e
    obtain ⟨m, rfl⟩ : ∃ m, n = m + 1 := ⟨24 * k + j, by omega⟩
    have em : m = 24 * k + j := by omega
    have h0 : ¬(m + 1) % 24 = 0 := by omega
    have ht : tileHits D blk (16 * h.val + l.val) (24 * k + (j + 1))
        = ∑ r : Fin 512, ∑ q : Fin 512, hit (16 * h.val + l.val) (D (tile (blk ⟨m + 1, hn⟩)) (ix2 r q)) := by
      subst em
      unfold tileHits
      rw [dif_pos (show 24 * k + (j + 1) < N from hn)]
      rfl
    rw [chainFrom_step D blk m hn h0, accumulate_apply, ih (by omega) m (Nat.lt_of_succ_lt hn) em,
      ChunkMath.tileCounts_apply, Finset.sum_range_succ _ (j + 1), natCast_add_ereal, ht]

/-- Over the block index (h, l), the index of the per-core array with core k on the dropped axis is (k, h, l). -/
theorem lift_core (hR : S2x32x16.Reduces [0] S32x16) (h : Fin 32) (l : Fin 16) (k : Fin 2) :
    hR.lift (ix2 h l) k = ix3 k h l := by
  funext c
  apply Fin.ext
  show hR.liftVal (ix2 h l) k.val c = (ix3 k h l c).val
  unfold Shape.Reduces.liftVal
  match c with
  | ⟨0, _⟩ => simp
  | ⟨1, _⟩ => simp
  | ⟨2, _⟩ => simp

/-- Slot b of the host's last steps on an output array: the two cores' entries (b / 16, b % 16) added from zero, made
    an integer. -/
theorem tailTerm_apply (arr : FVec Ideal S2x32x16 .f32) (i : S511.Idx) :
    tailTerm (F := Ideal) arr i
      = Ideal.fptosi 32 (0 + ∑ k : Fin 2, arr (ix3 k
          (⟨(i 0).val / 16, by have hb : (i 0).val < 511 := (i 0).isLt; omega⟩ : Fin 32)
          (⟨(i 0).val % 16, by omega⟩ : Fin 16))) := by
  have hb : (i 0).val < 511 := (i 0).isLt
  unfold tailTerm
  show Ideal.fptosi 32 _ = Ideal.fptosi 32 _
  congr 1
  rw [extractStridedSlice_apply (s := S512) (t := S511) ![0] _ slices_S512_S511_0 i (ix1 (⟨(i 0).val, by omega⟩ : Fin 512))
    (fun a => by match a with | ⟨0, _⟩ => show (i 0).val = 0 + (i 0).val; omega)]
  rw [shapeCast_apply (s := S32x16) (t := S512) _ shapeCasts_S32x16_S512 (ix1 (⟨(i 0).val, by omega⟩ : Fin 512))
    (ix2 (⟨(i 0).val / 16, by omega⟩ : Fin 32) (⟨(i 0).val % 16, by omega⟩ : Fin 16))
    (by rw [Shape.rowMajor_val_two, Shape.rowMajor_val_one]; show (i 0).val / 16 * 16 + (i 0).val % 16 = (i 0).val; omega)]
  unfold Host.reduceAdd
  rw [Ideal.hostReduceAdd_def, Ideal.hostReduceAdd_single reducesTo_S2x32x16_S32x16_d0 (by decide)]
  congr 1
  · show FloatOps.ofBits (F := Ideal) .f32 0x00000000#32 = 0
    rw [Ideal.ofBits_def, Ideal.ofBits_zero_f32]
  · exact Finset.sum_congr rfl fun k _ => congrArg arr (lift_core _ _ _ k)

/-- A value falls in a given slot at most once. -/
theorem hit_le_one (b : ℕ) (x : Ideal .f32) : hit b x ≤ 1 := by
  unfold hit
  split <;> omega

/-- A count of horizontal differences is below 2 ^ 31: there are 12558336 of them. -/
theorem countX_lt (A : Stack.Idx → Ideal .f32) (b : ℕ) : countX A b < 2147483648 := by
  have h : countX A b ≤ ∑ n : Fin 16, ∑ ch : Fin 3, ∑ r : Fin 512, ∑ c : Fin 511, 1 :=
    Finset.sum_le_sum fun _ _ => Finset.sum_le_sum fun _ _ => Finset.sum_le_sum fun _ _ =>
      Finset.sum_le_sum fun _ _ => hit_le_one _ _
  simp at h
  omega

/-- A count of vertical differences is below 2 ^ 31. -/
theorem countY_lt (A : Stack.Idx → Ideal .f32) (b : ℕ) : countY A b < 2147483648 := by
  have h : countY A b ≤ ∑ n : Fin 16, ∑ ch : Fin 3, ∑ r : Fin 511, ∑ c : Fin 512, 1 :=
    Finset.sum_le_sum fun _ _ => Finset.sum_le_sum fun _ _ => Finset.sum_le_sum fun _ _ =>
      Finset.sum_le_sum fun _ _ => hit_le_one _ _
  simp at h
  omega

/-- A natural number below 2 ^ 31, as an extended real, converts to the 32-bit word of that number. -/
theorem fptosi_natCast (n : ℕ) (hn : n < 2147483648) : Ideal.fptosi 32 (((n : ℝ) : EReal)) = BitVec.ofNat 32 n := by
  rw [Ideal.fptosi, Ideal.toIntClamped_coe, if_pos (Nat.cast_nonneg n), Int.floor_natCast]
  have e : ((2 ^ (32 - 1) : ℕ) : ℤ) = 2147483648 := by norm_num
  rw [e, min_eq_right (by omega), max_eq_right (by omega), BitVec.ofInt_natCast]

/-- The two cores' 24 tiles each are the 48 tiles. -/
theorem sum_cores (f : ℕ → ℕ) : (∑ k : Fin 2, ∑ j ∈ Finset.range 24, f (24 * k.val + j)) = ∑ t ∈ Finset.range 48, f t := by
  rw [Fin.sum_univ_two, show (48 : ℕ) = 24 + 24 from rfl, Finset.sum_range_add]
  simp

/-- The 48 tiles are the 16 images' 3 channels. -/
theorem sum_tiles (f : ℕ → ℕ) : (∑ t ∈ Finset.range 48, f t) = ∑ n : Fin 16, ∑ ch : Fin 3, f (3 * n.val + ch.val) := by
  have key : ∀ m, (∑ t ∈ Finset.range (3 * m), f t) = ∑ n ∈ Finset.range m, ∑ ch ∈ Finset.range 3, f (3 * n + ch) := by
    intro m
    induction m with
    | zero => simp
    | succ m ih =>
      rw [Nat.mul_succ, Finset.sum_range_add, ih,
        Finset.sum_range_succ (fun n => ∑ ch ∈ Finset.range 3, f (3 * n + ch)) m]
  rw [show (48 : ℕ) = 3 * 16 from rfl, key 16, ← Fin.sum_univ_eq_sum_range (fun n => ∑ ch ∈ Finset.range 3, f (3 * n + ch)) 16]
  refine Finset.sum_congr rfl fun n _ => ?_
  rw [← Fin.sum_univ_eq_sum_range (fun ch => f (3 * n.val + ch)) 3]

/-- The count of tile 3 n + ch's horizontal difference in a slot below 511 is the count of the true horizontal
    differences of image n, channel ch. -/
theorem tileHits_X (A : Stack.Idx → Ideal .f32) {N : ℕ} (blk : Fin N → Vec Ideal S1x1x512x512 .f32) (hN : N = 48)
    (htile : ∀ (t : Fin N) (r q : Fin 512), tile (blk t) (ix2 r q)
      = A (ix4 (⟨t.val / 3, by have := t.isLt; omega⟩ : Fin 16) (⟨t.val % 3, by omega⟩ : Fin 3) r q))
    (b : ℕ) (hb : b < 511) (n : Fin 16) (ch : Fin 3) :
    tileHits diffX blk b (3 * n.val + ch.val) = ∑ r : Fin 512, ∑ q : Fin 511, hit b (diff (A (ix4 n ch r ⟨q.val + 1, by omega⟩)) (A (ix4 n ch r ⟨q.val, by omega⟩))) := by
  have hn' : (3 * n.val + ch.val) / 3 = n.val := by omega
  have hc' : (3 * n.val + ch.val) % 3 = ch.val := by omega
  unfold tileHits
  rw [dif_pos (by omega), Diffs.countsX _ b hb]
  refine Finset.sum_congr rfl fun r _ => Finset.sum_congr rfl fun q _ => ?_
  rw [htile, htile]
  simp only [hn', hc', Fin.eta]

/-- The count of tile 3 n + ch's vertical difference in a slot below 511 is the count of the true vertical
    differences of image n, channel ch. -/
theorem tileHits_Y (A : Stack.Idx → Ideal .f32) {N : ℕ} (blk : Fin N → Vec Ideal S1x1x512x512 .f32) (hN : N = 48)
    (htile : ∀ (t : Fin N) (r q : Fin 512), tile (blk t) (ix2 r q)
      = A (ix4 (⟨t.val / 3, by have := t.isLt; omega⟩ : Fin 16) (⟨t.val % 3, by omega⟩ : Fin 3) r q))
    (b : ℕ) (hb : b < 511) (n : Fin 16) (ch : Fin 3) :
    tileHits diffY blk b (3 * n.val + ch.val) = ∑ r : Fin 511, ∑ q : Fin 512, hit b (diff (A (ix4 n ch ⟨r.val + 1, by omega⟩ q)) (A (ix4 n ch ⟨r.val, by omega⟩ q))) := by
  have hn' : (3 * n.val + ch.val) / 3 = n.val := by omega
  have hc' : (3 * n.val + ch.val) % 3 = ch.val := by omega
  unfold tileHits
  rw [dif_pos (by omega), Diffs.countsY _ b hb]
  refine Finset.sum_congr rfl fun r _ => Finset.sum_congr rfl fun q _ => ?_
  rw [htile, htile]
  simp only [hn', hc', Fin.eta]

/-- The host's last steps on the array of horizontal-difference blocks give, in slot b, the word of countX at b. -/
theorem result_X (A : Stack.Idx → Ideal .f32) {N : ℕ} (blk : Fin N → Vec Ideal S1x1x512x512 .f32) (hN : N = 48)
    (h47 : 47 < N)
    (htile : ∀ (t : Fin N) (r q : Fin 512), tile (blk t) (ix2 r q)
      = A (ix4 (⟨t.val / 3, by have := t.isLt; omega⟩ : Fin 16) (⟨t.val % 3, by omega⟩ : Fin 3) r q)) :
    tailTerm (F := Ideal) (coreArr diffX blk h47) = fun i => BitVec.ofNat 32 (countX A (i 0).val) := by
  funext i
  have hb : (i 0).val < 511 := (i 0).isLt
  have hslot : 16 * ((i 0).val / 16) + (i 0).val % 16 = (i 0).val := Nat.div_add_mod _ _
  rw [tailTerm_apply]
  have hcore : ∀ k : Fin 2, coreArr diffX blk h47 (ix3 k (⟨(i 0).val / 16, by omega⟩ : Fin 32) (⟨(i 0).val % 16, by omega⟩ : Fin 16))
      = (((∑ j ∈ Finset.range 24, tileHits diffX blk (i 0).val (24 * k.val + j) : ℕ) : ℝ) : EReal) := by
    intro k
    have hk : k.val < 2 := k.isLt
    have := chain_core diffX blk k.val (⟨(i 0).val / 16, by omega⟩ : Fin 32) (⟨(i 0).val % 16, by omega⟩ : Fin 16) 23
      (by omega) (24 * k.val + 23) (by omega) rfl
    rw [show (16 * (⟨(i 0).val / 16, by omega⟩ : Fin 32).val + (⟨(i 0).val % 16, by omega⟩ : Fin 16).val) = (i 0).val from hslot] at this
    exact this
  rw [Fin.sum_univ_two, hcore 0, hcore 1, zero_add, ← natCast_add_ereal]
  have hcount : (∑ j ∈ Finset.range 24, tileHits diffX blk (i 0).val (24 * (0 : Fin 2).val + j))
      + (∑ j ∈ Finset.range 24, tileHits diffX blk (i 0).val (24 * (1 : Fin 2).val + j)) = countX A (i 0).val := by
    rw [← Fin.sum_univ_two (fun k : Fin 2 => ∑ j ∈ Finset.range 24, tileHits diffX blk (i 0).val (24 * k.val + j)),
      sum_cores, sum_tiles]
    unfold countX
    exact Finset.sum_congr rfl fun n _ => Finset.sum_congr rfl fun ch _ => tileHits_X A blk hN htile (i 0).val hb n ch
  rw [hcount]
  exact fptosi_natCast _ (countX_lt A _)

/-- The host's last steps on the array of vertical-difference blocks give, in slot b, the word of countY at b. -/
theorem result_Y (A : Stack.Idx → Ideal .f32) {N : ℕ} (blk : Fin N → Vec Ideal S1x1x512x512 .f32) (hN : N = 48)
    (h47 : 47 < N)
    (htile : ∀ (t : Fin N) (r q : Fin 512), tile (blk t) (ix2 r q)
      = A (ix4 (⟨t.val / 3, by have := t.isLt; omega⟩ : Fin 16) (⟨t.val % 3, by omega⟩ : Fin 3) r q)) :
    tailTerm (F := Ideal) (coreArr diffY blk h47) = fun i => BitVec.ofNat 32 (countY A (i 0).val) := by
  funext i
  have hb : (i 0).val < 511 := (i 0).isLt
  have hslot : 16 * ((i 0).val / 16) + (i 0).val % 16 = (i 0).val := Nat.div_add_mod _ _
  rw [tailTerm_apply]
  have hcore : ∀ k : Fin 2, coreArr diffY blk h47 (ix3 k (⟨(i 0).val / 16, by omega⟩ : Fin 32) (⟨(i 0).val % 16, by omega⟩ : Fin 16))
      = (((∑ j ∈ Finset.range 24, tileHits diffY blk (i 0).val (24 * k.val + j) : ℕ) : ℝ) : EReal) := by
    intro k
    have hk : k.val < 2 := k.isLt
    have := chain_core diffY blk k.val (⟨(i 0).val / 16, by omega⟩ : Fin 32) (⟨(i 0).val % 16, by omega⟩ : Fin 16) 23
      (by omega) (24 * k.val + 23) (by omega) rfl
    rw [show (16 * (⟨(i 0).val / 16, by omega⟩ : Fin 32).val + (⟨(i 0).val % 16, by omega⟩ : Fin 16).val) = (i 0).val from hslot] at this
    exact this
  rw [Fin.sum_univ_two, hcore 0, hcore 1, zero_add, ← natCast_add_ereal]
  have hcount : (∑ j ∈ Finset.range 24, tileHits diffY blk (i 0).val (24 * (0 : Fin 2).val + j))
      + (∑ j ∈ Finset.range 24, tileHits diffY blk (i 0).val (24 * (1 : Fin 2).val + j)) = countY A (i 0).val := by
    rw [← Fin.sum_univ_two (fun k : Fin 2 => ∑ j ∈ Finset.range 24, tileHits diffY blk (i 0).val (24 * k.val + j)),
      sum_cores, sum_tiles]
    unfold countY
    exact Finset.sum_congr rfl fun n _ => Finset.sum_congr rfl fun ch _ => tileHits_Y A blk hN htile (i 0).val hb n ch
  rw [hcount]
  exact fptosi_natCast _ (countY_lt A _)

end Cert.KernelIdeal.KernelMath

end
-- ==== Proof.LibRowOps.lean ====
/-
  Row gathers and row scatter-adds read at an index.

  `x[idx]` along the leading axis of an [N, C] table, with one start word per result row (start indices [E, 1],
  result [E, C]): result element (e, c) is the table at (the start word of e read signed and clamped into
  [0, N - 1], c).  The accumulating scatter of [E, C] update rows into an [N, C] operand by one destination word
  per update row (indices [E, 1]): operand element (n, c) gains the sum of the updates' column c over the rows
  whose destination word, read signed and NOT clamped, is n; a row whose word is outside [0, N) is dropped.
  The same for a vector operand [N] and scalar updates [E].
-/
import Idealize.ShloMosaic.PureOps.Ideal
import Idealize.ShloMosaic.Lib.ValueIdx

noncomputable section

namespace Idealize.ShloMosaic.RowOps

open Idealize.ShloMosaic Idealize.ShloMosaic.ValueIdx

/-- The dimension numbers of a row gather: operand [N, C], start indices [E, 1], result [E, C]. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, c): the table at the clamped start row of e, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- The dimension numbers of a row scatter: operand [N, C], scatter indices [E, 1], updates [E, C]. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis a row scatter's landing coordinate (start plus window) of update row p is the destination word
    of p read signed: the axis is in the index map and is an inserted axis (window coordinate 0). -/
theorem rowScatter_land0 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 0 + ((rowScatter N E C wf).window (ix2 p q) 0 : ℤ)
      = (idx (ix2 p (0 : Fin 1))).toInt := by
  have hw : (rowScatter N E C wf).window (ix2 p q) 0 = 0 := by
    unfold ScatterDims.window
    rw [dif_neg (show (0 : Fin 2) ∉ Shape.kept (⟨2, ![N, C]⟩ : Shape) ([0] : List (Fin 2)) by simp [Shape.kept])]
  rw [hw]
  unfold ScatterDims.start
  rw [dif_pos (show (0 : Fin 2) ∈ ([0] : List (Fin 2)) from List.mem_singleton.mpr rfl)]
  have hsi : (rowScatter N E C wf).siIdx (ix2 p q) ⟨List.idxOf (0 : Fin 2) (rowScatter N E C wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- On the column axis a row scatter's landing coordinate of update element (p, q) is q: the axis is not in the index
    map (start 0) and is the one window axis. -/
theorem rowScatter_land1 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 1 + ((rowScatter N E C wf).window (ix2 p q) 1 : ℤ) = (q.val : ℤ) := by
  have hs : (rowScatter N E C wf).start (ix2 p q) idx 1 = 0 := by
    unfold ScatterDims.start
    rw [dif_neg (show (1 : Fin 2) ∉ ([0] : List (Fin 2)) by decide)]
  have hw : (rowScatter N E C wf).window (ix2 p q) 1 = q.val := by
    unfold ScatterDims.window
    rw [dif_pos (show (1 : Fin 2) ∈ Shape.kept (⟨2, ![N, C]⟩ : Shape) ([0] : List (Fin 2)) by simp [Shape.kept, List.mem_finRange])]
    rfl
  rw [hs, hw, Int.zero_add]

/-- Where an update element of a row scatter lands: element (p, q) lands on operand element (n, c) exactly when q = c
    and the destination word of row p, read signed, is n. -/
theorem rowScatter_resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) (n : Fin N) (c : Fin C) :
    (rowScatter N E C wf).resultIdx? (ix2 p q) idx = some (ix2 n c)
      ↔ (q = c ∧ (idx (ix2 p (0 : Fin 1))).toInt = (n.val : ℤ)) := by
  have h0 := rowScatter_land0 wf idx p q
  have h1 := rowScatter_land1 wf idx p q
  unfold ScatterDims.resultIdx?
  split
  · rename_i h
    rw [Option.some.injEq]
    constructor
    · intro hf
      have e0 : ((rowScatter N E C wf).start (ix2 p q) idx 0 + ((rowScatter N E C wf).window (ix2 p q) 0 : ℤ)).toNat = n.val :=
        congrArg Fin.val (congrFun hf 0)
      have e1 : ((rowScatter N E C wf).start (ix2 p q) idx 1 + ((rowScatter N E C wf).window (ix2 p q) 1 : ℤ)).toNat = c.val :=
        congrArg Fin.val (congrFun hf 1)
      have p0 := (h 0).1
      rw [h0] at e0 p0
      rw [h1] at e1
      refine ⟨Fin.ext (by omega), by omega⟩
    · rintro ⟨hq, hn⟩
      funext a
      refine Fin.ext ?_
      match a with
      | ⟨0, _⟩ =>
        show ((rowScatter N E C wf).start (ix2 p q) idx 0 + ((rowScatter N E C wf).window (ix2 p q) 0 : ℤ)).toNat = n.val
        rw [h0, hn]; simp
      | ⟨1, _⟩ =>
        show ((rowScatter N E C wf).start (ix2 p q) idx 1 + ((rowScatter N E C wf).window (ix2 p q) 1 : ℤ)).toNat = c.val
        rw [h1, hq]; simp
  · rename_i h
    constructor
    · intro hf; exact absurd hf (by simp)
    · rintro ⟨hq, hn⟩
      exfalso
      apply h
      intro a
      match a with
      | ⟨0, _⟩ =>
        show 0 ≤ (rowScatter N E C wf).start (ix2 p q) idx 0 + ((rowScatter N E C wf).window (ix2 p q) 0 : ℤ)
          ∧ (rowScatter N E C wf).start (ix2 p q) idx 0 + ((rowScatter N E C wf).window (ix2 p q) 0 : ℤ) < (N : ℤ)
        rw [h0, hn]
        have := n.isLt
        omega
      | ⟨1, _⟩ =>
        show 0 ≤ (rowScatter N E C wf).start (ix2 p q) idx 1 + ((rowScatter N E C wf).window (ix2 p q) 1 : ℤ)
          ∧ (rowScatter N E C wf).start (ix2 p q) idx 1 + ((rowScatter N E C wf).window (ix2 p q) 1 : ℤ) < (C : ℤ)
        rw [h1]
        have := q.isLt
        omega

/-- THE ROW SCATTER-ADD READ AT (n, c): the operand's element plus the updates' column c summed over the rows sent to n. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ e ∈ Finset.univ.filter (fun e : Fin E => (idx (ix2 e (0 : Fin 1))).toInt = (n.val : ℤ)),
          upd (ix2 e c) := by
  unfold Ideal.hostScatterAdd
  congr 1
  refine Finset.sum_nbij' (fun j => (j 0 : Fin E)) (fun e => ix2 e c) ?_ ?_ ?_ ?_ ?_
  · intro j hj
    obtain ⟨p, q, rfl⟩ : ∃ (p : Fin E) (q : Fin C), j = ix2 p q := ⟨j 0, j 1, eq_ix2 j⟩
    rw [Finset.mem_filter] at hj
    exact Finset.mem_filter.mpr ⟨Finset.mem_univ _, ((rowScatter_resultIdx?_eq_some_iff wf idx p q n c).mp hj.2).2⟩
  · intro e he
    rw [Finset.mem_filter] at he ⊢
    exact ⟨Finset.mem_univ _, (rowScatter_resultIdx?_eq_some_iff wf idx e c n c).mpr ⟨rfl, he.2⟩⟩
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl
  · intro e _
    rfl
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl

/-- The dimension numbers of a scatter into a vector: operand [N], scatter indices [E, 1], updates [E]. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A vector scatter's landing coordinate (start plus window) of update position p is the destination word of p read
    signed: the one operand axis is in the index map and is an inserted axis (window coordinate 0). -/
theorem vecScatter_land {N E w : Nat}
    (wf : ScatterDims.WF ⟨1, ![N]⟩ ⟨2, ![E, 1]⟩ ⟨1, ![E]⟩ [] [0] [0] 1)
    (idx : IVec ⟨2, ![E, 1]⟩ w) (p : Fin E) :
    (vecScatter N E wf).start (ix1 p) idx 0 + ((vecScatter N E wf).window (ix1 p) 0 : ℤ)
      = (idx (ix2 p (0 : Fin 1))).toInt := by
  have hw : (vecScatter N E wf).window (ix1 p) 0 = 0 := by
    unfold ScatterDims.window
    rw [dif_neg (show (0 : Fin 1) ∉ Shape.kept (⟨1, ![N]⟩ : Shape) ([0] : List (Fin 1)) by simp [Shape.kept])]
  rw [hw]
  unfold ScatterDims.start
  rw [dif_pos (show (0 : Fin 1) ∈ ([0] : List (Fin 1)) from List.mem_singleton.mpr rfl)]
  have hsi : (vecScatter N E wf).siIdx (ix1 p) ⟨List.idxOf (0 : Fin 1) (vecScatter N E wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- Where an update of a vector scatter lands: position p lands on operand element n exactly when the destination
    word of p, read signed, is n. -/
theorem vecScatter_resultIdx?_eq_some_iff {N E w : Nat}
    (wf : ScatterDims.WF ⟨1, ![N]⟩ ⟨2, ![E, 1]⟩ ⟨1, ![E]⟩ [] [0] [0] 1)
    (idx : IVec ⟨2, ![E, 1]⟩ w) (p : Fin E) (n : Fin N) :
    (vecScatter N E wf).resultIdx? (ix1 p) idx = some (ix1 n)
      ↔ (idx (ix2 p (0 : Fin 1))).toInt = (n.val : ℤ) := by
  have h0 := vecScatter_land wf idx p
  unfold ScatterDims.resultIdx?
  split
  · rename_i h
    rw [Option.some.injEq]
    constructor
    · intro hf
      have e0 : ((vecScatter N E wf).start (ix1 p) idx 0 + ((vecScatter N E wf).window (ix1 p) 0 : ℤ)).toNat = n.val :=
        congrArg Fin.val (congrFun hf 0)
      have p0 := (h 0).1
      rw [h0] at e0 p0
      omega
    · intro hn
      funext a
      refine Fin.ext ?_
      match a with
      | ⟨0, _⟩ =>
        show ((vecScatter N E wf).start (ix1 p) idx 0 + ((vecScatter N E wf).window (ix1 p) 0 : ℤ)).toNat = n.val
        rw [h0, hn]; simp
  · rename_i h
    constructor
    · intro hf; exact absurd hf (by simp)
    · intro hn
      exfalso
      apply h
      intro a
      match a with
      | ⟨0, _⟩ =>
        show 0 ≤ (vecScatter N E wf).start (ix1 p) idx 0 + ((vecScatter N E wf).window (ix1 p) 0 : ℤ)
          ∧ (vecScatter N E wf).start (ix1 p) idx 0 + ((vecScatter N E wf).window (ix1 p) 0 : ℤ) < (N : ℤ)
        rw [h0, hn]
        have := n.isLt
        omega

/-- THE VECTOR SCATTER-ADD READ AT n: the operand's element plus the updates summed over the positions sent to n. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e (0 : Fin 1))).toInt = (n.val : ℤ)),
          upd (ix1 e) := by
  unfold Ideal.hostScatterAdd
  congr 1
  refine Finset.sum_nbij' (fun j => (j 0 : Fin E)) (fun e => ix1 e) ?_ ?_ ?_ ?_ ?_
  · intro j hj
    obtain ⟨p, rfl⟩ : ∃ (p : Fin E), j = ix1 p := ⟨j 0, eq_ix1 j⟩
    rw [Finset.mem_filter] at hj
    exact Finset.mem_filter.mpr ⟨Finset.mem_univ _, (vecScatter_resultIdx?_eq_some_iff wf idx p n).mp hj.2⟩
  · intro e he
    rw [Finset.mem_filter] at he ⊢
    exact ⟨Finset.mem_univ _, (vecScatter_resultIdx?_eq_some_iff wf idx e n).mpr he.2⟩
  · intro j _
    exact (eq_ix1 j).symm
  · intro e _
    rfl
  · intro j _
    exact congrArg upd (eq_ix1 j)

end Idealize.ShloMosaic.RowOps

end
-- ==== Proof.LibScatterFold.lean ====
/-
  An accumulating scatter into a vector, read at an index, for any commutative addition.

  The scatter takes the updates one after the other, each added to the operand element its destination word names
  (read signed; a word outside the operand drops the update).  Since the addition is commutative and associative, the
  element at n ends as its old value plus the sum of the updates sent to n.
-/
import proofs.«161051_j23536420782150_1_alg».proof.Proof.LibRowOps

noncomputable section

namespace Idealize.ShloMosaic.RowOps

open Idealize.ShloMosaic Idealize.ShloMosaic.ValueIdx

/-- A LEFT FOLD WHOSE STEP ADDS EACH UPDATE TO THE ELEMENT ITS TARGET NAMES, READ AT i.  The positions of the list `l`
    are taken in order; the step at position p adds `upd p` to the element `tgt p` names and leaves every other element
    (all of them, when the target is `none`) as it was: at every index i the new value is the old one plus
    (`upd p` if `tgt p = some i`, else 0).  In a commutative additive monoid the element at i ends as its old value
    plus the sum, over the list, of the updates whose target is i: by induction on the list, each step moving the
    head's term from the operand into the sum. -/
theorem foldl_addAt_apply {ι κ α : Type*} [AddCommMonoid α] [DecidableEq κ]
    (tgt : ι → Option κ) (upd : ι → α) (step : (κ → α) → ι → κ → α)
    (hstep : ∀ r p i, step r p i = r i + if tgt p = some i then upd p else 0)
    (l : List ι) (x : κ → α) (i : κ) :
    l.foldl step x i = x i + (l.map fun p => if tgt p = some i then upd p else 0).sum := by
  induction l generalizing x with
  | nil => simp
  | cons a l ih => rw [List.foldl_cons, ih, hstep, List.map_cons, List.sum_cons, add_assoc]

/-- THE VECTOR SCATTER WITH AN ADDING BODY READ AT n, in any commutative monoid: the operand's element plus the
    updates whose destination word, read signed, is n. -/
theorem vecScatter_fold_add {α : Type} [AddCommMonoid α] {N E w : Nat}
    (wf : ScatterDims.WF ⟨1, ![N]⟩ ⟨2, ![E, 1]⟩ ⟨1, ![E]⟩ [] [0] [0] 1)
    (x : (⟨1, ![N]⟩ : Shape).Idx → α) (idx : IVec ⟨2, ![E, 1]⟩ w) (upd : (⟨1, ![E]⟩ : Shape).Idx → α) (n : Fin N) :
    Host.scatter (vecScatter N E wf) (fun a b => a + b) x idx upd (ix1 n)
      = x (ix1 n) + ∑ e : Fin E, if (idx (ix2 e (0 : Fin 1))).toInt = (n.val : ℤ) then upd (ix1 e) else 0 := by
  unfold Host.scatter
  -- the step at row-major position m adds the update of m at the element its landing index names
  refine (foldl_addAt_apply
    (fun m => (vecScatter N E wf).resultIdx? ((⟨1, ![E]⟩ : Shape).rowMajor.symm m) idx)
    (fun m => upd ((⟨1, ![E]⟩ : Shape).rowMajor.symm m)) _ ?_ _ x (ix1 n)).trans ?_
  · intro r m i
    dsimp only
    cases h : (vecScatter N E wf).resultIdx? ((⟨1, ![E]⟩ : Shape).rowMajor.symm m) idx with
    | none => simp
    | some j =>
      simp only [Option.some.injEq]
      by_cases hij : i = j
      · subst hij; simp
      · rw [if_neg hij, if_neg (Ne.symm hij), add_zero]
  · congr 1
    -- the list of all row-major positions, summed, is the sum over the update's index set, which is the sum over Fin E
    rw [← Fin.sum_univ_def]
    refine (Equiv.sum_comp (⟨1, ![E]⟩ : Shape).rowMajor.symm
      (fun p => if (vecScatter N E wf).resultIdx? p idx = some (ix1 n) then upd p else 0)).trans ?_
    refine Fintype.sum_equiv ⟨fun j => j 0, ix1, fun j => (eq_ix1 j).symm, fun _ => rfl⟩ _ _ ?_
    intro j
    obtain ⟨e, rfl⟩ : ∃ e : Fin E, j = ix1 e := ⟨j 0, eq_ix1 j⟩
    exact if_congr (vecScatter_resultIdx?_eq_some_iff wf idx e n) rfl rfl

end Idealize.ShloMosaic.RowOps

end
-- ==== Proof.Regroup.lean ====
/-
  Sums over a flattened difference array, regrouped by coordinates.

  The 16 x 3 x 512 x 511 array of horizontal differences and the 16 x 3 x 511 x 512 array of vertical ones are each
  flattened row-major to 12558336 positions.  Position e of the first is (e / 784896, e / 261632 % 3, e / 511 % 512,
  e % 511), a bijection onto the four coordinates, so a sum over the positions is the fourfold sum over the
  coordinates; likewise for the second with (e / 784896, e / 261632 % 3, e / 512 % 511, e % 512).
-/
import proofs.«161051_j23536420782150_1_alg».proof.Proof.Gen.ReferenceIdeal.Read
import Idealize.ShloMosaic.Lib.ValueIdx

noncomputable section

open Idealize.ShloMosaic Idealize.ShloMosaic.ValueIdx

namespace Cert.ReferenceIdeal.Regroup

open Cert.ReferenceIdeal Cert.ReferenceIdeal.Read

/-- Coordinates to the row-major position of the horizontal-difference array. -/
def flatX (p : Fin 16 × Fin 3 × Fin 512 × Fin 511) : Fin 12558336 :=
  ⟨((p.1.val * 3 + p.2.1.val) * 512 + p.2.2.1.val) * 511 + p.2.2.2.val, by
    have h0 := p.1.isLt; have h1 := p.2.1.isLt; have h2 := p.2.2.1.isLt; have h3 := p.2.2.2.isLt; omega⟩

/-- Row-major position to coordinates, by quotients and remainders. -/
def unflatX (e : Fin 12558336) : Fin 16 × Fin 3 × Fin 512 × Fin 511 :=
  (⟨e.val / 784896, by have h := e.isLt; omega⟩, ⟨e.val / 261632 % 3, by omega⟩,
    ⟨e.val / 511 % 512, by omega⟩, ⟨e.val % 511, by omega⟩)

/-- The two maps are inverse to each other: the mixed-radix expansion with digits below 16, 3, 512, 511 is unique. -/
def equivX : Fin 16 × Fin 3 × Fin 512 × Fin 511 ≃ Fin 12558336 where
  toFun := flatX
  invFun := unflatX
  left_inv p := by
    obtain ⟨n, ch, r, q⟩ := p
    have h0 := n.isLt; have h1 := ch.isLt; have h2 := r.isLt; have h3 := q.isLt
    refine Prod.ext (Fin.ext ?_) (Prod.ext (Fin.ext ?_) (Prod.ext (Fin.ext ?_) (Fin.ext ?_)))
    · show (((n.val * 3 + ch.val) * 512 + r.val) * 511 + q.val) / 784896 = n.val; omega
    · show (((n.val * 3 + ch.val) * 512 + r.val) * 511 + q.val) / 261632 % 3 = ch.val; omega
    · show (((n.val * 3 + ch.val) * 512 + r.val) * 511 + q.val) / 511 % 512 = r.val; omega
    · show (((n.val * 3 + ch.val) * 512 + r.val) * 511 + q.val) % 511 = q.val; omega
  right_inv e := by
    have h := e.isLt
    refine Fin.ext ?_
    show ((e.val / 784896 * 3 + e.val / 261632 % 3) * 512 + e.val / 511 % 512) * 511 + e.val % 511 = e.val
    omega

/-- The generated un-flattening map, at the position of given coordinates, is those coordinates. -/
theorem idx_flatX (n : Fin 16) (ch : Fin 3) (r : Fin 512) (q : Fin 511) :
    idx_main_v12 (ix1 (flatX (n, ch, r, q))) = ix4 n ch r q := by
  have h0 := n.isLt; have h1 := ch.isLt; have h2 := r.isLt; have h3 := q.isLt
  funext a
  match a with
  | ⟨0, _⟩ =>
    refine Fin.ext ?_
    show (((n.val * 3 + ch.val) * 512 + r.val) * 511 + q.val) / 784896 = n.val; omega
  | ⟨1, _⟩ =>
    refine Fin.ext ?_
    show (((n.val * 3 + ch.val) * 512 + r.val) * 511 + q.val) / 261632 % 3 = ch.val; omega
  | ⟨2, _⟩ =>
    refine Fin.ext ?_
    show (((n.val * 3 + ch.val) * 512 + r.val) * 511 + q.val) / 511 % 512 = r.val; omega
  | ⟨3, _⟩ =>
    refine Fin.ext ?_
    show (((n.val * 3 + ch.val) * 512 + r.val) * 511 + q.val) % 511 = q.val; omega

/-- A sum over the flattened horizontal differences is the sum over image, channel, row and the 511 columns. -/
theorem sum_flatX {M : Type} [AddCommMonoid M] (g : S16x3x512x511.Idx → M) :
    (∑ e : Fin 12558336, g (idx_main_v12 (ix1 e)))
      = ∑ n : Fin 16, ∑ ch : Fin 3, ∑ r : Fin 512, ∑ q : Fin 511, g (ix4 n ch r q) := by
  rw [← Equiv.sum_comp equivX (fun e => g (idx_main_v12 (ix1 e))), Fintype.sum_prod_type]
  refine Finset.sum_congr rfl fun n _ => ?_
  rw [Fintype.sum_prod_type]
  refine Finset.sum_congr rfl fun ch _ => ?_
  rw [Fintype.sum_prod_type]
  refine Finset.sum_congr rfl fun r _ => ?_
  refine Finset.sum_congr rfl fun q _ => ?_
  exact congrArg g (idx_flatX n ch r q)

/-- Coordinates to the row-major position of the vertical-difference array. -/
def flatY (p : Fin 16 × Fin 3 × Fin 511 × Fin 512) : Fin 12558336 :=
  ⟨((p.1.val * 3 + p.2.1.val) * 511 + p.2.2.1.val) * 512 + p.2.2.2.val, by
    have h0 := p.1.isLt; have h1 := p.2.1.isLt; have h2 := p.2.2.1.isLt; have h3 := p.2.2.2.isLt; omega⟩

/-- Row-major position to coordinates, by quotients and remainders. -/
def unflatY (e : Fin 12558336) : Fin 16 × Fin 3 × Fin 511 × Fin 512 :=
  (⟨e.val / 784896, by have h := e.isLt; omega⟩, ⟨e.val / 261632 % 3, by omega⟩,
    ⟨e.val / 512 % 511, by omega⟩, ⟨e.val % 512, by omega⟩)

/-- The two maps are inverse to each other: the mixed-radix expansion with digits below 16, 3, 511, 512 is unique. -/
def equivY : Fin 16 × Fin 3 × Fin 511 × Fin 512 ≃ Fin 12558336 where
  toFun := flatY
  invFun := unflatY
  left_inv p := by
    obtain ⟨n, ch, r, q⟩ := p
    have h0 := n.isLt; have h1 := ch.isLt; have h2 := r.isLt; have h3 := q.isLt
    refine Prod.ext (Fin.ext ?_) (Prod.ext (Fin.ext ?_) (Prod.ext (Fin.ext ?_) (Fin.ext ?_)))
    · show (((n.val * 3 + ch.val) * 511 + r.val) * 512 + q.val) / 784896 = n.val; omega
    · show (((n.val * 3 + ch.val) * 511 + r.val) * 512 + q.val) / 261632 % 3 = ch.val; omega
    · show (((n.val * 3 + ch.val) * 511 + r.val) * 512 + q.val) / 512 % 511 = r.val; omega
    · show (((n.val * 3 + ch.val) * 511 + r.val) * 512 + q.val) % 512 = q.val; omega
  right_inv e := by
    have h := e.isLt
    refine Fin.ext ?_
    show ((e.val / 784896 * 3 + e.val / 261632 % 3) * 511 + e.val / 512 % 511) * 512 + e.val % 512 = e.val
    omega

/-- The generated un-flattening map, at the position of given coordinates, is those coordinates. -/
theorem idx_flatY (n : Fin 16) (ch : Fin 3) (r : Fin 511) (q : Fin 512) :
    idx_main_v32 (ix1 (flatY (n, ch, r, q))) = ix4 n ch r q := by
  have h0 := n.isLt; have h1 := ch.isLt; have h2 := r.isLt; have h3 := q.isLt
  funext a
  match a with
  | ⟨0, _⟩ =>
    refine Fin.ext ?_
    show (((n.val * 3 + ch.val) * 511 + r.val) * 512 + q.val) / 784896 = n.val; omega
  | ⟨1, _⟩ =>
    refine Fin.ext ?_
    show (((n.val * 3 + ch.val) * 511 + r.val) * 512 + q.val) / 261632 % 3 = ch.val; omega
  | ⟨2, _⟩ =>
    refine Fin.ext ?_
    show (((n.val * 3 + ch.val) * 511 + r.val) * 512 + q.val) / 512 % 511 = r.val; omega
  | ⟨3, _⟩ =>
    refine Fin.ext ?_
    show (((n.val * 3 + ch.val) * 511 + r.val) * 512 + q.val) % 512 = q.val; omega

/-- A sum over the flattened vertical differences is the sum over image, channel, the 511 rows and the columns. -/
theorem sum_flatY {M : Type} [AddCommMonoid M] (g : S16x3x511x512.Idx → M) :
    (∑ e : Fin 12558336, g (idx_main_v32 (ix1 e)))
      = ∑ n : Fin 16, ∑ ch : Fin 3, ∑ r : Fin 511, ∑ q : Fin 512, g (ix4 n ch r q) := by
  rw [← Equiv.sum_comp equivY (fun e => g (idx_main_v32 (ix1 e))), Fintype.sum_prod_type]
  refine Finset.sum_congr rfl fun n _ => ?_
  rw [Fintype.sum_prod_type]
  refine Finset.sum_congr rfl fun ch _ => ?_
  rw [Fintype.sum_prod_type]
  refine Finset.sum_congr rfl fun r _ => ?_
  refine Finset.sum_congr rfl fun q _ => ?_
  exact congrArg g (idx_flatY n ch r q)

end Cert.ReferenceIdeal.Regroup

end
-- ==== Proof.RefValue.lean ====
/-
  The reference's four results as counts.

  The reference flattens each difference array, tests every value against [-255, 256], sends it to the clipped shifted
  floor, and adds the test's bit into that slot of a vector of 511 zeros.  So slot b ends holding the number of
  differences that pass the test and are sent to b, as a 32-bit word: countX of the first argument for the first
  result, countY of it for the second, and the same of the second argument for the third and fourth.
-/
import proofs.«161051_j23536420782150_1_alg».proof.Proof.Gen.ReferenceIdeal.Read
import proofs.«161051_j23536420782150_1_alg».proof.Proof.Counting
import proofs.«161051_j23536420782150_1_alg».proof.Proof.LibScatterFold
import proofs.«161051_j23536420782150_1_alg».proof.Proof.Regroup
import Mathlib.Data.BitVec

noncomputable section

open Idealize.ShloMosaic Idealize.ShloMosaic.ValueIdx

namespace Cert.ReferenceIdeal.RefValue

open Cert.ReferenceIdeal Cert.ReferenceIdeal.Read Cert.Hist

/-! ## Words -/

/-- A word clipped into [0, 510] by the signed maximum with 0 and minimum with 510 is at most 510 as a natural
    number: the maximum is not negative, and the minimum of 510 and a word that is not negative lies in [0, 510]. -/
theorem clip_toNat_le (v : BitVec 32) : (IntOp.minsi 510#32 (IntOp.maxsi 0#32 v)).toNat ≤ 510 := by
  have hmax : 0 ≤ (IntOp.maxsi 0#32 v).toInt := by
    unfold IntOp.maxsi
    by_cases h : v.slt 0#32 = true
    · rw [if_pos h]; decide
    · rw [if_neg h]
      have hn : ¬ v.toInt < (0#32 : BitVec 32).toInt := fun hh => h (BitVec.slt_iff_toInt_lt.mpr hh)
      have h0 : (0#32 : BitVec 32).toInt = 0 := by decide
      omega
  generalize IntOp.maxsi 0#32 v = y at hmax ⊢
  unfold IntOp.minsi
  by_cases h : (510#32 : BitVec 32).slt y = true
  · rw [if_pos h]; decide
  · rw [if_neg h]
    have h510 : (510#32 : BitVec 32).toInt = 510 := by decide
    have hn : ¬ (510#32 : BitVec 32).toInt < y.toInt := fun hh => h (BitVec.slt_iff_toInt_lt.mpr hh)
    have hy := BitVec.toInt_eq_toNat_cond y
    have hlt := y.isLt
    split_ifs at hy <;> omega

/-- One position's share of slot b.  The destination word is w unless w is negative (then w + 511); a word w at most
    510 is not negative, so the destination is w itself, read signed or unsigned alike.  The update is the test's bit
    c widened.  When c is one the value's slot is w and the share is one exactly when w is b; when c is zero the
    update is zero and the value's slot is the spare word 511, which is not b. -/
theorem term_word (c : BitVec 1) (w : BitVec 32) (hw : w.toNat ≤ 510) (b : ℕ) (hb : b < 511) :
    (if (Scalar.select (IntOp.cmpi .slt w 0#32) (IntOp.addi w 511#32) w).toInt = (b : ℤ) then c.setWidth 32 else 0)
      = (((if (Scalar.select c w 511#32).toNat = b then 1 else 0 : ℕ) : ℕ) : BitVec 32) := by
  have hint : w.toInt = (w.toNat : ℤ) := BitVec.toInt_eq_toNat_of_lt (by omega)
  have hslt : IntOp.cmpi .slt w 0#32 = 0#1 := by
    show BitVec.ofBool (w.slt 0#32) = 0#1
    have h0 : (0#32 : BitVec 32).toInt = 0 := by decide
    have : w.slt 0#32 = false := by
      rw [BitVec.slt_eq_decide, hint, h0]
      exact decide_eq_false (by omega)
    rw [this]; rfl
  have hsel : Scalar.select (0#1) (IntOp.addi w 511#32) w = w := by
    unfold Scalar.select; rw [if_neg (by decide)]
  rw [hslt, hsel, hint]
  rcases BitVec.eq_zero_or_eq_one c with rfl | rfl
  · have h1 : Scalar.select (0#1) w 511#32 = 511#32 := by unfold Scalar.select; rw [if_neg (by decide)]
    have h2 : (511#32 : BitVec 32).toNat = 511 := by decide
    have h3 : (0#1 : BitVec 1).setWidth 32 = 0 := by decide
    have hne : ¬ (511 = b) := by omega
    rw [h1, h2, h3, ite_self, if_neg hne, Nat.cast_zero]
  · have h1 : Scalar.select (1#1) w 511#32 = w := by
      unfold Scalar.select; rw [if_pos (show (1#1 : BitVec 1) = 1 from rfl)]
    have h3 : (1#1 : BitVec 1).setWidth 32 = 1 := by decide
    rw [h1, h3]
    by_cases h : w.toNat = b
    · have h' : (w.toNat : ℤ) = (b : ℤ) := by omega
      rw [if_pos h, if_pos h', Nat.cast_one]
    · have h' : ¬ (w.toNat : ℤ) = (b : ℤ) := by omega
      rw [if_neg h, if_neg h', Nat.cast_zero]

/-! ## One scatter as a count -/

/-- The printed dimension numbers of the four scatters are those of a scatter into a vector. -/
theorem scatter_eq : scatter_S511_S12558336x1_S12558336_n_0_0_1
    = RowOps.vecScatter 511 12558336 Gen.scatter_S511_S12558336x1_S12558336_n_0_0_1_wf := rfl

/-- The scatters' body is the addition of words. -/
theorem addi_eq : (IntOp.addi : BitVec 32 → BitVec 32 → BitVec 32) = fun a b => a + b := rfl

/-- A scatter of this program, read at slot b, counts.  Let position e hold the value D e; let the operand be zero,
    the destination word of e the clipped shifted floor of D e (moved up by 511 if negative) and the update of e the
    interval test's bit of D e.  Then slot b ends as the number of positions whose value falls in slot b, as a word:
    the scatter adds to zero the updates sent to b, each of which is that position's share of b, and a sum of
    naturals cast to words is the cast of the sum. -/
theorem scatter_count (x : S511.Idx → BitVec 32) (idxv : IVec S12558336x1 32) (upd : S12558336.Idx → BitVec 32)
    (D : Fin 12558336 → Ideal .f32)
    (hx : ∀ b : Fin 511, x (ix1 b) = 0#32)
    (hidx : ∀ e : Fin 12558336, idxv (ix2 e (0 : Fin 1))
      = Scalar.select (IntOp.cmpi .slt (binWord (D e)) 0#32) (IntOp.addi (binWord (D e)) 511#32) (binWord (D e)))
    (hupd : ∀ e : Fin 12558336, upd (ix1 e) = (inRange (D e)).setWidth 32) (b : Fin 511) :
    Host.scatter scatter_S511_S12558336x1_S12558336_n_0_0_1 IntOp.addi x idxv upd (ix1 b)
      = BitVec.ofNat 32 (∑ e : Fin 12558336, hit b.val (D e)) := by
  rw [scatter_eq, addi_eq, RowOps.vecScatter_fold_add, hx]
  have hterm : ∀ e : Fin 12558336,
      (if (idxv (ix2 e (0 : Fin 1))).toInt = (b.val : ℤ) then upd (ix1 e) else 0) = ((hit b.val (D e) : ℕ) : BitVec 32) := by
    intro e
    rw [hidx, hupd]
    exact term_word (inRange (D e)) (binWord (D e)) (clip_toNat_le _) b.val b.isLt
  rw [Finset.sum_congr rfl (fun e _ => hterm e), ← Nat.cast_sum, BitVec.natCast_eq_ofNat]
  exact BitVec.zero_add _

/-! ## Neighbours -/

/-- Of a horizontal difference at (n, ch, r, q): the entry to the right. -/
theorem idx0_ix4 (n : Fin 16) (ch : Fin 3) (r : Fin 512) (q : Fin 511) :
    idx_main_v0 (ix4 n ch r q) = ix4 n ch r (⟨q.val + 1, by omega⟩ : Fin 512) := by
  funext a
  match a with
  | ⟨0, _⟩ => rfl
  | ⟨1, _⟩ => rfl
  | ⟨2, _⟩ => rfl
  | ⟨3, _⟩ => exact Fin.ext (Nat.add_comm 1 q.val)

/-- Of a horizontal difference at (n, ch, r, q): the entry itself. -/
theorem idx1_ix4 (n : Fin 16) (ch : Fin 3) (r : Fin 512) (q : Fin 511) :
    idx_main_v1 (ix4 n ch r q) = ix4 n ch r (⟨q.val, by omega⟩ : Fin 512) := by
  funext a
  match a with
  | ⟨0, _⟩ => rfl
  | ⟨1, _⟩ => rfl
  | ⟨2, _⟩ => rfl
  | ⟨3, _⟩ => rfl

/-- Of a vertical difference at (n, ch, r, q): the entry below. -/
theorem idx3_ix4 (n : Fin 16) (ch : Fin 3) (r : Fin 511) (q : Fin 512) :
    idx_main_v3 (ix4 n ch r q) = ix4 n ch (⟨r.val + 1, by omega⟩ : Fin 512) q := by
  funext a
  match a with
  | ⟨0, _⟩ => rfl
  | ⟨1, _⟩ => rfl
  | ⟨2, _⟩ => exact Fin.ext (Nat.add_comm 1 r.val)
  | ⟨3, _⟩ => rfl

/-- Of a vertical difference at (n, ch, r, q): the entry itself. -/
theorem idx4_ix4 (n : Fin 16) (ch : Fin 3) (r : Fin 511) (q : Fin 512) :
    idx_main_v4 (ix4 n ch r q) = ix4 n ch (⟨r.val, by omega⟩ : Fin 512) q := by
  funext a
  match a with
  | ⟨0, _⟩ => rfl
  | ⟨1, _⟩ => rfl
  | ⟨2, _⟩ => rfl
  | ⟨3, _⟩ => rfl

/-- The horizontal differences regrouped by coordinates are the horizontal count. -/
theorem sum_countX (A : Stack.Idx → Ideal .f32) (b : ℕ) :
    (∑ n : Fin 16, ∑ ch : Fin 3, ∑ r : Fin 512, ∑ q : Fin 511,
        hit b (diff (A (idx_main_v0 (ix4 n ch r q))) (A (idx_main_v1 (ix4 n ch r q))))) = countX A b := by
  unfold countX
  refine Finset.sum_congr rfl fun n _ => Finset.sum_congr rfl fun ch _ => Finset.sum_congr rfl fun r _ =>
    Finset.sum_congr rfl fun q _ => ?_
  rw [idx0_ix4, idx1_ix4]

/-- The vertical differences regrouped by coordinates are the vertical count. -/
theorem sum_countY (A : Stack.Idx → Ideal .f32) (b : ℕ) :
    (∑ n : Fin 16, ∑ ch : Fin 3, ∑ r : Fin 511, ∑ q : Fin 512,
        hit b (diff (A (idx_main_v3 (ix4 n ch r q))) (A (idx_main_v4 (ix4 n ch r q))))) = countY A b := by
  unfold countY
  refine Finset.sum_congr rfl fun n _ => Finset.sum_congr rfl fun ch _ => Finset.sum_congr rfl fun r _ =>
    Finset.sum_congr rfl fun q _ => ?_
  rw [idx3_ix4, idx4_ix4]

/-! ## The first result: the horizontal differences of the first argument -/

section FirstHorizontal
variable (x0 : (⟨S16x3x512x512, .f32⟩ : BufTy).Contents (Elt Ideal))

/-- Row e of the index array holds position e. -/
theorem idx30_ix (e : Fin 12558336) : idx_main_v30 (ix2 e (0 : Fin 1)) = ix1 e := by
  funext a; match a with | ⟨0, _⟩ => rfl

/-- The flattened array's position e holds the difference at the coordinates of e. -/
theorem flat_v12 (e : Fin 12558336) :
    val_main_v12 (F := Ideal) x0 (ix1 e)
      = diff (x0 (idx_main_v0 (idx_main_v12 (ix1 e)))) (x0 (idx_main_v1 (idx_main_v12 (ix1 e)))) := by
  rw [val_main_v12_apply, val_main_v2_apply, val_main_v0_apply, val_main_v1_apply]

/-- The update at position e is the interval test's bit of the value there, widened. -/
theorem upd_v24 (e : Fin 12558336) :
    val_main_v24 (F := Ideal) x0 (ix1 e) = (inRange (val_main_v12 (F := Ideal) x0 (ix1 e))).setWidth 32 := by
  rw [val_main_v24_apply, val_main_v17_apply, val_main_v14_apply, val_main_v16_apply, val_main_v13_apply,
    val_main_v15_apply, val_main_cst_apply, val_main_cst_0_apply]
  generalize val_main_v12 (F := Ideal) x0 (ix1 e) = x
  rfl

/-- The clipped word at position e is the clipped shifted floor of the value there. -/
theorem word_v22 (e : Fin 12558336) :
    val_main_v22 (F := Ideal) x0 (ix1 e) = binWord (val_main_v12 (F := Ideal) x0 (ix1 e)) := by
  rw [val_main_v22_apply, val_main_call0_v4_apply, val_main_call0_v3_apply, val_main_c_2_apply,
    val_main_call0_v2_apply, val_main_call0_v1_apply, val_main_call0_v0_apply, val_main_c_1_apply,
    val_main_v21_apply, val_main_v19_apply, val_main_v18_apply, val_main_v20_apply, val_main_c_apply]
  generalize val_main_v12 (F := Ideal) x0 (ix1 e) = x
  rfl

/-- The destination word at position e: the clipped word, moved up by 511 if negative. -/
theorem dest_v30 (e : Fin 12558336) :
    val_main_v30 (F := Ideal) x0 (ix2 e (0 : Fin 1))
      = Scalar.select (IntOp.cmpi .slt (binWord (val_main_v12 (F := Ideal) x0 (ix1 e))) 0#32)
          (IntOp.addi (binWord (val_main_v12 (F := Ideal) x0 (ix1 e))) 511#32)
          (binWord (val_main_v12 (F := Ideal) x0 (ix1 e))) := by
  rw [val_main_v30_apply, idx30_ix, val_main_v29_apply, val_main_v26_apply, val_main_v28_apply, val_main_v25_apply,
    val_main_c_4_apply, val_main_v27_apply, val_main_c_5_apply, word_v22]

end FirstHorizontal

theorem val_v31 (x0 : (⟨S16x3x512x512, .f32⟩ : BufTy).Contents (Elt Ideal)) :
    val_main_v31 (F := Ideal) x0 = fun i => BitVec.ofNat 32 (countX x0 (i 0).val) := by
  funext i
  obtain ⟨b, rfl⟩ : ∃ b : Fin 511, i = ix1 b := ⟨i 0, eq_ix1 i⟩
  show val_main_v31 (F := Ideal) x0 (ix1 b) = BitVec.ofNat 32 (countX x0 b.val)
  unfold val_main_v31
  rw [scatter_count (val_main_v23 (F := Ideal)) (val_main_v30 (F := Ideal) x0) (val_main_v24 (F := Ideal) x0)
    (fun e => val_main_v12 (F := Ideal) x0 (ix1 e))
    (fun b => by rw [val_main_v23_apply, val_main_c_3_apply]) (dest_v30 x0) (upd_v24 x0) b]
  rw [Finset.sum_congr rfl (fun e _ => congrArg (hit b.val) (flat_v12 x0 e)),
    Regroup.sum_flatX (fun j => hit b.val (diff (x0 (idx_main_v0 j)) (x0 (idx_main_v1 j)))), sum_countX]

/-! ## The second result: the vertical differences of the first argument -/

section FirstVertical
variable (x0 : (⟨S16x3x512x512, .f32⟩ : BufTy).Contents (Elt Ideal))

/-- Row e of the index array holds position e. -/
theorem idx50_ix (e : Fin 12558336) : idx_main_v50 (ix2 e (0 : Fin 1)) = ix1 e := by
  funext a; match a with | ⟨0, _⟩ => rfl

/-- The flattened array's position e holds the difference at the coordinates of e. -/
theorem flat_v32 (e : Fin 12558336) :
    val_main_v32 (F := Ideal) x0 (ix1 e)
      = diff (x0 (idx_main_v3 (idx_main_v32 (ix1 e)))) (x0 (idx_main_v4 (idx_main_v32 (ix1 e)))) := by
  rw [val_main_v32_apply, val_main_v5_apply, val_main_v3_apply, val_main_v4_apply]

/-- The update at position e is the interval test's bit of the value there, widened. -/
theorem upd_v44 (e : Fin 12558336) :
    val_main_v44 (F := Ideal) x0 (ix1 e) = (inRange (val_main_v32 (F := Ideal) x0 (ix1 e))).setWidth 32 := by
  rw [val_main_v44_apply, val_main_v37_apply, val_main_v34_apply, val_main_v36_apply, val_main_v33_apply,
    val_main_v35_apply, val_main_cst_6_apply, val_main_cst_7_apply]
  generalize val_main_v32 (F := Ideal) x0 (ix1 e) = x
  rfl

/-- The clipped word at position e is the clipped shifted floor of the value there. -/
theorem word_v42 (e : Fin 12558336) :
    val_main_v42 (F := Ideal) x0 (ix1 e) = binWord (val_main_v32 (F := Ideal) x0 (ix1 e)) := by
  rw [val_main_v42_apply, val_main_call1_v4_apply, val_main_call1_v3_apply, val_main_c_10_apply,
    val_main_call1_v2_apply, val_main_call1_v1_apply, val_main_call1_v0_apply, val_main_c_9_apply,
    val_main_v41_apply, val_main_v39_apply, val_main_v38_apply, val_main_v40_apply, val_main_c_8_apply]
  generalize val_main_v32 (F := Ideal) x0 (ix1 e) = x
  rfl

/-- The destination word at position e: the clipped word, moved up by 511 if negative. -/
theorem dest_v50 (e : Fin 12558336) :
    val_main_v50 (F := Ideal) x0 (ix2 e (0 : Fin 1))
      = Scalar.select (IntOp.cmpi .slt (binWord (val_main_v32 (F := Ideal) x0 (ix1 e))) 0#32)
          (IntOp.addi (binWord (val_main_v32 (F := Ideal) x0 (ix1 e))) 511#32)
          (binWord (val_main_v32 (F := Ideal) x0 (ix1 e))) := by
  rw [val_main_v50_apply, idx50_ix, val_main_v49_apply, val_main_v46_apply, val_main_v48_apply, val_main_v45_apply,
    val_main_c_12_apply, val_main_v47_apply, val_main_c_13_apply, word_v42]

end FirstVertical

theorem val_v51 (x0 : (⟨S16x3x512x512, .f32⟩ : BufTy).Contents (Elt Ideal)) :
    val_main_v51 (F := Ideal) x0 = fun i => BitVec.ofNat 32 (countY x0 (i 0).val) := by
  funext i
  obtain ⟨b, rfl⟩ : ∃ b : Fin 511, i = ix1 b := ⟨i 0, eq_ix1 i⟩
  show val_main_v51 (F := Ideal) x0 (ix1 b) = BitVec.ofNat 32 (countY x0 b.val)
  unfold val_main_v51
  rw [scatter_count (val_main_v43 (F := Ideal)) (val_main_v50 (F := Ideal) x0) (val_main_v44 (F := Ideal) x0)
    (fun e => val_main_v32 (F := Ideal) x0 (ix1 e))
    (fun b => by rw [val_main_v43_apply, val_main_c_11_apply]) (dest_v50 x0) (upd_v44 x0) b]
  rw [Finset.sum_congr rfl (fun e _ => congrArg (hit b.val) (flat_v32 x0 e)),
    Regroup.sum_flatY (fun j => hit b.val (diff (x0 (idx_main_v3 j)) (x0 (idx_main_v4 j)))), sum_countY]

/-! ## The third result: the horizontal differences of the second argument -/

section SecondHorizontal
variable (x1 : (⟨S16x3x512x512, .f32⟩ : BufTy).Contents (Elt Ideal))

/-- The second argument's horizontal differences are flattened and sliced at the same coordinates as the first's. -/
theorem idx52_eq : idx_main_v52 = idx_main_v12 := by
  funext i a
  match a with
  | ⟨0, _⟩ => rfl
  | ⟨1, _⟩ => rfl
  | ⟨2, _⟩ => rfl
  | ⟨3, _⟩ => rfl
theorem idx6_eq : idx_main_v6 = idx_main_v0 := by
  funext i a
  match a with
  | ⟨0, _⟩ => rfl
  | ⟨1, _⟩ => rfl
  | ⟨2, _⟩ => rfl
  | ⟨3, _⟩ => rfl
theorem idx7_eq : idx_main_v7 = idx_main_v1 := by
  funext i a
  match a with
  | ⟨0, _⟩ => rfl
  | ⟨1, _⟩ => rfl
  | ⟨2, _⟩ => rfl
  | ⟨3, _⟩ => rfl

/-- Row e of the index array holds position e. -/
theorem idx70_ix (e : Fin 12558336) : idx_main_v70 (ix2 e (0 : Fin 1)) = ix1 e := by
  funext a; match a with | ⟨0, _⟩ => rfl

/-- The flattened array's position e holds the difference at the coordinates of e. -/
theorem flat_v52 (e : Fin 12558336) :
    val_main_v52 (F := Ideal) x1 (ix1 e)
      = diff (x1 (idx_main_v0 (idx_main_v12 (ix1 e)))) (x1 (idx_main_v1 (idx_main_v12 (ix1 e)))) := by
  rw [val_main_v52_apply, val_main_v8_apply, val_main_v6_apply, val_main_v7_apply, idx52_eq, idx6_eq, idx7_eq]

/-- The update at position e is the interval test's bit of the value there, widened. -/
theorem upd_v64 (e : Fin 12558336) :
    val_main_v64 (F := Ideal) x1 (ix1 e) = (inRange (val_main_v52 (F := Ideal) x1 (ix1 e))).setWidth 32 := by
  rw [val_main_v64_apply, val_main_v57_apply, val_main_v54_apply, val_main_v56_apply, val_main_v53_apply,
    val_main_v55_apply, val_main_cst_14_apply, val_main_cst_15_apply]
  generalize val_main_v52 (F := Ideal) x1 (ix1 e) = x
  rfl

/-- The clipped word at position e is the clipped shifted floor of the value there. -/
theorem word_v62 (e : Fin 12558336) :
    val_main_v62 (F := Ideal) x1 (ix1 e) = binWord (val_main_v52 (F := Ideal) x1 (ix1 e)) := by
  rw [val_main_v62_apply, val_main_call2_v4_apply, val_main_call2_v3_apply, val_main_c_18_apply,
    val_main_call2_v2_apply, val_main_call2_v1_apply, val_main_call2_v0_apply, val_main_c_17_apply,
    val_main_v61_apply, val_main_v59_apply, val_main_v58_apply, val_main_v60_apply, val_main_c_16_apply]
  generalize val_main_v52 (F := Ideal) x1 (ix1 e) = x
  rfl

/-- The destination word at position e: the clipped word, moved up by 511 if negative. -/
theorem dest_v70 (e : Fin 12558336) :
    val_main_v70 (F := Ideal) x1 (ix2 e (0 : Fin 1))
      = Scalar.select (IntOp.cmpi .slt (binWord (val_main_v52 (F := Ideal) x1 (ix1 e))) 0#32)
          (IntOp.addi (binWord (val_main_v52 (F := Ideal) x1 (ix1 e))) 511#32)
          (binWord (val_main_v52 (F := Ideal) x1 (ix1 e))) := by
  rw [val_main_v70_apply, idx70_ix, val_main_v69_apply, val_main_v66_apply, val_main_v68_apply, val_main_v65_apply,
    val_main_c_20_apply, val_main_v67_apply, val_main_c_21_apply, word_v62]

end SecondHorizontal

theorem val_v71 (x1 : (⟨S16x3x512x512, .f32⟩ : BufTy).Contents (Elt Ideal)) :
    val_main_v71 (F := Ideal) x1 = fun i => BitVec.ofNat 32 (countX x1 (i 0).val) := by
  funext i
  obtain ⟨b, rfl⟩ : ∃ b : Fin 511, i = ix1 b := ⟨i 0, eq_ix1 i⟩
  show val_main_v71 (F := Ideal) x1 (ix1 b) = BitVec.ofNat 32 (countX x1 b.val)
  unfold val_main_v71
  rw [scatter_count (val_main_v63 (F := Ideal)) (val_main_v70 (F := Ideal) x1) (val_main_v64 (F := Ideal) x1)
    (fun e => val_main_v52 (F := Ideal) x1 (ix1 e))
    (fun b => by rw [val_main_v63_apply, val_main_c_19_apply]) (dest_v70 x1) (upd_v64 x1) b]
  rw [Finset.sum_congr rfl (fun e _ => congrArg (hit b.val) (flat_v52 x1 e)),
    Regroup.sum_flatX (fun j => hit b.val (diff (x1 (idx_main_v0 j)) (x1 (idx_main_v1 j)))), sum_countX]

/-! ## The fourth result: the vertical differences of the second argument -/

section SecondVertical
variable (x1 : (⟨S16x3x512x512, .f32⟩ : BufTy).Contents (Elt Ideal))

/-- The second argument's vertical differences are flattened and sliced at the same coordinates as the first's. -/
theorem idx72_eq : idx_main_v72 = idx_main_v32 := by
  funext i a
  match a with
  | ⟨0, _⟩ => rfl
  | ⟨1, _⟩ => rfl
  | ⟨2, _⟩ => rfl
  | ⟨3, _⟩ => rfl
theorem idx9_eq : idx_main_v9 = idx_main_v3 := by
  funext i a
  match a with
  | ⟨0, _⟩ => rfl
  | ⟨1, _⟩ => rfl
  | ⟨2, _⟩ => rfl
  | ⟨3, _⟩ => rfl
theorem idx10_eq : idx_main_v10 = idx_main_v4 := by
  funext i a
  match a with
  | ⟨0, _⟩ => rfl
  | ⟨1, _⟩ => rfl
  | ⟨2, _⟩ => rfl
  | ⟨3, _⟩ => rfl

/-- Row e of the index array holds position e. -/
theorem idx90_ix (e : Fin 12558336) : idx_main_v90 (ix2 e (0 : Fin 1)) = ix1 e := by
  funext a; match a with | ⟨0, _⟩ => rfl

/-- The flattened array's position e holds the difference at the coordinates of e. -/
theorem flat_v72 (e : Fin 12558336) :
    val_main_v72 (F := Ideal) x1 (ix1 e)
      = diff (x1 (idx_main_v3 (idx_main_v32 (ix1 e)))) (x1 (idx_main_v4 (idx_main_v32 (ix1 e)))) := by
  rw [val_main_v72_apply, val_main_v11_apply, val_main_v9_apply, val_main_v10_apply, idx72_eq, idx9_eq, idx10_eq]

/-- The update at position e is the interval test's bit of the value there, widened. -/
theorem upd_v84 (e : Fin 12558336) :
    val_main_v84 (F := Ideal) x1 (ix1 e) = (inRange (val_main_v72 (F := Ideal) x1 (ix1 e))).setWidth 32 := by
  rw [val_main_v84_apply, val_main_v77_apply, val_main_v74_apply, val_main_v76_apply, val_main_v73_apply,
    val_main_v75_apply, val_main_cst_22_apply, val_main_cst_23_apply]
  generalize val_main_v72 (F := Ideal) x1 (ix1 e) = x
  rfl

/-- The clipped word at position e is the clipped shifted floor of the value there. -/
theorem word_v82 (e : Fin 12558336) :
    val_main_v82 (F := Ideal) x1 (ix1 e) = binWord (val_main_v72 (F := Ideal) x1 (ix1 e)) := by
  rw [val_main_v82_apply, val_main_call3_v4_apply, val_main_call3_v3_apply, val_main_c_26_apply,
    val_main_call3_v2_apply, val_main_call3_v1_apply, val_main_call3_v0_apply, val_main_c_25_apply,
    val_main_v81_apply, val_main_v79_apply, val_main_v78_apply, val_main_v80_apply, val_main_c_24_apply]
  generalize val_main_v72 (F := Ideal) x1 (ix1 e) = x
  rfl

/-- The destination word at position e: the clipped word, moved up by 511 if negative. -/
theorem dest_v90 (e : Fin 12558336) :
    val_main_v90 (F := Ideal) x1 (ix2 e (0 : Fin 1))
      = Scalar.select (IntOp.cmpi .slt (binWord (val_main_v72 (F := Ideal) x1 (ix1 e))) 0#32)
          (IntOp.addi (binWord (val_main_v72 (F := Ideal) x1 (ix1 e))) 511#32)
          (binWord (val_main_v72 (F := Ideal) x1 (ix1 e))) := by
  rw [val_main_v90_apply, idx90_ix, val_main_v89_apply, val_main_v86_apply, val_main_v88_apply, val_main_v85_apply,
    val_main_c_28_apply, val_main_v87_apply, val_main_c_29_apply, word_v82]

end SecondVertical

theorem val_v91 (x1 : (⟨S16x3x512x512, .f32⟩ : BufTy).Contents (Elt Ideal)) :
    val_main_v91 (F := Ideal) x1 = fun i => BitVec.ofNat 32 (countY x1 (i 0).val) := by
  funext i
  obtain ⟨b, rfl⟩ : ∃ b : Fin 511, i = ix1 b := ⟨i 0, eq_ix1 i⟩
  show val_main_v91 (F := Ideal) x1 (ix1 b) = BitVec.ofNat 32 (countY x1 b.val)
  unfold val_main_v91
  rw [scatter_count (val_main_v83 (F := Ideal)) (val_main_v90 (F := Ideal) x1) (val_main_v84 (F := Ideal) x1)
    (fun e => val_main_v72 (F := Ideal) x1 (ix1 e))
    (fun b => by rw [val_main_v83_apply, val_main_c_27_apply]) (dest_v90 x1) (upd_v84 x1) b]
  rw [Finset.sum_congr rfl (fun e _ => congrArg (hit b.val) (flat_v72 x1 e)),
    Regroup.sum_flatY (fun j => hit b.val (diff (x1 (idx_main_v3 j)) (x1 (idx_main_v4 j)))), sum_countY]

end Cert.ReferenceIdeal.RefValue

end
-- ==== Proof.lean ====
/-
  The certificate of a histogram of image gradients.

  Both programs take two stacks of sixteen three-channel 512 x 512 images and return, for each stack, two vectors of 511
  counts: slot b of the first counts the horizontal differences (right neighbour minus entry) that lie in [-255, 256]
  and whose floor, shifted by 255 and clipped to [0, 510], is b; the second does the same for the vertical differences.

  The kernel visits the 48 image planes of a stack in two runs of 24.  At each plane it forms both differences over the
  whole 512 x 512 plane, putting -10000 where a neighbour is missing, sends every entry to its slot (the spare slot 511
  for an entry outside the interval, so also for every -10000), splits the slot into a quotient and a remainder by 16,
  and counts with a product of the two one-hot matrices; the counts are added into a 32 x 16 block per run, the host
  adds the two runs' blocks, drops slot 511 and converts to integers.  Over the extended reals every one of these steps
  is exact, so slot b < 511 ends holding the number of true differences in slot b (countX, countY), which is below
  2 ^ 31 and therefore converts to its own word.

  The reference flattens each array of true differences and adds the interval test's bit into the clipped shifted floor's
  slot of a vector of zeros; the accumulation is a fold of a commutative addition, so slot b ends holding the same
  number as a word.

  The frames of the two kernel programs are their generated frame runs; the reference's is its generated run with the
  results dropped; the idealization rewrote nothing.
-/
import proofs.«161051_j23536420782150_1_alg».proof.Defs
import proofs.«161051_j23536420782150_1_alg».proof.Proof.Gen.Kernel
import proofs.«161051_j23536420782150_1_alg».proof.Proof.Gen.Kernel.Frame
import proofs.«161051_j23536420782150_1_alg».proof.Proof.Gen.KernelIdeal
import proofs.«161051_j23536420782150_1_alg».proof.Proof.Gen.KernelIdeal.Frame
import proofs.«161051_j23536420782150_1_alg».proof.Proof.Gen.ReferenceIdeal
import proofs.«161051_j23536420782150_1_alg».proof.Proof.Gen.Pre_finite_inputs
import proofs.«161051_j23536420782150_1_alg».proof.Proof.Gen.ReferenceIdeal.Run
import proofs.«161051_j23536420782150_1_alg».proof.Proof.Gen.ReferenceIdeal.Read
import proofs.«161051_j23536420782150_1_alg».proof.Proof.Counting
import proofs.«161051_j23536420782150_1_alg».proof.Proof.Running
import proofs.«161051_j23536420782150_1_alg».proof.Proof.TailRun
import proofs.«161051_j23536420782150_1_alg».proof.Proof.KernelMath
import proofs.«161051_j23536420782150_1_alg».proof.Proof.RefValue
import Idealize.ShloMosaic.Adequacy
import Idealize.ShloMosaic.Init

noncomputable section

namespace Cert.Proof

open Idealize.ShloMosaic Idealize.ShloMosaic.TcCoe Idealize.SL.Sem Cert.Hist

/-- The word-level kernel runs and keeps its arguments: its generated frame run. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run, with the results dropped. -/
theorem frame_referenceIdeal : Cert.frame_ReferenceIdeal := fun m ρ _ =>
  (θ_run Cert.ReferenceIdeal.defs _ _).mono (fun _ h c => ⟨(h c).2.2.2.2.1, (h c).2.2.2.2.2⟩)
    (Cert.ReferenceIdeal.Value.run (F := Ideal) m ρ)

section KernelRun

open Cert.KernelIdeal Cert.KernelIdeal.Gen

/-- Over the extended reals every run of the kernel program ends with its four results at the counts of the
    horizontal and vertical differences of its two arguments, and the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v4) = (fun i => BitVec.ofNat 32 (countX (m ((c.tc : Thread nD τ).loc main_arg0)) (i 0).val))
      ∧ r.2.mem ((c.tc : Thread nD τ).loc main_v8) = (fun i => BitVec.ofNat 32 (countY (m ((c.tc : Thread nD τ).loc main_arg0)) (i 0).val))
      ∧ r.2.mem ((c.tc : Thread nD τ).loc main_v12) = (fun i => BitVec.ofNat 32 (countX (m ((c.tc : Thread nD τ).loc main_arg1)) (i 0).val))
      ∧ r.2.mem ((c.tc : Thread nD τ).loc main_v16) = (fun i => BitVec.ofNat 32 (countY (m ((c.tc : Thread nD τ).loc main_arg1)) (i 0).val))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    obtain ⟨h4, h8, h12, h16, ha0, ha1⟩ := h c
    refine ⟨h4.trans ?_, h8.trans ?_, h12.trans ?_, h16.trans ?_, ha0, ha1⟩
    · rw [Cert.KernelIdeal.Running.final2]
      exact Cert.KernelIdeal.KernelMath.result_X (m ((c.tc : Thread nD τ).loc main_arg0)) (Cert.KernelIdeal.Running.blk0 m c)
        N_0 Cert.KernelIdeal.Running.hN (fun t r q => Cert.KernelIdeal.Running.tile_blk0 m c t r q)
    · rw [Cert.KernelIdeal.Running.final3]
      exact Cert.KernelIdeal.KernelMath.result_Y (m ((c.tc : Thread nD τ).loc main_arg0)) (Cert.KernelIdeal.Running.blk0 m c)
        N_0 Cert.KernelIdeal.Running.hN (fun t r q => Cert.KernelIdeal.Running.tile_blk0 m c t r q)
    · rw [Cert.KernelIdeal.Running.final4]
      exact Cert.KernelIdeal.KernelMath.result_X (m ((c.tc : Thread nD τ).loc main_arg1)) (Cert.KernelIdeal.Running.blk1 m c)
        N_0 Cert.KernelIdeal.Running.hN (fun t r q => Cert.KernelIdeal.Running.tile_blk1 m c t r q)
    · rw [Cert.KernelIdeal.Running.final5]
      exact Cert.KernelIdeal.KernelMath.result_Y (m ((c.tc : Thread nD τ).loc main_arg1)) (Cert.KernelIdeal.Running.blk1 m c)
        N_0 Cert.KernelIdeal.Running.hN (fun t r q => Cert.KernelIdeal.Running.tile_blk1 m c t r q))
    (Cert.KernelIdeal.TailRun.run_tail m ρ)

end KernelRun

/-- From memories that agree on the two stacks both programs end with the same four vectors of counts. -/
theorem algebraic : Cert.algebraic_KernelIdeal_ReferenceIdeal := by
  intro m ρ m' ρ' _ hagree
  refine ⟨_, _, _, _, kernel_run m ρ, ?_⟩
  refine (θ_run Cert.ReferenceIdeal.defs _ _).mono (fun r h c => ?_) (Cert.ReferenceIdeal.Value.run (F := Ideal) m' ρ')
  obtain ⟨h31, h51, h71, h91, ha0, ha1⟩ := h c
  refine ⟨h31.trans ?_, h51.trans ?_, h71.trans ?_, h91.trans ?_, ha0, ha1⟩
  · rw [Cert.ReferenceIdeal.Read.val_main_v31_eq, Cert.ReferenceIdeal.RefValue.val_v31, (hagree c).1]
    rfl
  · rw [Cert.ReferenceIdeal.Read.val_main_v51_eq, Cert.ReferenceIdeal.RefValue.val_v51, (hagree c).1]
    rfl
  · rw [Cert.ReferenceIdeal.Read.val_main_v71_eq, Cert.ReferenceIdeal.RefValue.val_v71, (hagree c).2]
    rfl
  · rw [Cert.ReferenceIdeal.Read.val_main_v91_eq, Cert.ReferenceIdeal.RefValue.val_v91, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
